-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S128 .f32) (main_arg6 : FVec F S128x2 .f32) (main_arg7 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg6
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x2 .f32) (main_arg7 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1700000x128 : Shape := ⟨2, ![1700000, 128]⟩
abbrev S1x128 : Shape := ⟨2, ![1, 128]⟩
abbrev S1x2 : Shape := ⟨2, ![1, 2]⟩
abbrev S100000x2 : Shape := ⟨2, ![100000, 2]⟩
abbrev S4000x2 : Shape := ⟨2, ![4000, 2]⟩
abbrev S4000 : Shape := ⟨1, ![4000]⟩
abbrev S4000x1 : Shape := ⟨2, ![4000, 1]⟩

abbrev nBuf : Space → Nat
  | .hbm => 107
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x128, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000, .f32⟩
  | .hbm, ⟨86, _⟩ => ⟨S1700000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x128, .f32⟩
  | .hbm, ⟨96, _⟩ => ⟨S1700000x1, .f32⟩
  | .hbm, ⟨97, _⟩ => ⟨S1700000x128, .f32⟩
  | .hbm, ⟨98, _⟩ => ⟨S1700000x128, .f32⟩
  | .hbm, ⟨99, _⟩ => ⟨S_, .f32⟩
  | .hbm, ⟨100, _⟩ => ⟨S100000x128, .f32⟩
  | .hbm, ⟨101, _⟩ => ⟨S1700000x1, .i32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S1x2, .f32⟩
  | .hbm, ⟨106, _⟩ => ⟨S100000x2, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x2, .f32⟩
  | .local _ .vmem, ⟨23, _⟩ => ⟨S1x2, .f32⟩
  | .local _ .vmem, ⟨24, _⟩ => ⟨S4000x2, .f32⟩
  | .local _ .vmem, ⟨25, _⟩ => ⟨S4000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  reduces_S4000x2_S4000 : S4000x2.Reduces [1] S4000
  shapeCasts_S4000_S4000x1 : S4000.ShapeCasts S4000x1
  broadcasts_S4000x1_S4000x2 : S4000x1.Broadcasts S4000x2
  inb_S4000x2_S4000x2_0_0 : ∀ a, (![0, 0] : Fin 2 → Nat) a + S4000x2.size a ≤ S4000x2.size a
  h_S4000x2 : 0 < S4000x2.numel
  scatter_S100000_S1700000x1_S1700000_n_0_0_1_wf : ScatterDims.WF S100000 S1700000x1 S1700000 [] [0] [0] 1
  dot_S4000x128_S128x128_S4000x128_1_0_0_1_n_n_wf : DotDims.WF S4000x128 S128x128 S4000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x2_S4000x2_1_0_0_1_n_n_wf : DotDims.WF S4000x128 S128x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x2.size a ≤ S128x2.size a
  hwx4_1 : ∀ i : grid4.Coords, EltTy.bits .f32 = 32 ∨ (Rect.block (s := S128x2) S128x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x2.size a ≤ S100000x2.size a
  hwx4_3 : ∀ i : grid4.Coords, EltTy.bits .f32 = 32 ∨ (Rect.block (s := S100000x2) S4000x2.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S4000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x2 : Shape := ⟨2, ![100000, 2]⟩
abbrev S1x2 : Shape := ⟨2, ![1, 2]⟩
abbrev S100000x1 : Shape := ⟨2, ![100000, 1]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x2, .f32⟩
  | 7 => ⟨S2, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S100000x128, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S1700000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x128, .f32⟩
  | 100 => ⟨S1700000x1, .f32⟩
  | 101 => ⟨S1700000x128, .f32⟩
  | 102 => ⟨S1700000x128, .f32⟩
  | 103 => ⟨S_, .f32⟩
  | 104 => ⟨S100000x128, .f32⟩
  | 105 => ⟨S1700000x1, .i32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x2, .f32⟩
  | 114 => ⟨S1x2, .f32⟩
  | 115 => ⟨S100000x2, .f32⟩
  | 116 => ⟨S100000x2, .f32⟩
  | 117 => ⟨S_, .f32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x2, .f32⟩
  | 124 => ⟨S100000x2, .f32⟩
  | 125 => ⟨S100000x2, .f32⟩
  | 126 => ⟨S_, .f32⟩
  | 127 => ⟨S100000, .f32⟩
  | _ => ⟨S100000x128, .f32⟩

abbrev hbmTy0_1 (i : Nat) : BufTy := match i % 128 with
  | 0 => ⟨S100000x1, .f32⟩
  | 1 => ⟨S100000x1, .f32⟩
  | 2 => ⟨S100000x2, .f32⟩
  | 3 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_call3_cst_0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_v6 : Ref sig .tc := ⟨.hbm, 125, rfl⟩
abbrev main_call3_cst_1 : Ref sig .tc := ⟨.hbm, 126, rfl⟩
abbrev main_call3_v7 : Ref sig .tc := ⟨.hbm, 127, rfl⟩
abbrev main_call3_v8 : Ref sig .tc := ⟨.hbm, 128, rfl⟩
abbrev main_call3_v9 : Ref sig .tc := ⟨.hbm, 129, rfl⟩
abbrev main_call3_v10 : Ref sig .tc := ⟨.hbm, 130, rfl⟩
abbrev main_v85 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibColToRow.lean ====
/-
  A column laid out again as a row and repeated down the rows, read at an entry (a general lemma: nothing here depends
  on a program).

  A column [A, 1] and a row [1, A] hold the same A entries in the same row-major order, so the row at (0, q) is the
  column at (q, 0).  A row [1, A] broadcast to B rows holds at (p, q) the row's entry q.  Together: a column turned into
  a row and broadcast to [B, A] holds at (p, q) the column's entry q — the value that depends on the column index
  alone.  Any sizes A, B.
-/
import Idealize.ShloMosaic.Lib.ValueIdx
import Idealize.ShloMosaic.Lib.Pipeline.Value

noncomputable section

namespace Cert.Lib.ColToRow

open Idealize.ShloMosaic Idealize.ShloMosaic.ValueIdx

/-- The row [1, A] made of a column [A, 1], at (0, q), is the column at (q, 0). -/
theorem colAsRow_apply {α : Type} {A : Nat} (c : (⟨2, ![A, 1]⟩ : Shape).Idx → α)
    (h : (⟨2, ![A, 1]⟩ : Shape).ShapeCasts ⟨2, ![1, A]⟩) (z : Fin 1) (q : Fin A) :
    shapeCast ⟨2, ![1, A]⟩ c h (ix2 z q) = c (ix2 q (0 : Fin 1)) := by
  refine shapeCast_apply c h (ix2 z q) (ix2 q (0 : Fin 1)) ?_
  rw [Shape.rowMajor_val_two, Shape.rowMajor_val_two]
  obtain rfl : z = 0 := Subsingleton.elim _ _
  show q.val * 1 + 0 = 0 * A + q.val
  omega

/-- A row [1, A] broadcast to B rows, at (p, q), is the row at (0, q). -/
theorem bcastRowMat_apply {α : Type} {A B : Nat} (r : (⟨2, ![1, A]⟩ : Shape).Idx → α)
    (h : (⟨2, ![1, A]⟩ : Shape).Broadcasts ⟨2, ![B, A]⟩) (p : Fin B) (q : Fin A) :
    broadcastTo ⟨2, ![B, A]⟩ r h (ix2 p q) = r (ix2 (0 : Fin 1) q) := by
  refine broadcastTo_apply r h (ix2 p q) (ix2 (0 : Fin 1) q) ?_
  intro a
  match a with
  | ⟨0, _⟩ => simp
  | ⟨1, _⟩ =>
    show q.val = if A = 1 then 0 else q.val
    split
    · have := q.isLt; omega
    · rfl

/-- A column turned into a row and broadcast to B rows, at (p, q), is the column at (q, 0). -/
theorem colAsRowBcast_apply {α : Type} {A B : Nat} (c : (⟨2, ![A, 1]⟩ : Shape).Idx → α)
    (h1 : (⟨2, ![A, 1]⟩ : Shape).ShapeCasts ⟨2, ![1, A]⟩) (h2 : (⟨2, ![1, A]⟩ : Shape).Broadcasts ⟨2, ![B, A]⟩)
    (p : Fin B) (q : Fin A) :
    broadcastTo ⟨2, ![B, A]⟩ (shapeCast ⟨2, ![1, A]⟩ c h1) h2 (ix2 p q) = c (ix2 q (0 : Fin 1)) :=
  (bcastRowMat_apply _ h2 p q).trans (colAsRow_apply c h1 0 q)

end Cert.Lib.ColToRow

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibDenseRows.lean ====
/-
  The dense layers of a two-layer graph convolution with linear residuals, as whole-array functions over the
  extended reals, for any sizes.

  With x an [A, K] matrix, w a [K, C] matrix, r a one-row matrix [1, C] and a, d matrices [A, C]:
    lin x w       (p, q) = sum over k < K of x (p, k) * w (k, q)          -- the product x·w
    affine x w r  (p, q) = lin x w (p, q) + r (0, q)                       -- x·w + r, r repeated down the rows
    rect a r d    (p, q) = max (a (p, q) + r (0, q)) 0 + d (p, q)          -- relu (a + r) + d
  Each depends on row p of its row-indexed operands only, so a block of rows of the result is the same function of
  the same block of rows of the operands ('lin_rows', 'affine_rows', 'rect_rows').

  A kernel body computes them on a block: a matrix-unit product of the operands narrowed to bf16 into a zero
  accumulator is 'lin' (narrowing is the identity on the extended reals); a one-row matrix recast to its own shape and
  broadcast down the rows, added, gives 'affine'; the maximum against the splat of zero and the residual give 'rect'.
  The host computes them on the whole arrays: dot_general is 'lin'.
-/
import Idealize.ShloMosaic.Lib.ValueIdx
import Idealize.ShloMosaic.Lib.Pipeline.Value
import Idealize.ShloMosaic.PureOps.Ideal.Laws
import proofs.«116533_j5755256176696_1_alg».proof.Proof.LibMatmul
import proofs.«116533_j5755256176696_1_alg».proof.Proof.LibColToRow
import proofs.«116533_j5755256176696_1_alg».proof.Proof.LibLayout

noncomputable section

namespace Cert.Gcn

open Idealize.ShloMosaic Idealize.ShloMosaic.ValueIdx

/-- An [A, C] matrix of extended reals. -/
abbrev Mat (A C : Nat) : Type := (⟨2, ![A, C]⟩ : Shape).Idx → EReal

variable {A B K C : Nat}

/-- The product x·w. -/
def lin (x : Mat A K) (w : Mat K C) : Mat A C :=
  fun i => ∑ k : Fin K, x (ix2 (i 0 : Fin A) k) * w (ix2 k (i 1 : Fin C))

/-- x·w + r, the one row r repeated down the rows. -/
def affine (x : Mat A K) (w : Mat K C) (r : Mat 1 C) : Mat A C :=
  fun i => lin x w i + r (ix2 (0 : Fin 1) (i 1 : Fin C))

/-- relu (a + r) + d, the one row r repeated down the rows. -/
def rect (a : Mat A C) (r : Mat 1 C) (d : Mat A C) : Mat A C :=
  fun i => max (a i + r (ix2 (0 : Fin 1) (i 1 : Fin C))) 0 + d i

theorem lin_apply (x : Mat A K) (w : Mat K C) (p : Fin A) (q : Fin C) :
    lin x w (ix2 p q) = ∑ k : Fin K, x (ix2 p k) * w (ix2 k q) := rfl

theorem affine_apply (x : Mat A K) (w : Mat K C) (r : Mat 1 C) (p : Fin A) (q : Fin C) :
    affine x w r (ix2 p q) = (∑ k : Fin K, x (ix2 p k) * w (ix2 k q)) + r (ix2 (0 : Fin 1) q) := rfl

theorem rect_apply (a : Mat A C) (r : Mat 1 C) (d : Mat A C) (p : Fin A) (q : Fin C) :
    rect a r d (ix2 p q) = max (a (ix2 p q) + r (ix2 (0 : Fin 1) q)) 0 + d (ix2 p q) := rfl

/-! ## Rows: a block of rows of the result from the same block of rows of the operands -/

/-- Rows `ρ p` of the big product are the product of those rows. -/
theorem lin_rows (X : Mat A K) (W : Mat K C) (xb : Mat B K) (wb : Mat K C) (ρ : Fin B → Fin A)
    (hx : ∀ p k, xb (ix2 p k) = X (ix2 (ρ p) k)) (hw : ∀ k q, wb (ix2 k q) = W (ix2 k q)) (p : Fin B) (q : Fin C) :
    lin xb wb (ix2 p q) = lin X W (ix2 (ρ p) q) := by
  rw [lin_apply, lin_apply]
  exact Finset.sum_congr rfl fun k _ => by rw [hx p k, hw k q]

theorem affine_rows (X : Mat A K) (W : Mat K C) (R : Mat 1 C) (xb : Mat B K) (wb : Mat K C) (rb : Mat 1 C) (ρ : Fin B → Fin A)
    (hx : ∀ p k, xb (ix2 p k) = X (ix2 (ρ p) k)) (hw : ∀ k q, wb (ix2 k q) = W (ix2 k q))
    (hr : ∀ q, rb (ix2 (0 : Fin 1) q) = R (ix2 (0 : Fin 1) q)) (p : Fin B) (q : Fin C) :
    affine xb wb rb (ix2 p q) = affine X W R (ix2 (ρ p) q) := by
  rw [affine_apply, affine_apply, hr q]
  exact congrArg (· + R (ix2 (0 : Fin 1) q)) (Finset.sum_congr rfl fun k _ => by rw [hx p k, hw k q])

theorem rect_rows (Aa : Mat A C) (R : Mat 1 C) (D : Mat A C) (ab : Mat B C) (rb : Mat 1 C) (db : Mat B C) (ρ : Fin B → Fin A)
    (ha : ∀ p q, ab (ix2 p q) = Aa (ix2 (ρ p) q)) (hr : ∀ q, rb (ix2 (0 : Fin 1) q) = R (ix2 (0 : Fin 1) q))
    (hd : ∀ p q, db (ix2 p q) = D (ix2 (ρ p) q)) (p : Fin B) (q : Fin C) :
    rect ab rb db (ix2 p q) = rect Aa R D (ix2 (ρ p) q) := by
  rw [rect_apply, rect_apply, ha p q, hr q, hd p q]

/-! ## The kernel's spelling, on a block -/

/-- A matrix-unit product into the zero accumulator is the product (whatever formats the operands were narrowed to). -/
theorem matmul_eq_lin {φ₁ φ₂ : FTy} (l : FVec Ideal ⟨2, ![A, K]⟩ φ₁) (r : FVec Ideal ⟨2, ![K, C]⟩ φ₂) :
    FloatOps.matmul (DotDims.plain A K C) none l r (constant ⟨2, ![A, C]⟩ .f32 0x00000000#32) = lin l r := by
  funext i
  obtain ⟨p, q, rfl⟩ : ∃ (p : Fin A) (q : Fin C), i = ix2 p q := ⟨i 0, i 1, eq_ix2 i⟩
  exact Cert.Lib.Matmul.matmul_zero_apply none l r p q

/-- The product plus a one-row matrix recast to its own shape and broadcast down the rows. -/
theorem addRow_eq_affine (m : FVec Ideal ⟨2, ![A, C]⟩ .f32) (x : Mat A K) (w : Mat K C) (hm : m = lin x w)
    (r : FVec Ideal ⟨2, ![1, C]⟩ .f32) (hs : (⟨2, ![1, C]⟩ : Shape).ShapeCasts ⟨2, ![1, C]⟩)
    (hb : (⟨2, ![1, C]⟩ : Shape).Broadcasts ⟨2, ![A, C]⟩) :
    addf m (broadcastTo ⟨2, ![A, C]⟩ (shapeCast ⟨2, ![1, C]⟩ r hs) hb) = affine x w r := by
  subst hm
  funext i
  obtain ⟨p, q, rfl⟩ : ∃ (p : Fin A) (q : Fin C), i = ix2 p q := ⟨i 0, i 1, eq_ix2 i⟩
  rw [shapeCast_self]
  show lin x w (ix2 p q) + broadcastTo ⟨2, ![A, C]⟩ r hb (ix2 p q) = _
  rw [Cert.Lib.ColToRow.bcastRowMat_apply r hb p q]
  rfl

/-- relu (a + r) + d in the kernel's spelling: every operand recast to its own shape, the row broadcast down, the maximum
    against the splat of the zero word, the residual added. -/
theorem body_eq_rect (a d : FVec Ideal ⟨2, ![A, C]⟩ .f32) (r : FVec Ideal ⟨2, ![1, C]⟩ .f32)
    (ha : (⟨2, ![A, C]⟩ : Shape).ShapeCasts ⟨2, ![A, C]⟩) (hs : (⟨2, ![1, C]⟩ : Shape).ShapeCasts ⟨2, ![1, C]⟩)
    (hb : (⟨2, ![1, C]⟩ : Shape).Broadcasts ⟨2, ![A, C]⟩) :
    addf (maximumf (addf (shapeCast ⟨2, ![A, C]⟩ a ha) (broadcastTo ⟨2, ![A, C]⟩ (shapeCast ⟨2, ![1, C]⟩ r hs) hb))
        (broadcast ⟨2, ![A, C]⟩ (Scalar.ofBits (F := Ideal) .f32 0x00000000#32))) (shapeCast ⟨2, ![A, C]⟩ d ha)
      = rect a r d := by
  funext i
  obtain ⟨p, q, rfl⟩ : ∃ (p : Fin A) (q : Fin C), i = ix2 p q := ⟨i 0, i 1, eq_ix2 i⟩
  rw [shapeCast_self, shapeCast_self, shapeCast_self]
  show max (a (ix2 p q) + broadcastTo ⟨2, ![A, C]⟩ r hb (ix2 p q)) (Ideal.ofBits .f32 0x00000000#32) + d (ix2 p q) = _
  rw [Cert.Lib.ColToRow.bcastRowMat_apply r hb p q, Ideal.ofBits_zero_f32]
  rfl

/-! ## The host's spelling, on the whole arrays -/

/-- The host's dot_general is the product. -/
theorem dotGeneral_eq_lin {φ₁ φ₂ : FTy} (sched : HostSchedule) (l : FVec Ideal ⟨2, ![A, K]⟩ φ₁) (r : FVec Ideal ⟨2, ![K, C]⟩ φ₂) :
    FloatOps.dotGeneral (DotDims.plain A K C) none sched l r = lin l r := by
  funext i
  obtain ⟨p, q, rfl⟩ : ∃ (p : Fin A) (q : Fin C), i = ix2 p q := ⟨i 0, i 1, eq_ix2 i⟩
  exact Cert.Lib.Matmul.dotGeneral_apply none sched l r p q

/-- The host's x·w + r: dot_general plus the one row spread over the rows by broadcast_in_dim. -/
theorem host_affine (sched : HostSchedule) (l : FVec Ideal ⟨2, ![A, K]⟩ .f32) (r : FVec Ideal ⟨2, ![K, C]⟩ .f32)
    (R : FVec Ideal ⟨2, ![1, C]⟩ .f32) (hb : (⟨2, ![1, C]⟩ : Shape).BroadcastsInDim ⟨2, ![A, C]⟩ ![0, 1]) :
    addf (FloatOps.dotGeneral (DotDims.plain A K C) none sched l r) (broadcastInDim ⟨2, ![A, C]⟩ ![0, 1] hb R) = affine l r R := by
  funext i
  obtain ⟨p, q, rfl⟩ : ∃ (p : Fin A) (q : Fin C), i = ix2 p q := ⟨i 0, i 1, eq_ix2 i⟩
  show FloatOps.dotGeneral (DotDims.plain A K C) none sched l r (ix2 p q) + broadcastInDim ⟨2, ![A, C]⟩ ![0, 1] hb R (ix2 p q) = _
  rw [Cert.Lib.Matmul.dotGeneral_apply none sched l r p q,
    broadcastInDim_apply ![0, 1] hb R (ix2 p q) (ix2 (0 : Fin 1) q) (fun a => by
      match a with
      | ⟨0, _⟩ => simp
      | ⟨1, _⟩ =>
        show q.val = if C = 1 then 0 else q.val
        split
        · have := q.isLt; omega
        · rfl)]
  rfl

/-- The host's relu (a + r) + d: the one row spread over the rows, the maximum against the spread zero, the residual. -/
theorem host_rect (a d : FVec Ideal ⟨2, ![A, C]⟩ .f32) (R : FVec Ideal ⟨2, ![1, C]⟩ .f32)
    (hb : (⟨2, ![1, C]⟩ : Shape).BroadcastsInDim ⟨2, ![A, C]⟩ ![0, 1])
    (hz : (⟨0, ![]⟩ : Shape).BroadcastsInDim ⟨2, ![A, C]⟩ ![]) :
    addf (maximumf (addf a (broadcastInDim ⟨2, ![A, C]⟩ ![0, 1] hb R))
        (broadcastInDim ⟨2, ![A, C]⟩ ![] hz (constant (F := Ideal) ⟨0, ![]⟩ .f32 0x00000000#32))) d = rect a R d := by
  funext i
  obtain ⟨p, q, rfl⟩ : ∃ (p : Fin A) (q : Fin C), i = ix2 p q := ⟨i 0, i 1, eq_ix2 i⟩
  show max (a (ix2 p q) + broadcastInDim ⟨2, ![A, C]⟩ ![0, 1] hb R (ix2 p q))
      (broadcastInDim ⟨2, ![A, C]⟩ ![] hz (constant (F := Ideal) ⟨0, ![]⟩ .f32 0x00000000#32) (ix2 p q)) + d (ix2 p q) = _
  rw [broadcastInDim_apply ![0, 1] hb R (ix2 p q) (ix2 (0 : Fin 1) q) (fun a => by
      match a with
      | ⟨0, _⟩ => simp
      | ⟨1, _⟩ =>
        show q.val = if C = 1 then 0 else q.val
        split
        · have := q.isLt; omega
        · rfl),
    broadcastInDim_apply ![] hz (constant (F := Ideal) ⟨0, ![]⟩ .f32 0x00000000#32) (ix2 p q) ix0 (fun a => a.elim0)]
  show max (a (ix2 p q) + R (ix2 (0 : Fin 1) q)) (Ideal.ofBits .f32 0x00000000#32) + d (ix2 p q) = _
  rw [Ideal.ofBits_zero_f32]
  rfl

/-- A vector laid out as one row in two ways, by a recast and by a broadcast along the new axis: the same row. -/
theorem rowCast_eq_rowBcast {α : Type} (v : (⟨1, ![C]⟩ : Shape).Idx → α)
    (h1 : (⟨1, ![C]⟩ : Shape).ShapeCasts ⟨2, ![1, C]⟩) (h2 : (⟨1, ![C]⟩ : Shape).BroadcastsInDim ⟨2, ![1, C]⟩ ![1]) :
    shapeCast ⟨2, ![1, C]⟩ v h1 = broadcastInDim ⟨2, ![1, C]⟩ ![1] h2 v := by
  funext i
  obtain ⟨z, q, rfl⟩ : ∃ (z : Fin 1) (q : Fin C), i = ix2 z q := ⟨i 0, i 1, eq_ix2 i⟩
  rw [Cert.Lib.Layout.rowCast_apply v h1 z q,
    broadcastInDim_apply ![1] h2 v (ix2 z q) (ix1 q) (fun a => by
      match a with
      | ⟨0, _⟩ =>
        show q.val = if C = 1 then 0 else q.val
        split
        · have := q.isLt; omega
        · rfl)]

end Cert.Gcn

end
-- ==== Proof.LibBiasRelu.lean ====
/-
  relu (a + r) with r a one-row matrix repeated down the rows, as a whole-array function over the extended reals, for
  any sizes (a general lemma: nothing here depends on a program).

    biasRelu a r (p, q) = max (a (p, q) + r (0, q)) 0

  It depends on row p of a only, so a block of rows of the result is the same function of the same block of rows of a
  ('biasRelu_rows').  A kernel body computes it on a block (every operand recast to its own shape, the row broadcast
  down, the maximum against the splat of the zero word); the host computes it on the whole array (the row spread by
  broadcast_in_dim, the maximum against the spread zero constant).
-/
import Idealize.ShloMosaic.Lib.ValueIdx
import Idealize.ShloMosaic.Lib.Pipeline.Value
import Idealize.ShloMosaic.PureOps.Ideal.Laws
import proofs.«116533_j5755256176696_1_alg».proof.Proof.LibDenseRows

noncomputable section

namespace Cert.Gcn

open Idealize.ShloMosaic Idealize.ShloMosaic.ValueIdx

variable {A B C : Nat}

/-- relu (a + r), the one row r repeated down the rows. -/
def biasRelu (a : Mat A C) (r : Mat 1 C) : Mat A C :=
  fun i => max (a i + r (ix2 (0 : Fin 1) (i 1 : Fin C))) 0

theorem biasRelu_apply (a : Mat A C) (r : Mat 1 C) (p : Fin A) (q : Fin C) :
    biasRelu a r (ix2 p q) = max (a (ix2 p q) + r (ix2 (0 : Fin 1) q)) 0 := rfl

/-- Rows `ρ p` of the big array's relu (a + r) are the relu (a + r) of those rows. -/
theorem biasRelu_rows (Aa : Mat A C) (R : Mat 1 C) (ab : Mat B C) (rb : Mat 1 C) (ρ : Fin B → Fin A)
    (ha : ∀ p q, ab (ix2 p q) = Aa (ix2 (ρ p) q)) (hr : ∀ q, rb (ix2 (0 : Fin 1) q) = R (ix2 (0 : Fin 1) q))
    (p : Fin B) (q : Fin C) :
    biasRelu ab rb (ix2 p q) = biasRelu Aa R (ix2 (ρ p) q) := by
  rw [biasRelu_apply, biasRelu_apply, ha p q, hr q]

/-- The kernel's spelling on a block: both operands recast to their own shapes, the row broadcast down, the maximum
    against the splat of the zero word. -/
theorem kernel_biasRelu (a : FVec Ideal ⟨2, ![A, C]⟩ .f32) (r : FVec Ideal ⟨2, ![1, C]⟩ .f32)
    (ha : (⟨2, ![A, C]⟩ : Shape).ShapeCasts ⟨2, ![A, C]⟩) (hs : (⟨2, ![1, C]⟩ : Shape).ShapeCasts ⟨2, ![1, C]⟩)
    (hb : (⟨2, ![1, C]⟩ : Shape).Broadcasts ⟨2, ![A, C]⟩) :
    maximumf (addf (shapeCast ⟨2, ![A, C]⟩ a ha) (broadcastTo ⟨2, ![A, C]⟩ (shapeCast ⟨2, ![1, C]⟩ r hs) hb))
        (broadcast ⟨2, ![A, C]⟩ (Scalar.ofBits (F := Ideal) .f32 0x00000000#32))
      = biasRelu a r := by
  funext i
  obtain ⟨p, q, rfl⟩ : ∃ (p : Fin A) (q : Fin C), i = ix2 p q := ⟨i 0, i 1, eq_ix2 i⟩
  rw [shapeCast_self, shapeCast_self]
  show max (a (ix2 p q) + broadcastTo ⟨2, ![A, C]⟩ r hb (ix2 p q)) (Ideal.ofBits .f32 0x00000000#32) = _
  rw [Cert.Lib.ColToRow.bcastRowMat_apply r hb p q, Ideal.ofBits_zero_f32]
  rfl

/-- The host's spelling on the whole array: the row spread over the rows by broadcast_in_dim, the maximum against the
    spread zero constant. -/
theorem host_biasRelu (a : FVec Ideal ⟨2, ![A, C]⟩ .f32) (R : FVec Ideal ⟨2, ![1, C]⟩ .f32)
    (hb : (⟨2, ![1, C]⟩ : Shape).BroadcastsInDim ⟨2, ![A, C]⟩ ![0, 1])
    (hz : (⟨0, ![]⟩ : Shape).BroadcastsInDim ⟨2, ![A, C]⟩ ![]) :
    maximumf (addf a (broadcastInDim ⟨2, ![A, C]⟩ ![0, 1] hb R))
        (broadcastInDim ⟨2, ![A, C]⟩ ![] hz (constant (F := Ideal) ⟨0, ![]⟩ .f32 0x00000000#32))
      = biasRelu a R := by
  funext i
  obtain ⟨p, q, rfl⟩ : ∃ (p : Fin A) (q : Fin C), i = ix2 p q := ⟨i 0, i 1, eq_ix2 i⟩
  show max (a (ix2 p q) + broadcastInDim ⟨2, ![A, C]⟩ ![0, 1] hb R (ix2 p q))
      (broadcastInDim ⟨2, ![A, C]⟩ ![] hz (constant (F := Ideal) ⟨0, ![]⟩ .f32 0x00000000#32) (ix2 p q)) = _
  rw [broadcastInDim_apply ![0, 1] hb R (ix2 p q) (ix2 (0 : Fin 1) q) (fun a => by
      match a with
      | ⟨0, _⟩ => simp
      | ⟨1, _⟩ =>
        show q.val = if C = 1 then 0 else q.val
        split
        · have := q.isLt; omega
        · rfl),
    broadcastInDim_apply ![] hz (constant (F := Ideal) ⟨0, ![]⟩ .f32 0x00000000#32) (ix2 p q) ix0 (fun a => a.elim0)]
  show max (a (ix2 p q) + R (ix2 (0 : Fin 1) q)) (Ideal.ofBits .f32 0x00000000#32) = _
  rw [Ideal.ofBits_zero_f32]
  rfl

end Cert.Gcn

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.LibColSum.lean ====
/-
  Row sums kept as a column, read at an entry (a general lemma: nothing here depends on a program).

  A column [A, 1] broadcast to B columns holds at (p, q) the column's entry p.  The sums along the rows of an [A, K]
  matrix, laid out as a column [A, 1], hold at (p, 0) the sum over k < K of the matrix at (p, k): the form a kernel
  gives a sum over the last axis that keeps that axis with extent one.  The accumulator fact is stated as the
  equation of two zero words, the form in which a printed reduction carries it.
-/
import proofs.«116533_j5755256176696_1_alg».proof.Proof.LibLayoutCol
import proofs.«116533_j5755256176696_1_alg».proof.Proof.LibAxisSum
import Idealize.ShloMosaic.Lib.ValueIdx
import Idealize.ShloMosaic.Lib.Pipeline.Value
import Idealize.ShloMosaic.PureOps.Ideal.Laws

noncomputable section

open scoped BigOperators

namespace Cert.Lib.ColSum

open Idealize.ShloMosaic Idealize.ShloMosaic.ValueIdx

/-- A column [A, 1] broadcast to B columns, at (p, q), is the column at p. -/
theorem bcastColMat_apply {α : Type} {A B : Nat} (c : (⟨2, ![A, 1]⟩ : Shape).Idx → α)
    (h : (⟨2, ![A, 1]⟩ : Shape).Broadcasts ⟨2, ![A, B]⟩) (p : Fin A) (q : Fin B) :
    broadcastTo ⟨2, ![A, B]⟩ c h (ix2 p q) = c (ix2 p (0 : Fin 1)) := by
  refine broadcastTo_apply c h (ix2 p q) (ix2 p (0 : Fin 1)) ?_
  intro a
  match a with
  | ⟨0, _⟩ =>
    show p.val = if A = 1 then 0 else p.val
    split
    · have := p.isLt; omega
    · rfl
  | ⟨1, _⟩ => simp

/-- The sums along the rows of a matrix, laid out as a column: at (p, 0) the sum of row p. -/
theorem rowSumCol_apply {A K : Nat} (src : FVec Ideal ⟨2, ![A, K]⟩ .f32)
    (h : (⟨2, ![A, K]⟩ : Shape).Reduces [1] ⟨1, ![A]⟩) (hφ : FKind.Formats .f32) (hacc : (0x00000000#32 : BitVec 32) = 0x00000000#32)
    (hc : (⟨1, ![A]⟩ : Shape).ShapeCasts ⟨2, ![A, 1]⟩) (p : Fin A) (z : Fin 1) :
    shapeCast ⟨2, ![A, 1]⟩ (multiReduction .add [1] ⟨1, ![A]⟩ src 0x00000000#32 h hφ hacc) hc (ix2 p z)
      = ∑ k : Fin K, (src (ix2 p k) : EReal) := by
  exact (Cert.Lib.LayoutCol.colCast_apply _ hc p z).trans (Cert.Lib.AxisSum.rowSum_apply src 0x00000000#32 h hφ hacc p)

end Cert.Lib.ColSum

end
-- ==== Proof.LibLogSoftmaxRows.lean ====
/-
  The row-wise log-softmax of a matrix plus a one-row bias, as a whole-array function over the extended reals, for any
  sizes (a general lemma: nothing here depends on a program).

    addRow a r (p, q)   = a (p, q) + r (0, q)
    rowMax z p          = the maximum of row p of z, folded from -inf
    logSoftmax z (p, q) = (z (p, q) - rowMax z p) - log (sum over k of exp (z (p, k) - rowMax z p))

  Each depends on row p only, so a block of rows of the result is the same function of the same block of rows
  ('logSoftmax_addRow_rows').  A kernel body computes it on a block with lane reductions kept as columns; the host
  computes it on the whole array with reduce and broadcast_in_dim, and takes one more maximum against -inf, which
  changes nothing.
-/
import Idealize.ShloMosaic.Lib.ValueIdx
import Idealize.ShloMosaic.Lib.Pipeline.Value
import Idealize.ShloMosaic.PureOps.Ideal.Laws
import proofs.«116533_j5755256176696_1_alg».proof.Proof.LibDenseRows
import proofs.«116533_j5755256176696_1_alg».proof.Proof.LibAxisSum
import proofs.«116533_j5755256176696_1_alg».proof.Proof.LibLayoutCol
import proofs.«116533_j5755256176696_1_alg».proof.Proof.LibColSum

noncomputable section

namespace Cert.Gcn

open Idealize.ShloMosaic Idealize.ShloMosaic.ValueIdx

variable {A B C : Nat}

/-- a + r, the one row r repeated down the rows. -/
def addRow (a : Mat A C) (r : Mat 1 C) : Mat A C :=
  fun i => a i + r (ix2 (0 : Fin 1) (i 1 : Fin C))

/-- The maximum of row p, folded from -inf. -/
def rowMax (z : Mat A C) (p : Fin A) : EReal :=
  (Finset.univ : Finset (Fin C)).fold max ⊥ fun k => z (ix2 p k)

/-- The row-wise log-softmax, shifted by the row's maximum. -/
def logSoftmax (z : Mat A C) : Mat A C :=
  fun i => (z i - rowMax z (i 0)) - Ideal.log (∑ k : Fin C, Ideal.exp (z (ix2 (i 0 : Fin A) k) - rowMax z (i 0)))

theorem addRow_apply (a : Mat A C) (r : Mat 1 C) (p : Fin A) (q : Fin C) :
    addRow a r (ix2 p q) = a (ix2 p q) + r (ix2 (0 : Fin 1) q) := rfl

theorem logSoftmax_apply (z : Mat A C) (p : Fin A) (q : Fin C) :
    logSoftmax z (ix2 p q)
      = (z (ix2 p q) - rowMax z p) - Ideal.log (∑ k : Fin C, Ideal.exp (z (ix2 p k) - rowMax z p)) := rfl

/-- Rows `ρ p` of the big array's log-softmax of a + r are the log-softmax of those rows of a, plus r. -/
theorem logSoftmax_addRow_rows (Z : Mat A C) (R : Mat 1 C) (zb : Mat B C) (rb : Mat 1 C) (ρ : Fin B → Fin A)
    (hz : ∀ p k, zb (ix2 p k) = Z (ix2 (ρ p) k)) (hr : ∀ q, rb (ix2 (0 : Fin 1) q) = R (ix2 (0 : Fin 1) q))
    (p : Fin B) (q : Fin C) :
    logSoftmax (addRow zb rb) (ix2 p q) = logSoftmax (addRow Z R) (ix2 (ρ p) q) := by
  have hrow : ∀ k, addRow zb rb (ix2 p k) = addRow Z R (ix2 (ρ p) k) := fun k => by
    rw [addRow_apply, addRow_apply, hz p k, hr k]
  have hmax : rowMax (addRow zb rb) p = rowMax (addRow Z R) (ρ p) :=
    congrArg ((Finset.univ : Finset (Fin C)).fold max ⊥) (funext hrow)
  rw [logSoftmax_apply, logSoftmax_apply, hmax, hrow q]
  exact congrArg (fun s => addRow Z R (ix2 (ρ p) q) - rowMax (addRow Z R) (ρ p) - Ideal.log s)
    (Finset.sum_congr rfl fun k _ => by rw [hrow k])

/-- The f32 word of -inf is the bottom of the extended reals. -/
theorem ofBits_negInf_f32 : Ideal.ofBits .f32 0xFF800000#32 = ⊥ := by simp [Ideal.ofBits, Ideal.ieee]

/-! ## The kernel's spelling, on a block -/

/-- Both operands recast to their own shapes, the row broadcast down the rows and added: a + r. -/
theorem kernel_addRow (a : FVec Ideal ⟨2, ![A, C]⟩ .f32) (r : FVec Ideal ⟨2, ![1, C]⟩ .f32)
    (ha : (⟨2, ![A, C]⟩ : Shape).ShapeCasts ⟨2, ![A, C]⟩) (hs : (⟨2, ![1, C]⟩ : Shape).ShapeCasts ⟨2, ![1, C]⟩)
    (hb : (⟨2, ![1, C]⟩ : Shape).Broadcasts ⟨2, ![A, C]⟩) :
    addf (shapeCast ⟨2, ![A, C]⟩ a ha) (broadcastTo ⟨2, ![A, C]⟩ (shapeCast ⟨2, ![1, C]⟩ r hs) hb) = addRow a r := by
  funext i
  obtain ⟨p, q, rfl⟩ : ∃ (p : Fin A) (q : Fin C), i = ix2 p q := ⟨i 0, i 1, eq_ix2 i⟩
  rw [shapeCast_self, shapeCast_self]
  show a (ix2 p q) + broadcastTo ⟨2, ![A, C]⟩ r hb (ix2 p q) = _
  rw [Cert.Lib.ColToRow.bcastRowMat_apply r hb p q]
  rfl

/-- The maximum along each row from -inf: the reduction over axis 1, at p, is the row's maximum. -/
theorem rowMaxRed_apply (z : FVec Ideal ⟨2, ![A, C]⟩ .f32) (h : (⟨2, ![A, C]⟩ : Shape).Reduces [1] ⟨1, ![A]⟩)
    (hφ : FKind.Formats .f32) (hacc : (0xFF800000#32 : BitVec 32) = FKind.maximumf.neutral .f32 hφ) (p : Fin A) :
    multiReduction .maximumf [1] ⟨1, ![A]⟩ z 0xFF800000#32 h hφ hacc (ix1 p) = rowMax z p := by
  rw [Ideal.multiReduction_maximumf_single]
  show (Finset.univ : Finset (Fin C)).fold max (Ideal.ofBits .f32 0xFF800000#32) (z ∘ h.lift (ix1 p)) = _
  rw [ofBits_negInf_f32]
  refine congrArg ((Finset.univ : Finset (Fin C)).fold max ⊥) (funext fun k => congrArg z ?_)
  funext a
  match a with
  | ⟨0, _⟩ => rfl
  | ⟨1, _⟩ => rfl

/-- The row maxima kept as a column and broadcast over the columns: at (p, q) the maximum of row p. -/
theorem rowMaxCol_apply (z : FVec Ideal ⟨2, ![A, C]⟩ .f32) (h : (⟨2, ![A, C]⟩ : Shape).Reduces [1] ⟨1, ![A]⟩)
    (hφ : FKind.Formats .f32) (hacc : (0xFF800000#32 : BitVec 32) = FKind.maximumf.neutral .f32 hφ)
    (hcol : (⟨1, ![A]⟩ : Shape).ShapeCasts ⟨2, ![A, 1]⟩) (hbc : (⟨2, ![A, 1]⟩ : Shape).Broadcasts ⟨2, ![A, C]⟩)
    (p : Fin A) (q : Fin C) :
    broadcastTo ⟨2, ![A, C]⟩ (shapeCast ⟨2, ![A, 1]⟩
      (multiReduction .maximumf [1] ⟨1, ![A]⟩ z 0xFF800000#32 h hφ hacc) hcol) hbc (ix2 p q) = rowMax z p :=
  (Cert.Lib.LayoutCol.bcastCol_apply _ hcol hbc p q).trans (rowMaxRed_apply z h hφ hacc p)

/-- The log-softmax of a block in the kernel's spelling: the row maxima and the row sums of exponentials by lane
    reductions kept as columns. -/
theorem kernel_logSoftmax_of (z : FVec Ideal ⟨2, ![A, C]⟩ .f32)
    (hred : (⟨2, ![A, C]⟩ : Shape).Reduces [1] ⟨1, ![A]⟩)
    (hcol : (⟨1, ![A]⟩ : Shape).ShapeCasts ⟨2, ![A, 1]⟩) (hbc : (⟨2, ![A, 1]⟩ : Shape).Broadcasts ⟨2, ![A, C]⟩) :
    subf
      (subf z
        (broadcastTo ⟨2, ![A, C]⟩ (shapeCast ⟨2, ![A, 1]⟩
          (multiReduction .maximumf [1] ⟨1, ![A]⟩ z 0xFF800000#32 hred (.inl rfl) rfl) hcol) hbc))
      (broadcastTo ⟨2, ![A, C]⟩ (log (shapeCast ⟨2, ![A, 1]⟩
        (multiReduction .add [1] ⟨1, ![A]⟩
          (exp (subf z
            (broadcastTo ⟨2, ![A, C]⟩ (shapeCast ⟨2, ![A, 1]⟩
              (multiReduction .maximumf [1] ⟨1, ![A]⟩ z 0xFF800000#32 hred (.inl rfl) rfl) hcol) hbc)))
          0x00000000#32 hred (.inl rfl) rfl) hcol)) hbc)
      = logSoftmax z := by
  have hm : broadcastTo ⟨2, ![A, C]⟩ (shapeCast ⟨2, ![A, 1]⟩
      (multiReduction .maximumf [1] ⟨1, ![A]⟩ z 0xFF800000#32 hred (.inl rfl) rfl) hcol) hbc
      = fun i => rowMax z (i 0) := by
    funext i
    obtain ⟨p, q, rfl⟩ : ∃ (p : Fin A) (q : Fin C), i = ix2 p q := ⟨i 0, i 1, eq_ix2 i⟩
    exact rowMaxCol_apply z hred (.inl rfl) rfl hcol hbc p q
  rw [hm]
  funext i
  obtain ⟨p, q, rfl⟩ : ∃ (p : Fin A) (q : Fin C), i = ix2 p q := ⟨i 0, i 1, eq_ix2 i⟩
  show (z (ix2 p q) - rowMax z p)
      - broadcastTo ⟨2, ![A, C]⟩ (log (shapeCast ⟨2, ![A, 1]⟩
          (multiReduction .add [1] ⟨1, ![A]⟩ (exp (subf z fun i => rowMax z (i 0))) 0x00000000#32 hred (.inl rfl) rfl) hcol))
          hbc (ix2 p q) = _
  rw [Cert.Lib.ColSum.bcastColMat_apply _ hbc p q]
  show (z (ix2 p q) - rowMax z p)
      - Ideal.log (shapeCast ⟨2, ![A, 1]⟩
          (multiReduction .add [1] ⟨1, ![A]⟩ (exp (subf z fun i => rowMax z (i 0))) 0x00000000#32 hred (.inl rfl) rfl) hcol
          (ix2 p (0 : Fin 1))) = _
  rw [Cert.Lib.ColSum.rowSumCol_apply _ hred (.inl rfl) rfl hcol p 0]
  rfl

/-- The kernel's spelling on a block: both operands recast to their own shapes, the row broadcast down and added; the
    row maxima by a lane reduction from -inf, kept as a column and broadcast; the shifted values' exponentials summed by
    a lane reduction from zero, kept as a column, their logarithm broadcast and subtracted. -/
theorem kernel_logSoftmax (a : FVec Ideal ⟨2, ![A, C]⟩ .f32) (r : FVec Ideal ⟨2, ![1, C]⟩ .f32)
    (ha : (⟨2, ![A, C]⟩ : Shape).ShapeCasts ⟨2, ![A, C]⟩) (hs : (⟨2, ![1, C]⟩ : Shape).ShapeCasts ⟨2, ![1, C]⟩)
    (hb : (⟨2, ![1, C]⟩ : Shape).Broadcasts ⟨2, ![A, C]⟩)
    (hred : (⟨2, ![A, C]⟩ : Shape).Reduces [1] ⟨1, ![A]⟩)
    (hcol : (⟨1, ![A]⟩ : Shape).ShapeCasts ⟨2, ![A, 1]⟩) (hbc : (⟨2, ![A, 1]⟩ : Shape).Broadcasts ⟨2, ![A, C]⟩) :
    subf
      (subf (addf (shapeCast ⟨2, ![A, C]⟩ a ha) (broadcastTo ⟨2, ![A, C]⟩ (shapeCast ⟨2, ![1, C]⟩ r hs) hb))
        (broadcastTo ⟨2, ![A, C]⟩ (shapeCast ⟨2, ![A, 1]⟩
          (multiReduction .maximumf [1] ⟨1, ![A]⟩
            (addf (shapeCast ⟨2, ![A, C]⟩ a ha) (broadcastTo ⟨2, ![A, C]⟩ (shapeCast ⟨2, ![1, C]⟩ r hs) hb))
            0xFF800000#32 hred (.inl rfl) rfl) hcol) hbc))
      (broadcastTo ⟨2, ![A, C]⟩ (log (shapeCast ⟨2, ![A, 1]⟩
        (multiReduction .add [1] ⟨1, ![A]⟩
          (exp (subf (addf (shapeCast ⟨2, ![A, C]⟩ a ha) (broadcastTo ⟨2, ![A, C]⟩ (shapeCast ⟨2, ![1, C]⟩ r hs) hb))
            (broadcastTo ⟨2, ![A, C]⟩ (shapeCast ⟨2, ![A, 1]⟩
              (multiReduction .maximumf [1] ⟨1, ![A]⟩
                (addf (shapeCast ⟨2, ![A, C]⟩ a ha) (broadcastTo ⟨2, ![A, C]⟩ (shapeCast ⟨2, ![1, C]⟩ r hs) hb))
                0xFF800000#32 hred (.inl rfl) rfl) hcol) hbc)))
          0x00000000#32 hred (.inl rfl) rfl) hcol)) hbc)
      = logSoftmax (addRow a r) := by
  rw [kernel_addRow a r ha hs hb]
  exact kernel_logSoftmax_of (addRow a r) hred hcol hbc

/-! ## The host's spelling, on the whole array -/

/-- The one row spread over the rows by broadcast_in_dim and added: a + r. -/
theorem host_addRow (a : FVec Ideal ⟨2, ![A, C]⟩ .f32) (R : FVec Ideal ⟨2, ![1, C]⟩ .f32)
    (hb : (⟨2, ![1, C]⟩ : Shape).BroadcastsInDim ⟨2, ![A, C]⟩ ![0, 1]) :
    addf a (broadcastInDim ⟨2, ![A, C]⟩ ![0, 1] hb R) = addRow a R := by
  funext i
  obtain ⟨p, q, rfl⟩ : ∃ (p : Fin A) (q : Fin C), i = ix2 p q := ⟨i 0, i 1, eq_ix2 i⟩
  show a (ix2 p q) + broadcastInDim ⟨2, ![A, C]⟩ ![0, 1] hb R (ix2 p q) = _
  rw [broadcastInDim_apply ![0, 1] hb R (ix2 p q) (ix2 (0 : Fin 1) q) (fun a => by
      match a with
      | ⟨0, _⟩ => simp
      | ⟨1, _⟩ =>
        show q.val = if C = 1 then 0 else q.val
        split
        · have := q.isLt; omega
        · rfl)]
  rfl

/-- A vector spread to one column [A, 1], at (p, 0), is the vector at p. -/
theorem hostCol_apply {α : Type} (v : (⟨1, ![A]⟩ : Shape).Idx → α)
    (hcol : (⟨1, ![A]⟩ : Shape).BroadcastsInDim ⟨2, ![A, 1]⟩ ![0]) (p : Fin A) (z : Fin 1) :
    broadcastInDim ⟨2, ![A, 1]⟩ ![0] hcol v (ix2 p z) = v (ix1 p) :=
  broadcastInDim_apply ![0] hcol v (ix2 p z) (ix1 p) (fun a => by
    match a with
    | ⟨0, _⟩ =>
      show p.val = if A = 1 then 0 else p.val
      split
      · have := p.isLt; omega
      · rfl)

/-- A column [A, 1] spread over C columns, at (p, q), is the column at (p, 0). -/
theorem hostColMat_apply {α : Type} (c : (⟨2, ![A, 1]⟩ : Shape).Idx → α)
    (hbc : (⟨2, ![A, 1]⟩ : Shape).BroadcastsInDim ⟨2, ![A, C]⟩ ![0, 1]) (p : Fin A) (q : Fin C) :
    broadcastInDim ⟨2, ![A, C]⟩ ![0, 1] hbc c (ix2 p q) = c (ix2 p (0 : Fin 1)) :=
  broadcastInDim_apply ![0, 1] hbc c (ix2 p q) (ix2 p (0 : Fin 1)) (fun a => by
    match a with
    | ⟨0, _⟩ =>
      show p.val = if A = 1 then 0 else p.val
      split
      · have := p.isLt; omega
      · rfl
    | ⟨1, _⟩ => simp)

/-- The host's row maxima: the reduce of max from -inf over axis 1, then one more maximum against the spread -inf,
    which changes nothing: at p the maximum of row p. -/
theorem hostRowMax_apply (z : FVec Ideal ⟨2, ![A, C]⟩ .f32)
    (hredTo : (⟨2, ![A, C]⟩ : Shape).ReducesTo [1] ⟨1, ![A]⟩) (hred : (⟨2, ![A, C]⟩ : Shape).Reduces [1] ⟨1, ![A]⟩)
    (hu : 0 < (⟨0, ![]⟩ : Shape).numel) (hbz : (⟨0, ![]⟩ : Shape).BroadcastsInDim ⟨1, ![A]⟩ ![]) (p : Fin A) :
    maximumf (broadcastInDim ⟨1, ![A]⟩ ![] hbz (constant (F := Ideal) ⟨0, ![]⟩ .f32 0xFF800000#32))
        (Host.reduce FloatOps.maximumf z (constant (F := Ideal) ⟨0, ![]⟩ .f32 0xFF800000#32) hredTo hu) (ix1 p)
      = rowMax z p := by
  show max (broadcastInDim ⟨1, ![A]⟩ ![] hbz (constant (F := Ideal) ⟨0, ![]⟩ .f32 0xFF800000#32) (ix1 p))
      (Host.reduce FloatOps.maximumf z (constant (F := Ideal) ⟨0, ![]⟩ .f32 0xFF800000#32) hredTo hu (ix1 p)) = _
  rw [broadcastInDim_apply ![] hbz (constant (F := Ideal) ⟨0, ![]⟩ .f32 0xFF800000#32) (ix1 p) ix0 (fun a => a.elim0),
    Host.reduce_eq_fold_single FloatOps.maximumf z _ hredTo hred hu (ix1 p)]
  show max (Ideal.ofBits .f32 0xFF800000#32)
      ((Finset.univ : Finset (Fin C)).fold max (Ideal.ofBits .f32 0xFF800000#32) (z ∘ hred.lift (ix1 p))) = _
  rw [ofBits_negInf_f32, max_bot_left]
  refine congrArg ((Finset.univ : Finset (Fin C)).fold max ⊥) (funext fun k => congrArg z ?_)
  funext a
  match a with
  | ⟨0, _⟩ => rfl
  | ⟨1, _⟩ => rfl

/-- The host's row sums: the add-reduce from zero over axis 1, at p, is the sum of row p. -/
theorem hostRowSum_apply (e : FVec Ideal ⟨2, ![A, C]⟩ .f32)
    (hredTo : (⟨2, ![A, C]⟩ : Shape).ReducesTo [1] ⟨1, ![A]⟩) (hred : (⟨2, ![A, C]⟩ : Shape).Reduces [1] ⟨1, ![A]⟩)
    (hu : 0 < (⟨0, ![]⟩ : Shape).numel) (p : Fin A) :
    Host.reduceAdd e (constant (F := Ideal) ⟨0, ![]⟩ .f32 0x00000000#32) hredTo hu (ix1 p)
      = ∑ k : Fin C, (e (ix2 p k) : EReal) := by
  show Ideal.hostReduceAdd hredTo e (Ideal.ofBits .f32 0x00000000#32) (ix1 p) = _
  rw [Ideal.hostReduceAdd_single hredTo hred, Ideal.ofBits_zero_f32, zero_add]
  refine Finset.sum_congr rfl fun k _ => congrArg e ?_
  funext a
  match a with
  | ⟨0, _⟩ => rfl
  | ⟨1, _⟩ => rfl

/-- The log-softmax of the whole array in the host's spelling. -/
theorem host_logSoftmax_of (z : FVec Ideal ⟨2, ![A, C]⟩ .f32)
    (hredTo : (⟨2, ![A, C]⟩ : Shape).ReducesTo [1] ⟨1, ![A]⟩) (hred : (⟨2, ![A, C]⟩ : Shape).Reduces [1] ⟨1, ![A]⟩)
    (hu : 0 < (⟨0, ![]⟩ : Shape).numel)
    (hbz : (⟨0, ![]⟩ : Shape).BroadcastsInDim ⟨1, ![A]⟩ ![])
    (hcol : (⟨1, ![A]⟩ : Shape).BroadcastsInDim ⟨2, ![A, 1]⟩ ![0])
    (hbc : (⟨2, ![A, 1]⟩ : Shape).BroadcastsInDim ⟨2, ![A, C]⟩ ![0, 1]) :
    subf
      (subf z
        (broadcastInDim ⟨2, ![A, C]⟩ ![0, 1] hbc (broadcastInDim ⟨2, ![A, 1]⟩ ![0] hcol
          (maximumf (broadcastInDim ⟨1, ![A]⟩ ![] hbz (constant (F := Ideal) ⟨0, ![]⟩ .f32 0xFF800000#32))
            (Host.reduce FloatOps.maximumf z (constant (F := Ideal) ⟨0, ![]⟩ .f32 0xFF800000#32) hredTo hu)))))
      (broadcastInDim ⟨2, ![A, C]⟩ ![0, 1] hbc (Host.log (broadcastInDim ⟨2, ![A, 1]⟩ ![0] hcol
        (Host.reduceAdd
          (Host.exp (subf z
            (broadcastInDim ⟨2, ![A, C]⟩ ![0, 1] hbc (broadcastInDim ⟨2, ![A, 1]⟩ ![0] hcol
              (maximumf (broadcastInDim ⟨1, ![A]⟩ ![] hbz (constant (F := Ideal) ⟨0, ![]⟩ .f32 0xFF800000#32))
                (Host.reduce FloatOps.maximumf z (constant (F := Ideal) ⟨0, ![]⟩ .f32 0xFF800000#32) hredTo hu))))))
          (constant (F := Ideal) ⟨0, ![]⟩ .f32 0x00000000#32) hredTo hu))))
      = logSoftmax z := by
  have hm : broadcastInDim ⟨2, ![A, C]⟩ ![0, 1] hbc (broadcastInDim ⟨2, ![A, 1]⟩ ![0] hcol
      (maximumf (broadcastInDim ⟨1, ![A]⟩ ![] hbz (constant (F := Ideal) ⟨0, ![]⟩ .f32 0xFF800000#32))
        (Host.reduce FloatOps.maximumf z (constant (F := Ideal) ⟨0, ![]⟩ .f32 0xFF800000#32) hredTo hu)))
      = fun i => rowMax z (i 0) := by
    funext i
    obtain ⟨p, q, rfl⟩ : ∃ (p : Fin A) (q : Fin C), i = ix2 p q := ⟨i 0, i 1, eq_ix2 i⟩
    rw [hostColMat_apply _ hbc p q, hostCol_apply _ hcol p 0]
    exact hostRowMax_apply z hredTo hred hu hbz p
  rw [hm]
  funext i
  obtain ⟨p, q, rfl⟩ : ∃ (p : Fin A) (q : Fin C), i = ix2 p q := ⟨i 0, i 1, eq_ix2 i⟩
  show (z (ix2 p q) - rowMax z p)
      - broadcastInDim ⟨2, ![A, C]⟩ ![0, 1] hbc (Host.log (broadcastInDim ⟨2, ![A, 1]⟩ ![0] hcol
          (Host.reduceAdd (Host.exp (subf z fun i => rowMax z (i 0)))
            (constant (F := Ideal) ⟨0, ![]⟩ .f32 0x00000000#32) hredTo hu))) (ix2 p q) = _
  rw [hostColMat_apply _ hbc p q]
  show (z (ix2 p q) - rowMax z p)
      - Ideal.log (broadcastInDim ⟨2, ![A, 1]⟩ ![0] hcol
          (Host.reduceAdd (Host.exp (subf z fun i => rowMax z (i 0)))
            (constant (F := Ideal) ⟨0, ![]⟩ .f32 0x00000000#32) hredTo hu) (ix2 p (0 : Fin 1))) = _
  rw [hostCol_apply _ hcol p 0, hostRowSum_apply _ hredTo hred hu p]
  rfl

/-- The host's spelling on the whole array: the row spread by broadcast_in_dim and added; the row maxima by a reduce
    from -inf, then one more maximum against the spread -inf; spread to a column and over the columns; the shifted values'
    exponentials summed by a reduce from zero, spread to a column, their logarithm spread and subtracted. -/
theorem host_logSoftmax (a : FVec Ideal ⟨2, ![A, C]⟩ .f32) (R : FVec Ideal ⟨2, ![1, C]⟩ .f32)
    (hb : (⟨2, ![1, C]⟩ : Shape).BroadcastsInDim ⟨2, ![A, C]⟩ ![0, 1])
    (hredTo : (⟨2, ![A, C]⟩ : Shape).ReducesTo [1] ⟨1, ![A]⟩) (hred : (⟨2, ![A, C]⟩ : Shape).Reduces [1] ⟨1, ![A]⟩)
    (hu : 0 < (⟨0, ![]⟩ : Shape).numel)
    (hbz : (⟨0, ![]⟩ : Shape).BroadcastsInDim ⟨1, ![A]⟩ ![])
    (hcol : (⟨1, ![A]⟩ : Shape).BroadcastsInDim ⟨2, ![A, 1]⟩ ![0])
    (hbc : (⟨2, ![A, 1]⟩ : Shape).BroadcastsInDim ⟨2, ![A, C]⟩ ![0, 1]) :
    subf
      (subf (addf a (broadcastInDim ⟨2, ![A, C]⟩ ![0, 1] hb R))
        (broadcastInDim ⟨2, ![A, C]⟩ ![0, 1] hbc (broadcastInDim ⟨2, ![A, 1]⟩ ![0] hcol
          (maximumf (broadcastInDim ⟨1, ![A]⟩ ![] hbz (constant (F := Ideal) ⟨0, ![]⟩ .f32 0xFF800000#32))
            (Host.reduce FloatOps.maximumf (addf a (broadcastInDim ⟨2, ![A, C]⟩ ![0, 1] hb R))
              (constant (F := Ideal) ⟨0, ![]⟩ .f32 0xFF800000#32) hredTo hu)))))
      (broadcastInDim ⟨2, ![A, C]⟩ ![0, 1] hbc (Host.log (broadcastInDim ⟨2, ![A, 1]⟩ ![0] hcol
        (Host.reduceAdd
          (Host.exp (subf (addf a (broadcastInDim ⟨2, ![A, C]⟩ ![0, 1] hb R))
            (broadcastInDim ⟨2, ![A, C]⟩ ![0, 1] hbc (broadcastInDim ⟨2, ![A, 1]⟩ ![0] hcol
              (maximumf (broadcastInDim ⟨1, ![A]⟩ ![] hbz (constant (F := Ideal) ⟨0, ![]⟩ .f32 0xFF800000#32))
                (Host.reduce FloatOps.maximumf (addf a (broadcastInDim ⟨2, ![A, C]⟩ ![0, 1] hb R))
                  (constant (F := Ideal) ⟨0, ![]⟩ .f32 0xFF800000#32) hredTo hu))))))
          (constant (F := Ideal) ⟨0, ![]⟩ .f32 0x00000000#32) hredTo hu))))
      = logSoftmax (addRow a R) := by
  rw [host_addRow a R hb]
  exact host_logSoftmax_of (addRow a R) hredTo hred hu hbz hcol hbc

end Cert.Gcn

end
-- ==== Proof.LibRowGatherScatter.lean ====
/-
  A row gather followed by a row scatter-add, read at an entry (a general lemma: nothing here depends on a program).

  For an operand of shape [N, W], index arrays of shape [E, 1] and updates of shape [E, W], the row scatter-add
  (update window axis 1, inserted window axis 0, scatter axis 0, index vector axis 1) at entry (n, q) is x[n, q]
  plus the sum, over the edges e whose index dst[e], read signed, is n, of the update (e, q): an edge whose index
  is not a row contributes nothing. The row gather (offset axis 1, collapsed axis 0, start index map [0], index
  vector axis 1, slice sizes [1, W]) at (e, q) is the operand at row min(src[e], N - 1) (the index read signed and
  clamped), column q. Their composition therefore acts on every column by itself (`pass_apply`).
-/
import Idealize.ShloMosaic.Lib.ValueIdx
import Idealize.ShloMosaic.PureOps.Ideal.Laws

noncomputable section

namespace Cert.Lib.RowPass

open Idealize.ShloMosaic Idealize.ShloMosaic.ValueIdx

section Generic

/-- The row scatter's dimension numbers over an operand [N, W], indices [E, 1] and updates [E, W]. -/
abbrev scD (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)

/-- On the row axis the window of update (e, q) starts at dst[e], read signed. -/
theorem sc_start0 (idx : IVec ⟨2, ![E, 1]⟩ w) (e : Fin E) (q : Fin W) :
    (scD N E W wf).start (ix2 e q) idx 0 = (idx (ix2 e 0)).toInt := by
  unfold ScatterDims.start
  rw [dif_pos (show (0 : Fin 2) ∈ (scD N E W wf).scatterDimsToOperandDims from List.mem_singleton.mpr rfl)]
  congr 2
  funext b
  match b with
  | ⟨0, _⟩ => rfl
  | ⟨1, _⟩ => rfl

/-- On the column axis every window starts at 0. -/
theorem sc_start1 (idx : IVec ⟨2, ![E, 1]⟩ w) (e : Fin E) (q : Fin W) :
    (scD N E W wf).start (ix2 e q) idx 1 = 0 := by
  unfold ScatterDims.start
  rw [dif_neg (show (1 : Fin 2) ∉ ([0] : List (Fin 2)) by decide)]

/-- The row axis is inserted: the window coordinate there is 0. -/
theorem sc_window0 (e : Fin E) (q : Fin W) : (scD N E W wf).window (ix2 e q) 0 = 0 := by
  unfold ScatterDims.window
  have h : (0 : Fin 2) ∉ (scD N E W wf).sKept :=
    (by decide : (0 : Fin 2) ∉ (List.finRange 2).filter (fun a => a ∉ ([0] : List (Fin 2))))
  rw [dif_neg h]

/-- On the column axis the window coordinate of update (e, q) is q. -/
theorem sc_window1 (e : Fin E) (q : Fin W) : (scD N E W wf).window (ix2 e q) 1 = q.val := by
  unfold ScatterDims.window
  have h : (1 : Fin 2) ∈ (scD N E W wf).sKept :=
    (by decide : (1 : Fin 2) ∈ (List.finRange 2).filter (fun a => a ∉ ([0] : List (Fin 2))))
  rw [dif_pos h]
  rfl

/-- An axis of a rank-2 shape is 0 or 1. -/
theorem fin2_cases (a : Fin 2) : a = 0 ∨ a = 1 := by
  revert a; decide

/-- Update (e, q) lands at (n, q') exactly when dst[e] = n and q = q' (an update whose dst[e] is not a row lands
    nowhere). -/
theorem sc_result_iff (idx : IVec ⟨2, ![E, 1]⟩ w) (e : Fin E) (q q' : Fin W) (n : Fin N) :
    (scD N E W wf).resultIdx? (ix2 e q) idx = some (ix2 n q')
      ↔ (idx (ix2 e 0)).toInt = (n.val : Int) ∧ q = q' := by
  have hq := q.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      simp only [sc_start0, sc_start1, sc_window0, sc_window1] at e0 e1
      refine ⟨?_, Fin.ext ?_⟩
      · change _ = n.val at e0
        omega
      · change _ = q'.val at e1
        omega
    · rintro ⟨ht, rfl⟩
      congr 1
      funext a
      refine Fin.ext ?_
      rcases fin2_cases a with rfl | rfl
      · show ((scD N E W wf).start (ix2 e q) idx 0 + ((scD N E W wf).window (ix2 e q) 0 : Int)).toNat = n.val
        rw [sc_start0, sc_window0, ht]; omega
      · show ((scD N E W wf).start (ix2 e q) idx 1 + ((scD N E W wf).window (ix2 e q) 1 : Int)).toNat = q.val
        rw [sc_start1, sc_window1]; omega
  · rename_i h
    constructor
    · intro hs; exact absurd hs (by simp)
    · rintro ⟨ht, rfl⟩
      exfalso; apply h
      intro a
      rcases fin2_cases a with rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (q.val : Int) ∧ 0 + (q.val : Int) < (W : Int)
        omega

/-- The scatter-add at entry (n, q): x[n, q] plus the sum over the edges e with dst[e] = n of the update (e, q). -/
theorem sc_apply (x : (⟨2, ![N, W]⟩ : Shape).Idx → EReal) (idx : IVec ⟨2, ![E, 1]⟩ w)
    (upd : (⟨2, ![E, W]⟩ : Shape).Idx → EReal) (n : Fin N) (q : Fin W) :
    Ideal.hostScatterAdd (scD N E W wf) x idx upd (ix2 n q)
      = x (ix2 n q) + ∑ e : Fin E, if (idx (ix2 e 0)).toInt = (n.val : Int) then upd (ix2 e q) else 0 := by
  show x (ix2 n q) + ∑ j ∈ Finset.univ.filter (fun j => (scD N E W wf).resultIdx? j idx = some (ix2 n q)), upd j = _
  congr 1
  rw [Finset.sum_filter, sum_idx2]
  refine Finset.sum_congr rfl fun e _ => ?_
  rw [Finset.sum_congr rfl fun q' _ => if_congr (sc_result_iff wf idx e q' q n) rfl rfl]
  by_cases ht : (idx (ix2 e 0)).toInt = (n.val : Int)
  · simp [ht]
  · simp [ht]

/-- The row gather's dimension numbers over an operand [N, W], start indices [E, 1] and a result [E, W]. -/
abbrev gaD (N E W : Nat) (wfg : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wfg

variable (wfg : GatherDims.WF ⟨2, ![N, W]⟩ ⟨2, ![E, 1]⟩ ⟨2, ![E, W]⟩ [1] [0] [] [0] [] 1 ![1, W])

/-- On the row axis the slice of result (e, q) starts at src[e], read signed and clamped into [0, N - 1]. -/
theorem ga_start0 (idx : IVec ⟨2, ![E, 1]⟩ w) (e : Fin E) (q : Fin W) :
    (gaD N E W wfg).start (ix2 e q) idx 0 = min (idx (ix2 e 0)).toInt.toNat (N - 1) := by
  unfold GatherDims.start
  rw [dif_pos (show (0 : Fin 2) ∈ (gaD N E W wfg).startIndexMap from List.mem_singleton.mpr rfl)]
  have hsi : (gaD N E W wfg).siIdx (ix2 e q) ⟨List.idxOf (0 : Fin 2) (gaD N E W wfg).startIndexMap,
      List.idxOf_lt_length_iff.2 (List.mem_singleton.mpr rfl)⟩ = ix2 e 0 := by
    funext b
    match b with
    | ⟨0, _⟩ => rfl
    | ⟨1, _⟩ => rfl
  rw [hsi]
  rfl

/-- On the column axis every slice starts at 0. -/
theorem ga_start1 (idx : IVec ⟨2, ![E, 1]⟩ w) (e : Fin E) (q : Fin W) :
    (gaD N E W wfg).start (ix2 e q) idx 1 = 0 := by
  unfold GatherDims.start
  rw [dif_neg (show (1 : Fin 2) ∉ ([0] : List (Fin 2)) by decide)]

/-- The row axis is collapsed: the offset coordinate there is 0. -/
theorem ga_off0 (e : Fin E) (q : Fin W) : (gaD N E W wfg).offCoord (ix2 e q) 0 = 0 := by
  unfold GatherDims.offCoord
  have h : (0 : Fin 2) ∉ (gaD N E W wfg).sKept :=
    (by decide : (0 : Fin 2) ∉ (List.finRange 2).filter (fun a => a ∉ ([0] ++ [] : List (Fin 2))))
  rw [dif_neg h]

/-- On the column axis the offset coordinate of result (e, q) is q. -/
theorem ga_off1 (e : Fin E) (q : Fin W) : (gaD N E W wfg).offCoord (ix2 e q) 1 = q.val := by
  unfold GatherDims.offCoord
  have h : (1 : Fin 2) ∈ (gaD N E W wfg).sKept :=
    (by decide : (1 : Fin 2) ∈ (List.finRange 2).filter (fun a => a ∉ ([0] ++ [] : List (Fin 2))))
  rw [dif_pos h]
  rfl

/-- The gather at (e, q): the operand at row min(src[e], N - 1), column q. -/
theorem ga_apply {α : Type} (hN : 0 < N) (H : (⟨2, ![N, W]⟩ : Shape).Idx → α) (idx : IVec ⟨2, ![E, 1]⟩ w)
    (e : Fin E) (q : Fin W) :
    Host.gather (gaD N E W wfg) H idx (ix2 e q)
      = H (ix2 ⟨min (idx (ix2 e 0)).toInt.toNat (N - 1), by omega⟩ q) := by
  unfold Host.gather
  congr 1
  funext a
  refine Fin.ext ?_
  rcases fin2_cases a with rfl | rfl
  · show (gaD N E W wfg).start (ix2 e q) idx 0 + (gaD N E W wfg).batchCoord (ix2 e q) 0
      + (gaD N E W wfg).offCoord (ix2 e q) 0 = min (idx (ix2 e 0)).toInt.toNat (N - 1)
    rw [ga_start0, ga_off0, GatherDims.batchCoord_eq_zero _ _ _ List.not_mem_nil, Nat.add_zero]
  · show (gaD N E W wfg).start (ix2 e q) idx 1 + (gaD N E W wfg).batchCoord (ix2 e q) 1
      + (gaD N E W wfg).offCoord (ix2 e q) 1 = q.val
    rw [ga_start1, ga_off1, GatherDims.batchCoord_eq_zero _ _ _ List.not_mem_nil]
    omega

/-- The gather-then-scatter-add at entry (n, q): x[n, q] plus the sum over the edges e whose target is n of H at the
    clamped source row of e, column q. -/
theorem pass_apply (hN : 0 < N) (H x : (⟨2, ![N, W]⟩ : Shape).Idx → EReal) (idxd idxs : IVec ⟨2, ![E, 1]⟩ w)
    (n : Fin N) (q : Fin W) :
    Ideal.hostScatterAdd (scD N E W wf) x idxd (Host.gather (gaD N E W wfg) H idxs) (ix2 n q)
      = x (ix2 n q) + ∑ e : Fin E, if (idxd (ix2 e 0)).toInt = (n.val : Int)
          then H (ix2 ⟨min (idxs (ix2 e 0)).toInt.toNat (N - 1), by omega⟩ q) else 0 := by
  rw [sc_apply]
  congr 1
  refine Finset.sum_congr rfl fun e _ => ?_
  rw [ga_apply wfg hN]

end Generic

end Cert.Lib.RowPass

end
-- ==== Proof.LibVecGatherScatter.lean ====
/-
  A gather and a scatter-add of a vector, read at an entry (a general lemma: nothing here depends on a program).

  For an operand of shape [N], index arrays of shape [E, 1] and updates of shape [E], the scatter-add (no update
  window axis, inserted window axis 0, scatter axis 0, index vector axis 1) at entry n is x[n] plus the sum, over
  the positions e whose index idx[e], read signed, is n, of the update e: a position whose index is not an entry
  of the operand contributes nothing. The gather (no offset axis, collapsed axis 0, start index map [0], index
  vector axis 1, slice sizes [1]) at e is the operand at min(idx[e], N - 1) (the index read signed and clamped).
-/
import Idealize.ShloMosaic.Lib.ValueIdx
import Idealize.ShloMosaic.PureOps.Ideal.Laws

noncomputable section

namespace Cert.Lib.VecPass

open Idealize.ShloMosaic Idealize.ShloMosaic.ValueIdx

section Generic

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The only axis of a rank-1 shape is 0. -/
theorem fin1_eq (a : Fin 1) : a = 0 := Subsingleton.elim _ _

/-- The vector scatter's dimension numbers over an operand [N], indices [E, 1] and updates [E]. -/
abbrev scD1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update e starts at idx[e], read signed. -/
theorem sc1_start (idx : IVec ⟨2, ![E, 1]⟩ w) (e : Fin E) :
    (scD1 N E wf).start (ix1 e) idx 0 = (idx (ix2 e 0)).toInt := by
  unfold ScatterDims.start
  rw [dif_pos (show (0 : Fin 1) ∈ (scD1 N E wf).scatterDimsToOperandDims from List.mem_singleton.mpr rfl)]
  congr 2
  funext b
  match b with
  | ⟨0, _⟩ => rfl
  | ⟨1, _⟩ => rfl

/-- The operand's one axis is inserted: the window coordinate there is 0. -/
theorem sc1_window (e : Fin E) : (scD1 N E wf).window (ix1 e) 0 = 0 := by
  unfold ScatterDims.window
  have h : (0 : Fin 1) ∉ (scD1 N E wf).sKept :=
    (by decide : (0 : Fin 1) ∉ (List.finRange 1).filter (fun a => a ∉ ([0] : List (Fin 1))))
  rw [dif_neg h]

/-- Update e lands at n exactly when idx[e] = n (an update whose idx[e] is not an entry lands nowhere). -/
theorem sc1_result_iff (idx : IVec ⟨2, ![E, 1]⟩ w) (e : Fin E) (n : Fin N) :
    (scD1 N E wf).resultIdx? (ix1 e) idx = some (ix1 n) ↔ (idx (ix2 e 0)).toInt = (n.val : Int) := by
  have hn := n.isLt
  unfold ScatterDims.resultIdx?
  split
  · rename_i h
    have h0 := h 0
    rw [sc1_start, sc1_window] at h0
    constructor
    · intro hs
      have hs' := Option.some.inj hs
      have e0 := congrArg (fun f => (f 0).val) hs'
      simp only [sc1_start, sc1_window] at e0
      change _ = n.val at e0
      omega
    · intro ht
      congr 1
      funext a
      refine Fin.ext ?_
      obtain rfl := fin1_eq a
      show ((scD1 N E wf).start (ix1 e) idx 0 + ((scD1 N E wf).window (ix1 e) 0 : Int)).toNat = n.val
      rw [sc1_start, sc1_window, ht]; omega
  · rename_i h
    constructor
    · intro hs; exact absurd hs (by simp)
    · intro ht
      exfalso; apply h
      intro a
      obtain rfl := fin1_eq a
      rw [sc1_start, sc1_window, ht]
      show (0 : Int) ≤ (n.val : Int) + ((0 : Nat) : Int) ∧ (n.val : Int) + ((0 : Nat) : Int) < (N : Int)
      omega

/-- The scatter-add at entry n: x[n] plus the sum over the positions e with idx[e] = n of the update e. -/
theorem sc1_apply (x : (⟨1, ![N]⟩ : Shape).Idx → EReal) (idx : IVec ⟨2, ![E, 1]⟩ w)
    (upd : (⟨1, ![E]⟩ : Shape).Idx → EReal) (n : Fin N) :
    Ideal.hostScatterAdd (scD1 N E wf) x idx upd (ix1 n)
      = x (ix1 n) + ∑ e : Fin E, if (idx (ix2 e 0)).toInt = (n.val : Int) then upd (ix1 e) else 0 := by
  show x (ix1 n) + ∑ j ∈ Finset.univ.filter (fun j => (scD1 N E wf).resultIdx? j idx = some (ix1 n)), upd j = _
  congr 1
  rw [Finset.sum_filter, sum_idx1]
  exact Finset.sum_congr rfl fun e _ => if_congr (sc1_result_iff wf idx e n) rfl rfl

/-- The vector gather's dimension numbers over an operand [N], start indices [E, 1] and a result [E]. -/
abbrev gaD1 (N E : Nat) (wfg : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wfg

variable (wfg : GatherDims.WF ⟨1, ![N]⟩ ⟨2, ![E, 1]⟩ ⟨1, ![E]⟩ [] [0] [] [0] [] 1 ![1])

/-- The slice of result e starts at idx[e], read signed and clamped into [0, N - 1]. -/
theorem ga1_start (idx : IVec ⟨2, ![E, 1]⟩ w) (e : Fin E) :
    (gaD1 N E wfg).start (ix1 e) idx 0 = min (idx (ix2 e 0)).toInt.toNat (N - 1) := by
  unfold GatherDims.start
  rw [dif_pos (show (0 : Fin 1) ∈ (gaD1 N E wfg).startIndexMap from List.mem_singleton.mpr rfl)]
  have hsi : (gaD1 N E wfg).siIdx (ix1 e) ⟨List.idxOf (0 : Fin 1) (gaD1 N E wfg).startIndexMap,
      List.idxOf_lt_length_iff.2 (List.mem_singleton.mpr rfl)⟩ = ix2 e 0 := by
    funext b
    match b with
    | ⟨0, _⟩ => rfl
    | ⟨1, _⟩ => rfl
  rw [hsi]
  rfl

/-- The operand's one axis is collapsed: the offset coordinate there is 0. -/
theorem ga1_off (e : Fin E) : (gaD1 N E wfg).offCoord (ix1 e) 0 = 0 := by
  unfold GatherDims.offCoord
  have h : (0 : Fin 1) ∉ (gaD1 N E wfg).sKept :=
    (by decide : (0 : Fin 1) ∉ (List.finRange 1).filter (fun a => a ∉ ([0] ++ [] : List (Fin 1))))
  rw [dif_neg h]

/-- The gather at e: the operand at min(idx[e], N - 1). -/
theorem ga1_apply {α : Type} (hN : 0 < N) (H : (⟨1, ![N]⟩ : Shape).Idx → α) (idx : IVec ⟨2, ![E, 1]⟩ w)
    (e : Fin E) :
    Host.gather (gaD1 N E wfg) H idx (ix1 e)
      = H (ix1 ⟨min (idx (ix2 e 0)).toInt.toNat (N - 1), by omega⟩) := by
  unfold Host.gather
  congr 1
  funext a
  refine Fin.ext ?_
  obtain rfl := fin1_eq a
  show (gaD1 N E wfg).start (ix1 e) idx 0 + (gaD1 N E wfg).batchCoord (ix1 e) 0
    + (gaD1 N E wfg).offCoord (ix1 e) 0 = min (idx (ix2 e 0)).toInt.toNat (N - 1)
  rw [ga1_start, ga1_off, GatherDims.batchCoord_eq_zero _ _ _ List.not_mem_nil, Nat.add_zero]

end Generic

end Cert.Lib.VecPass

end
-- ==== Proof.LibRealEntries.lean ====
/-
  Arrays of extended reals all of whose entries are real numbers, and the operations that keep them so (a general
  lemma: nothing here depends on a program).

  'Reals v' says every entry of v is a real number.  Finite sums and products of real numbers are real, so the product
  x·w, x·w + r, relu (a + r), a host scatter-add of real updates into a real operand (whatever the indices: an update
  whose index is not a row contributes nothing), a host gather from a real operand (the index is clamped), an
  elementwise product, the spread zero and one words, the inverse square root selected where a real number is positive
  and zero elsewhere, the maximum of a non-empty row, and a vector laid out as one row are real where their operands are.
  Any sizes.
-/
import Idealize.ShloMosaic.Lib.ValueIdx
import Idealize.ShloMosaic.Lib.Pipeline.Value
import Idealize.ShloMosaic.PureOps.Ideal.Laws
import proofs.«116533_j5755256176696_1_alg».proof.Proof.LibBiasRelu
import proofs.«116533_j5755256176696_1_alg».proof.Proof.LibLogSoftmaxRows
import proofs.«116533_j5755256176696_1_alg».proof.Proof.LibRowGatherScatter
import proofs.«116533_j5755256176696_1_alg».proof.Proof.LibVecGatherScatter
import proofs.«116533_j5755256176696_1_alg».proof.Proof.LibLayout

noncomputable section

namespace Cert.Lib.RealEntries

open Idealize.ShloMosaic Idealize.ShloMosaic.ValueIdx Cert.Gcn Cert.Lib.RowPass Cert.Lib.VecPass

/-- Every entry of an array of extended reals is a real number. -/
def Reals {s : Shape} (v : s.Idx → EReal) : Prop := ∀ i, ∃ r : ℝ, v i = (r : EReal)

/-! ## Finite sums and products of real numbers are real -/

/-- A finite sum of real numbers is a real number. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r1, h1⟩ := h a (Finset.mem_insert_self a s)
    obtain ⟨r2, h2⟩ := ih (fun i hi => h i (Finset.mem_insert_of_mem hi))
    exact ⟨r1 + r2, by rw [Finset.sum_insert ha, h1, h2, EReal.coe_add]⟩

/-- A sum, over all positions, of terms each of which is a real number or absent, is a real number. -/
theorem real_sum_ite {E : Nat} (c : Fin E → Prop) [DecidablePred c] (u : Fin E → EReal) (hu : ∀ e, ∃ r : ℝ, u e = (r : EReal)) :
    ∃ r : ℝ, (∑ e : Fin E, if c e then u e else 0) = (r : EReal) :=
  real_sum Finset.univ _ fun e _ => by
    by_cases hc : c e
    · rw [if_pos hc]; exact hu e
    · rw [if_neg hc]; exact ⟨0, rfl⟩

/-- The maximum of a real number and zero is a real number. -/
theorem real_max_zero (a : ℝ) : ∃ r : ℝ, max (a : EReal) 0 = (r : EReal) := by
  rcases le_total (a : EReal) 0 with h | h
  · exact ⟨0, by rw [max_eq_right h]; rfl⟩
  · exact ⟨a, by rw [max_eq_left h]⟩

/-! ## The dense layers -/

variable {A K C : Nat}

theorem lin_reals (x : Mat A K) (w : Mat K C) (hx : Reals x) (hw : Reals w) : Reals (lin x w) := by
  intro i
  show ∃ r : ℝ, (∑ k : Fin K, x (ix2 (i 0 : Fin A) k) * w (ix2 k (i 1 : Fin C))) = (r : EReal)
  refine real_sum Finset.univ _ fun k _ => ?_
  obtain ⟨a, ha⟩ := hx (ix2 (i 0 : Fin A) k)
  obtain ⟨b, hb⟩ := hw (ix2 k (i 1 : Fin C))
  exact ⟨a * b, by rw [ha, hb, EReal.coe_mul]⟩

theorem affine_reals (x : Mat A K) (w : Mat K C) (r : Mat 1 C) (hx : Reals x) (hw : Reals w) (hr : Reals r) :
    Reals (affine x w r) := by
  intro i
  obtain ⟨a, ha⟩ := lin_reals x w hx hw i
  obtain ⟨b, hb⟩ := hr (ix2 (0 : Fin 1) (i 1 : Fin C))
  refine ⟨a + b, ?_⟩
  show lin x w i + r (ix2 (0 : Fin 1) (i 1 : Fin C)) = _
  rw [ha, hb, EReal.coe_add]

theorem biasRelu_reals (a : Mat A C) (r : Mat 1 C) (ha : Reals a) (hr : Reals r) : Reals (biasRelu a r) := by
  intro i
  obtain ⟨u, hu⟩ := ha i
  obtain ⟨v, hv⟩ := hr (ix2 (0 : Fin 1) (i 1 : Fin C))
  show ∃ t : ℝ, max (a i + r (ix2 (0 : Fin 1) (i 1 : Fin C))) 0 = (t : EReal)
  rw [hu, hv, ← EReal.coe_add]
  exact real_max_zero (u + v)

/-! ## Scatter-adds and gathers of real arrays -/

section Pass

variable {N E W w : Nat}

theorem sc1_reals (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (hx : Reals x) (hu : Reals upd) : Reals (Ideal.hostScatterAdd (scD1 N E wf) x idx upd) := by
  intro i
  obtain ⟨n, rfl⟩ : ∃ n : Fin N, i = ix1 n := ⟨i 0, eq_ix1 i⟩
  rw [sc1_apply]
  obtain ⟨a, ha⟩ := hx (ix1 n)
  obtain ⟨b, hb⟩ := real_sum_ite (fun e : Fin E => (idx (ix2 e 0)).toInt = (n.val : Int)) (fun e => upd (ix1 e))
    (fun e => hu (ix1 e))
  exact ⟨a + b, by rw [ha, hb, EReal.coe_add]⟩

theorem sc_reals (wf : ScatterDims.WF ⟨2, ![N, W]⟩ ⟨2, ![E, 1]⟩ ⟨2, ![E, W]⟩ [1] [0] [0] 1)
    (x : (⟨2, ![N, W]⟩ : Shape).Idx → EReal) (idx : IVec ⟨2, ![E, 1]⟩ w) (upd : (⟨2, ![E, W]⟩ : Shape).Idx → EReal)
    (hx : Reals x) (hu : Reals upd) : Reals (Ideal.hostScatterAdd (scD N E W wf) x idx upd) := by
  intro i
  obtain ⟨n, q, rfl⟩ : ∃ (n : Fin N) (q : Fin W), i = ix2 n q := ⟨i 0, i 1, eq_ix2 i⟩
  rw [sc_apply]
  obtain ⟨a, ha⟩ := hx (ix2 n q)
  obtain ⟨b, hb⟩ := real_sum_ite (fun e : Fin E => (idx (ix2 e 0)).toInt = (n.val : Int)) (fun e => upd (ix2 e q))
    (fun e => hu (ix2 e q))
  exact ⟨a + b, by rw [ha, hb, EReal.coe_add]⟩

theorem ga1_reals (wfg : GatherDims.WF ⟨1, ![N]⟩ ⟨2, ![E, 1]⟩ ⟨1, ![E]⟩ [] [0] [] [0] [] 1 ![1]) (hN : 0 < N)
    (H : (⟨1, ![N]⟩ : Shape).Idx → EReal) (idx : IVec ⟨2, ![E, 1]⟩ w) (hH : Reals H) :
    Reals (Host.gather (gaD1 N E wfg) H idx) := by
  intro i
  obtain ⟨e, rfl⟩ : ∃ e : Fin E, i = ix1 e := ⟨i 0, eq_ix1 i⟩
  rw [ga1_apply wfg hN]
  exact hH _

theorem ga_reals (wfg : GatherDims.WF ⟨2, ![N, W]⟩ ⟨2, ![E, 1]⟩ ⟨2, ![E, W]⟩ [1] [0] [] [0] [] 1 ![1, W]) (hN : 0 < N)
    (H : (⟨2, ![N, W]⟩ : Shape).Idx → EReal) (idx : IVec ⟨2, ![E, 1]⟩ w) (hH : Reals H) :
    Reals (Host.gather (gaD N E W wfg) H idx) := by
  intro i
  obtain ⟨e, q, rfl⟩ : ∃ (e : Fin E) (q : Fin W), i = ix2 e q := ⟨i 0, i 1, eq_ix2 i⟩
  rw [ga_apply wfg hN]
  exact hH _

end Pass

/-! ## Elementwise products and spread constants -/

theorem mulf_reals {s : Shape} (a b : FVec Ideal s .f32) (ha : Reals a) (hb : Reals b) : Reals (mulf a b) := by
  intro i
  obtain ⟨u, hu⟩ := ha i
  obtain ⟨v, hv⟩ := hb i
  exact ⟨u * v, by rw [mulf_apply, hu, hv, EReal.coe_mul]⟩

/-- The zero word spread over a shape: every entry is the real number zero. -/
theorem zeros_apply {s : Shape} (hb : (⟨0, ![]⟩ : Shape).BroadcastsInDim s (![] : Fin 0 → Fin s.rank)) (i : s.Idx) :
    broadcastInDim s ![] hb (constant (F := Ideal) ⟨0, ![]⟩ .f32 0x00000000#32) i = 0 := by
  rw [broadcastInDim_apply ![] hb (constant (F := Ideal) ⟨0, ![]⟩ .f32 0x00000000#32) i ix0 (fun a => a.elim0), constant_apply,
    Ideal.ofBits_zero_f32]

theorem zeros_reals {s : Shape} (hb : (⟨0, ![]⟩ : Shape).BroadcastsInDim s (![] : Fin 0 → Fin s.rank)) :
    Reals (broadcastInDim s ![] hb (constant (F := Ideal) ⟨0, ![]⟩ .f32 0x00000000#32)) :=
  fun i => ⟨0, by rw [zeros_apply hb i]; rfl⟩

/-- The word of 1.0 denotes a real number. -/
theorem one_word_real : ∃ r : ℝ, Ideal.ofBits .f32 0x3F800000#32 = (r : EReal) := by
  refine ⟨1, ?_⟩
  simp [Ideal.ofBits, Ideal.ieee, -EReal.coe_mul]; norm_num

theorem ones_reals {s : Shape} (hb : (⟨0, ![]⟩ : Shape).BroadcastsInDim s (![] : Fin 0 → Fin s.rank)) :
    Reals (broadcastInDim s ![] hb (constant (F := Ideal) ⟨0, ![]⟩ .f32 0x3F800000#32)) := by
  intro i
  rw [broadcastInDim_apply ![] hb (constant (F := Ideal) ⟨0, ![]⟩ .f32 0x3F800000#32) i ix0 (fun a => a.elim0), constant_apply]
  exact one_word_real

/-! ## The inverse square root, selected where its operand is positive -/

/-- The inverse square root of a positive real number is a real number. -/
theorem rsqrt_real (r : ℝ) (h : (0 : EReal) < (r : EReal)) : ∃ t : ℝ, Ideal.rsqrt (r : EReal) = (t : EReal) := by
  have hr : 0 < r := EReal.coe_pos.mp h
  refine ⟨(Real.sqrt r)⁻¹, ?_⟩
  rw [Ideal.rsqrt_coe, if_neg (not_lt.mpr hr.le), if_neg hr.ne']

/-- Where a real number d is above zero its inverse square root, elsewhere zero: a real number either way. -/
theorem select_rsqrt_real (d z : Ideal .f32) (hz : z = (0 : EReal)) (hd : ∃ r : ℝ, d = (r : EReal)) :
    ∃ t : ℝ, Scalar.select (FloatOps.cmpf (F := Ideal) .ogt d z) (FloatOps.hostUnary (F := Ideal) .rsqrt d) z = (t : EReal) := by
  subst hz
  obtain ⟨r, rfl⟩ := hd
  unfold Scalar.select
  split
  · rename_i hc
    have hlt : (0 : EReal) < (r : EReal) := by
      by_contra hn
      rw [show FloatOps.cmpf (F := Ideal) (φ := .f32) .ogt (r : EReal) (0 : EReal)
        = BitVec.ofBool (decide ((0 : EReal) < (r : EReal))) from rfl, decide_eq_false hn] at hc
      exact absurd hc (by decide)
    exact rsqrt_real r hlt
  · exact ⟨0, rfl⟩

/-- The host's inverse square root of an array, at an entry. -/
theorem hostRsqrt_apply {s : Shape} (x : FVec Ideal s .f32) (i : s.Idx) :
    Host.rsqrt x i = FloatOps.hostUnary (F := Ideal) .rsqrt (x i) := rfl

/-! ## Row maxima, and a vector as one row -/

/-- The row maximum of a row of real numbers (at least one of them) is a real number. -/
theorem rowMax_real {A C : Nat} (z : Mat A C) (hC : 0 < C) (hz : ∀ p q, ∃ r : ℝ, z (ix2 p q) = (r : EReal)) (p : Fin A) :
    ∃ t : ℝ, rowMax z p = (t : EReal) := by
  have htop : rowMax z p ≠ ⊤ := by
    refine ne_of_lt ?_
    unfold rowMax
    rw [Finset.fold_max_lt]
    refine ⟨bot_lt_top, fun k _ => ?_⟩
    obtain ⟨r, hr⟩ := hz p k
    rw [hr]
    exact EReal.coe_lt_top r
  have hbot : rowMax z p ≠ ⊥ := by
    obtain ⟨r, hr⟩ := hz p ⟨0, hC⟩
    have hle : (r : EReal) ≤ rowMax z p := by
      unfold rowMax
      rw [Finset.le_fold_max]
      exact Or.inr ⟨⟨0, hC⟩, Finset.mem_univ _, le_of_eq hr.symm⟩
    exact ne_of_gt (lt_of_lt_of_le (EReal.bot_lt_coe r) hle)
  exact ⟨(rowMax z p).toReal, (EReal.coe_toReal htop hbot).symm⟩

/-- A vector of real numbers laid out as one row is a row of real numbers. -/
theorem reals_row {C : Nat} {b : (⟨1, ![C]⟩ : Shape).Idx → EReal} (hb : Reals b) (h : (⟨1, ![C]⟩ : Shape).ShapeCasts ⟨2, ![1, C]⟩) :
    Reals (shapeCast ⟨2, ![1, C]⟩ b h) := fun i => by
  obtain ⟨z, q, rfl⟩ : ∃ (z : Fin 1) (q : Fin C), i = ix2 z q := ⟨i 0, i 1, eq_ix2 i⟩
  rw [Cert.Lib.Layout.rowCast_apply b h z q]
  exact hb _

end Cert.Lib.RealEntries

end
-- ==== Proof.Spec.lean ====
/-
  A two-layer graph convolution followed by a linear read-out and a row-wise log-softmax, as ONE function of its
  arguments over the extended reals: the specification both programs are compared with.

  There are N = 100000 nodes with 128 features each and E = 1700000 edges (the given edges and one self-loop per
  node).  The edges enter through three index columns [E, 1]: 'dcol', the target of each edge as it indexes the
  scatter-adds; 'srcW' and 'dstW', the source and the target of each edge as they index the gathers.  With

    deg   n      = the number of edges e whose dcol[e] is n               (a scatter-add of ones into zeros)
    dinv  n      = 1 / sqrt (deg n) if deg n > 0, else 0
    norm  e      = dinv (srcW e) * dinv (dstW e)
    propagate h  = the scatter-add, over the edges, of row srcW e of h scaled by norm e into row dcol e
    layer x w r  = relu (propagate (x·w) + r)
    logits       = layer (layer x w1 r1) w2 r2 · w3 + r3
    net          = the row-wise log-softmax of the logits

  every product, sum, square root, exponential and logarithm being the exact one on the extended reals.
-/
import Idealize.ShloMosaic.Lib.ValueIdx
import Idealize.ShloMosaic.Lib.Pipeline.Value
import Idealize.ShloMosaic.PureOps.Ideal.Laws
import proofs.«116533_j5755256176696_1_alg».proof.Proof.LibBiasRelu
import proofs.«116533_j5755256176696_1_alg».proof.Proof.LibLogSoftmaxRows
import proofs.«116533_j5755256176696_1_alg».proof.Proof.LibRowGatherScatter
import proofs.«116533_j5755256176696_1_alg».proof.Proof.LibVecGatherScatter
import proofs.«116533_j5755256176696_1_alg».proof.Proof.LibRealEntries

noncomputable section

namespace Cert.GcnNet

open Idealize.ShloMosaic Idealize.ShloMosaic.ValueIdx Cert.Gcn Cert.Lib.RowPass Cert.Lib.VecPass

/-- The shapes: a value per node, per edge, per edge as a column, per node and feature, per edge and feature, a scalar. -/
abbrev SN : Shape := ⟨1, ![100000]⟩
abbrev SE : Shape := ⟨1, ![1700000]⟩
abbrev SE1 : Shape := ⟨2, ![1700000, 1]⟩
abbrev SNW : Shape := ⟨2, ![100000, 128]⟩
abbrev SEW : Shape := ⟨2, ![1700000, 128]⟩
abbrev S0 : Shape := ⟨0, ![]⟩

theorem wfS1 : ScatterDims.WF SN SE1 SE [] [0] [0] 1 := by decide
theorem wfG1 : GatherDims.WF SN SE1 SE [] [0] [] [0] [] 1 ![1] := by decide
theorem wfS : ScatterDims.WF SNW SE1 SEW [1] [0] [0] 1 := by decide
theorem wfG : GatherDims.WF SNW SE1 SEW [1] [0] [] [0] [] 1 ![1, 128] := by decide
theorem b0N : S0.BroadcastsInDim SN (![] : Fin 0 → Fin SN.rank) := by decide
theorem b0E : S0.BroadcastsInDim SE (![] : Fin 0 → Fin SE.rank) := by decide
theorem b0NW : S0.BroadcastsInDim SNW (![] : Fin 0 → Fin SNW.rank) := by decide
theorem bE_E1 : SE.BroadcastsInDim SE1 (![0] : Fin 1 → Fin SE1.rank) := by decide
theorem bE1_EW : SE1.BroadcastsInDim SEW (![0, 1] : Fin 2 → Fin SEW.rank) := by decide

/-- An index column: one 32-bit index per edge. -/
abbrev Col : Type := IVec SE1 32

/-- The number of edges into each node: ones added, edge by edge, into zeros. -/
def deg (dcol : Col) : FVec Ideal SN .f32 :=
  Host.scatterAdd (scD1 100000 1700000 wfS1)
    (broadcastInDim SN ![] b0N (constant (F := Ideal) S0 .f32 0x00000000#32)) dcol
    (broadcastInDim SE ![] b0E (constant (F := Ideal) S0 .f32 0x3F800000#32))

/-- The inverse square root of the degree where the degree is positive, zero elsewhere. -/
def dinv (dcol : Col) : FVec Ideal SN .f32 :=
  select (cmpf (F := Ideal) .ogt (deg dcol) (broadcastInDim SN ![] b0N (constant (F := Ideal) S0 .f32 0x00000000#32)))
    (Host.rsqrt (deg dcol))
    (broadcastInDim SN ![] b0N (constant (F := Ideal) S0 .f32 0x00000000#32))

/-- The weight of each edge: the product of its two ends' inverse square-root degrees. -/
def norm (dcol srcW dstW : Col) : FVec Ideal SE .f32 :=
  mulf (Host.gather (gaD1 100000 1700000 wfG1) (dinv dcol) srcW) (Host.gather (gaD1 100000 1700000 wfG1) (dinv dcol) dstW)

/-- One round of message passing: each edge carries its source's row, scaled by the edge's weight, to its target. -/
def propagate (dcol srcW dstW : Col) (h : Mat 100000 128) : Mat 100000 128 :=
  Host.scatterAdd (scD 100000 1700000 128 wfS)
    (broadcastInDim SNW ![] b0NW (constant (F := Ideal) S0 .f32 0x00000000#32)) dcol
    (mulf (Host.gather (gaD 100000 1700000 128 wfG) h srcW)
      (broadcastInDim SEW ![0, 1] bE1_EW (broadcastInDim SE1 ![0] bE_E1 (norm dcol srcW dstW))))

/-- One graph-convolution layer: project, pass messages, add the bias row, rectify. -/
def layer (dcol srcW dstW : Col) (x : Mat 100000 128) (w : Mat 128 128) (r : Mat 1 128) : Mat 100000 128 :=
  biasRelu (propagate dcol srcW dstW (lin x w)) r

/-- The two layers and the linear read-out. -/
def logits (dcol srcW dstW : Col) (x : Mat 100000 128) (w1 : Mat 128 128) (r1 : Mat 1 128) (w2 : Mat 128 128) (r2 : Mat 1 128)
    (w3 : Mat 128 2) (r3 : Mat 1 2) : Mat 100000 2 :=
  affine (layer dcol srcW dstW (layer dcol srcW dstW x w1 r1) w2 r2) w3 r3

/-- The network: the row-wise log-softmax of the logits. -/
def net (dcol srcW dstW : Col) (x : Mat 100000 128) (w1 : Mat 128 128) (r1 : Mat 1 128) (w2 : Mat 128 128) (r2 : Mat 1 128)
    (w3 : Mat 128 2) (r3 : Mat 1 2) : Mat 100000 2 :=
  logSoftmax (logits dcol srcW dstW x w1 r1 w2 r2 w3 r3)

/-! ## The arguments as the programs hand them over

The edge list is a [2, 1600000] array of 32-bit indices: row 0 the sources, row 1 the targets.  Each row is followed by
the self-loops 0, 1, …, N - 1.  Where an end indexes a gather a negative index counts from the end (N is added to it);
the scatter-adds take the targets as they are.  Each bias vector is laid out as a one-row matrix. -/

abbrev SEdge : Shape := ⟨2, ![2, 1600000]⟩
abbrev SRow : Shape := ⟨2, ![1, 1600000]⟩
abbrev SE0 : Shape := ⟨1, ![1600000]⟩

theorem sl0 : SEdge.Slices ![0, 0] SRow := by decide
theorem sl1 : SEdge.Slices ![1, 0] SRow := by decide
theorem scRow : SRow.ShapeCasts SE0 := by decide
theorem cat : Shape.Concatenates [SE0, SN] SE 0 := by decide
theorem sc128 : (⟨1, ![128]⟩ : Shape).ShapeCasts ⟨2, ![1, 128]⟩ := by decide
theorem sc2 : (⟨1, ![2]⟩ : Shape).ShapeCasts ⟨2, ![1, 2]⟩ := by decide

/-- One row of the edge list followed by the self-loops. -/
def endsOf (row : Fin 2 → Nat) (hs : SEdge.Slices row SRow) (e : IVec SEdge 32) : IVec SE 32 :=
  concatenate SE 0 [⟨SE0, shapeCast SE0 (extractStridedSlice SRow row e hs) scRow⟩, ⟨SN, iotaInDim SN 32 0⟩] cat

/-- The sources and the targets of the edges, self-loops included. -/
def srcVec (e : IVec SEdge 32) : IVec SE 32 := endsOf ![0, 0] sl0 e
def dstVec (e : IVec SEdge 32) : IVec SE 32 := endsOf ![1, 0] sl1 e

/-- An end as it indexes a gather: N added where it is negative, laid out as a column. -/
def wrap (v : IVec SE 32) : Col :=
  broadcastInDim SE1 ![0] bE_E1
    (select (cmpi .slt v (broadcastInDim SE ![] b0E (constantI S0 32 0#32)))
      (addi v (broadcastInDim SE ![] b0E (constantI S0 32 100000#32))) v)

/-- The targets as they index the scatter-adds: laid out as a column. -/
def dcolOf (e : IVec SEdge 32) : Col := broadcastInDim SE1 ![0] bE_E1 (dstVec e)

/-- The network of the eight arguments. -/
def netOf (e : IVec SEdge 32) (x : Mat 100000 128) (w1 : Mat 128 128) (b1 : (⟨1, ![128]⟩ : Shape).Idx → EReal)
    (w2 : Mat 128 128) (b2 : (⟨1, ![128]⟩ : Shape).Idx → EReal) (w3 : Mat 128 2) (b3 : (⟨1, ![2]⟩ : Shape).Idx → EReal) :
    Mat 100000 2 :=
  net (dcolOf e) (wrap (srcVec e)) (wrap (dstVec e)) x w1 (shapeCast ⟨2, ![1, 128]⟩ b1 sc128) w2 (shapeCast ⟨2, ![1, 128]⟩ b2 sc128)
    w3 (shapeCast ⟨2, ![1, 2]⟩ b3 sc2)

-- 'Reals v': every entry of v is a real number (the general lemma file's notion, under this namespace's name too)
export Cert.Lib.RealEntries (Reals)

end Cert.GcnNet

end
-- ==== Proof.Finite.lean ====
/-
  The network's logits are real numbers when its float arguments are: the degrees are finite sums of ones; the inverse
  square root is taken only where the degree is positive; gathers read entries, scatter-adds sum finitely many of them;
  products, sums and the maximum with zero of real numbers are real.  Whatever the edge indices are.
-/
import proofs.«116533_j5755256176696_1_alg».proof.Proof.Spec

set_option maxRecDepth 16384

noncomputable section

namespace Cert.GcnNet

open Idealize.ShloMosaic Idealize.ShloMosaic.ValueIdx Cert.Gcn Cert.Lib.RowPass Cert.Lib.VecPass Cert.Lib.RealEntries

/-! ## The degrees, their inverse square roots, the edge weights -/

theorem deg_reals (dcol : Col) : Reals (deg dcol) :=
  sc1_reals wfS1 _ dcol _ (zeros_reals b0N) (ones_reals b0E)

theorem dinv_reals (dcol : Col) : Reals (dinv dcol) := by
  intro i
  have hd : ∃ r : ℝ, deg dcol i = (r : EReal) := deg_reals dcol i
  have hz : broadcastInDim SN ![] b0N (constant (F := Ideal) S0 .f32 0x00000000#32) i = (0 : EReal) := zeros_apply b0N i
  unfold dinv
  rw [select_apply, cmpf_apply, hostRsqrt_apply]
  generalize deg dcol i = d at hd ⊢
  generalize broadcastInDim SN ![] b0N (constant (F := Ideal) S0 .f32 0x00000000#32) i = z at hz ⊢
  exact select_rsqrt_real d z hz hd

theorem norm_reals (dcol srcW dstW : Col) : Reals (norm dcol srcW dstW) :=
  mulf_reals _ _ (ga1_reals wfG1 (by norm_num) _ srcW (dinv_reals dcol)) (ga1_reals wfG1 (by norm_num) _ dstW (dinv_reals dcol))

/-! ## Message passing, the layers, the read-out -/

theorem propagate_reals (dcol srcW dstW : Col) (h : Mat 100000 128) (hh : Reals h) : Reals (propagate dcol srcW dstW h) := by
  refine sc_reals wfS _ dcol _ (zeros_reals b0NW) (mulf_reals _ _ (ga_reals wfG (by norm_num) h srcW hh) ?_)
  intro i
  obtain ⟨e, q, rfl⟩ : ∃ (e : Fin 1700000) (q : Fin 128), i = ix2 e q := ⟨i 0, i 1, eq_ix2 i⟩
  rw [hostColMat_apply _ bE1_EW e q, hostCol_apply _ bE_E1 e (0 : Fin 1)]
  exact norm_reals dcol srcW dstW (ix1 e)

theorem layer_reals (dcol srcW dstW : Col) (x : Mat 100000 128) (w : Mat 128 128) (r : Mat 1 128)
    (hx : Reals x) (hw : Reals w) (hr : Reals r) : Reals (layer dcol srcW dstW x w r) :=
  biasRelu_reals _ r (propagate_reals dcol srcW dstW _ (lin_reals x w hx hw)) hr

theorem logits_reals (dcol srcW dstW : Col) (x : Mat 100000 128) (w1 : Mat 128 128) (r1 : Mat 1 128) (w2 : Mat 128 128)
    (r2 : Mat 1 128) (w3 : Mat 128 2) (r3 : Mat 1 2)
    (hx : Reals x) (hw1 : Reals w1) (hr1 : Reals r1) (hw2 : Reals w2) (hr2 : Reals r2) (hw3 : Reals w3) (hr3 : Reals r3) :
    Reals (logits dcol srcW dstW x w1 r1 w2 r2 w3 r3) :=
  affine_reals _ w3 r3 (layer_reals dcol srcW dstW _ w2 r2 (layer_reals dcol srcW dstW x w1 r1 hx hw1 hr1) hw2 hr2) hw3 hr3

end Cert.GcnNet

end
-- ==== Proof.Region0.lean ====
/-
  The first call's output array is the product x·w of its two operand arrays.

  Each of the 25 grid points multiplies rows 4000 t … 4000 t + 3999 of x by the whole weight w (narrowing the operands to
  bf16 changes nothing on the extended reals) and writes the product back as those rows of the output.  The product's row p
  depends on row p of x only, so the block a point writes is that point's rows of x·w; the blocks tile the array.
-/
import proofs.«116533_j5755256176696_1_alg».proof.Proof.Gen.KernelIdeal.Frame
import proofs.«116533_j5755256176696_1_alg».proof.Proof.Spec

set_option maxRecDepth 16384

noncomputable section

namespace Cert.KernelIdeal.BlockValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Gcn Cert.GcnNet

open Idealize.ShloMosaic.ValueIdx

variable (V : (c : Dev nD) → (b : Ref sig .tc) → Buf (Elt Ideal) ((c : Thread nD τ).loc b))

/-- Both offsets of a whole-block access are zero. -/
theorem zeroOffsets0 : (![0, 0] : Fin 2 → Nat) = fun _ => 0 := funext fun a => by fin_cases a <;> rfl

/-- On a block the body computes the product of the block of rows with the weight: narrowing the operands is the
    identity on the extended reals, and the accumulator starts at zero. -/
theorem payload0_eq_lin (x0 : Vec Ideal S4000x128 .f32) (x1 : Vec Ideal S128x128 .f32) :
    k0_pay1 (F := Ideal) x0 x1 = lin (A := 4000) (K := 128) (C := 128) x0 x1 := by
  unfold k0_pay1
  exact matmul_eq_lin (A := 4000) (K := 128) (C := 128) (φ₁ := .bf16) (φ₂ := .bf16)
    (truncf .bf16 x0 bitsLt_bf16_f32) (truncf .bf16 x1 bitsLt_bf16_f32)

/-- The left operand, the weight, and their blocks at a point, as matrices of literal sizes. -/
abbrev xarr0 (c : Dev nD) : Mat 100000 128 := V c main_arg0
abbrev warr0 (c : Dev nD) : Mat 128 128 := V c main_arg2
abbrev xblk0 (c : Dev nD) (t : Fin cfg0.N) : Mat 4000 128 := iblk0 (F := Ideal) V c 0 t
abbrev wblk0 (c : Dev nD) (t : Fin cfg0.N) : Mat 128 128 := iblk0 (F := Ideal) V c 1 t

/-- The block indices over the grid: point t takes row block t of the left operand and of the result, and the whole weight. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block is row 4000 t + p of the array. -/
def row0 (t : Fin cfg0.N) (p : Fin 4000) : Fin 100000 :=
  ⟨4000 * t.val + p.val, by have h : t.val < 25 := t.isLt; have := p.isLt; omega⟩

/-- Point t's block of the left operand is rows 4000 t … 4000 t + 3999 of it. -/
theorem xblk0_apply (c : Dev nD) (t : Fin cfg0.N) (p : Fin 4000) (k : Fin 128) :
    xblk0 V c t (ix2 p k) = xarr0 V c (ix2 (row0 t p) k) := by
  obtain ⟨e0, e1, -, -, -, -⟩ := blockIndex0 t
  show V c main_arg0 (((cfg0.win 0).blk t).view.emb (ix2 p k)) = V c main_arg0 (ix2 (row0 t p) k)
  refine congrArg (V c main_arg0) (funext fun a => Fin.ext ?_)
  match a with
  | ⟨0, _⟩ => show win0_0.index t (0 : Fin 2) * 4000 + 1 * p.val = 4000 * t.val + p.val; rw [e0]; omega
  | ⟨1, _⟩ => show win0_0.index t (1 : Fin 2) * 128 + 1 * k.val = k.val; rw [e1]; omega

/-- Every point's block of the weight is the whole weight. -/
theorem wblk0_apply (c : Dev nD) (t : Fin cfg0.N) (k : Fin 128) (q : Fin 128) :
    wblk0 V c t (ix2 k q) = warr0 V c (ix2 k q) := by
  obtain ⟨-, -, e2, e3, -, -⟩ := blockIndex0 t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is block t of the product of the whole arrays: a row of the product needs only the same row
    of the left operand. -/
theorem flushed0_eq (c : Dev nD) (t : Fin cfg0.N) :
    (dat0 (F := Ideal) V c).flushed 2 t
      = ((cfg0.win 2).blk t).view.read (Elt Ideal) (lin (xarr0 V c) (warr0 V c)) := by
  show (cfg0.win 2).cut (grid0.coords t) ((dat0 (F := Ideal) V c).after 2 t) = _
  rw [after0_2]
  unfold out0_2
  rw [View.canon_unit_zero zeroOffsets0]
  simp only [View.ld_unit_zero (S := S4000x128) zeroOffsets0, View.ld_unit_zero (S := S128x128) zeroOffsets0]
  rw [payload0_eq_lin]
  obtain ⟨-, -, -, -, e4, e5⟩ := blockIndex0 t
  funext j
  obtain ⟨p, q, rfl⟩ : ∃ (p : Fin 4000) (q : Fin 128), j = ix2 p q := ⟨j 0, j 1, eq_ix2 j⟩
  have hemb : ((cfg0.win 2).blk t).view.emb (ix2 p q) = ix2 (row0 t p) q := by
    funext a; apply Fin.ext
    match a with
    | ⟨0, _⟩ => show win0_2.index t (0 : Fin 2) * 4000 + 1 * p.val = 4000 * t.val + p.val; rw [e4]; omega
    | ⟨1, _⟩ => show win0_2.index t (1 : Fin 2) * 128 + 1 * q.val = q.val; rw [e5]; omega
  show lin (xblk0 V c t) (wblk0 V c t) (ix2 p q)
      = lin (xarr0 V c) (warr0 V c) (((cfg0.win 2).blk t).view.emb (ix2 p q))
  rw [hemb]
  exact lin_rows (xarr0 V c) (warr0 V c) (xblk0 V c t) (wblk0 V c t) (row0 t)
    (fun p k => xblk0_apply V c t p k) (fun k q => wblk0_apply V c t k q) p q

/-- An index of the result lies in point t's block iff each coordinate is in the block's range on its axis. -/
theorem mem_block0 (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v15).slice (win0_2.rect t)).set ↔ _
  rw [View.set_slice_whole, Rect.mem_set_unit]
  exact Iff.rfl

/-- Every entry of the result lies in the block of the point its row falls in. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 4000, show (i 0).val / 4000 < 25 by omega⟩
  have ht : t.val = (i 0).val / 4000 := rfl
  obtain ⟨-, -, -, -, e4, e5⟩ := blockIndex0 t
  refine ⟨t, flush0_2 t, ?_⟩
  rw [mem_block0]
  intro a
  match a with
  | ⟨0, _⟩ =>
    show win0_2.index t (0 : Fin 2) * 4000 ≤ (i 0).val ∧ (i 0).val < win0_2.index t (0 : Fin 2) * 4000 + 4000
    rw [e4, ht]; omega
  | ⟨1, _⟩ =>
    show win0_2.index t (1 : Fin 2) * 128 ≤ (i 1).val ∧ (i 1).val < win0_2.index t (1 : Fin 2) * 128 + 128
    rw [e5]; omega

/-- After the 25 write-backs the result array holds the product of the left operand with the weight. -/
theorem region0 (c : Dev nD) :
    (dat0 (F := Ideal) V c).arrAt 2 cfg0.N = lin (V c main_arg0) (V c main_arg2) :=
  (dat0 (F := Ideal) V c).arrAt_eq_of_cover 2 (lin (xarr0 V c) (warr0 V c))
    (fun t _ => flushed0_eq V c t) (cover0)

end Cert.KernelIdeal.BlockValue

end
-- ==== Proof.Region1.lean ====
/-
  The second call's output array is relu (a + r), r the one bias row repeated down the rows.

  Each of the 25 grid points adds the row r to rows 4000 t … 4000 t + 3999 of a, takes the maximum with zero and writes the
  result back as those rows of the output.  Row p of relu (a + r) depends on row p of a only; the blocks tile the array.
-/
import proofs.«116533_j5755256176696_1_alg».proof.Proof.Gen.KernelIdeal.Frame
import proofs.«116533_j5755256176696_1_alg».proof.Proof.Spec

set_option maxRecDepth 16384

noncomputable section

namespace Cert.KernelIdeal.BlockValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Gcn Cert.GcnNet
open Idealize.ShloMosaic.ValueIdx

variable (V : (c : Dev nD) → (b : Ref sig .tc) → Buf (Elt Ideal) ((c : Thread nD τ).loc b))

/-! ## The block computation is relu (a + r) of the blocks -/

/-- The body's result on a block of rows and the bias row is relu (a + r) of them. -/
theorem payload1_eq (a : Mat 4000 128) (r : Mat 1 128) : k1_pay1 (F := Ideal) a r = biasRelu a r := by
  unfold k1_pay1
  exact kernel_biasRelu a r _ _ _

/-! ## The blocks are rows of the arrays -/

/-- The array of 100000 rows, the bias row, and their blocks at point t, at their literal types. -/
abbrev arr1 (c : Dev nD) : Mat 100000 128 := V c main_v43
abbrev bias1 (c : Dev nD) : Mat 1 128 := V c main_v44
abbrev arrBlock1 (c : Dev nD) (t : Fin cfg1.N) : Mat 4000 128 := iblk1 V c 0 t
abbrev biasBlock1 (c : Dev nD) (t : Fin cfg1.N) : Mat 1 128 := iblk1 V c 1 t

theorem zeroOffsets1 : (![0, 0] : Fin 2 → Nat) = fun _ => 0 :=
  funext fun a => match a with
    | ⟨0, _⟩ => rfl
    | ⟨1, _⟩ => rfl

/-- The block index maps over the 25 points: the row-blocked windows sit at block (t, 0), the bias window at (0, 0). -/
theorem blockIndex1 : ∀ t : Fin cfg1.N, t.val < 25
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every one of the 25 block rows is some point's. -/
theorem blockOnto1 : ∀ b : Fin 25, ∃ t : Fin cfg1.N, t.val = b.val :=
  (by decide +kernel : ∀ b : Fin 25, ∃ t : Fin grid1.N, t.val = b.val)

/-- Row p of point t's block is row 4000 t + p of the array. -/
def rowAt1 (t : Fin cfg1.N) (p : Fin 4000) : Fin 100000 :=
  ⟨4000 * t.val + p.val, by have := (blockIndex1 t).1; have := p.isLt; omega⟩

theorem arrBlock1_apply (c : Dev nD) (t : Fin cfg1.N) (p : Fin 4000) (q : Fin 128) :
    arrBlock1 V c t (ix2 p q) = arr1 V c (ix2 (rowAt1 t p) q) := by
  obtain ⟨_, e0, e1, _, _, _, _⟩ := blockIndex1 t
  show V c main_v43 (((cfg1.win 0).blk t).view.emb (ix2 p q)) = V c main_v43 (ix2 (rowAt1 t p) q)
  refine congrArg _ ?_
  funext a; apply Fin.ext
  match a with
  | ⟨0, _⟩ => show win1_0.index t (0 : Fin 2) * 4000 + 1 * p.val = 4000 * t.val + p.val; omega
  | ⟨1, _⟩ => show win1_0.index t (1 : Fin 2) * 128 + 1 * q.val = q.val; omega

theorem biasBlock1_apply (c : Dev nD) (t : Fin cfg1.N) (q : Fin 128) :
    biasBlock1 V c t (ix2 (0 : Fin 1) q) = bias1 V c (ix2 (0 : Fin 1) q) := by
  obtain ⟨_, _, _, e0, e1, _, _⟩ := blockIndex1 t
  show V c main_v44 (((cfg1.win 1).blk t).view.emb (ix2 (0 : Fin 1) q)) = V c main_v44 (ix2 (0 : Fin 1) q)
  refine congrArg _ ?_
  funext a; apply Fin.ext
  match a with
  | ⟨0, _⟩ => show win1_1.index t (0 : Fin 2) * 1 + 1 * 0 = 0; omega
  | ⟨1, _⟩ => show win1_1.index t (1 : Fin 2) * 128 + 1 * q.val = q.val; omega

/-- Entry (p, q) of point t's output block sits at entry (4000 t + p, q) of the output array. -/
theorem outBlock1_emb (t : Fin cfg1.N) (p : Fin 4000) (q : Fin 128) :
    ((cfg1.win 2).blk t).view.emb (ix2 p q) = ix2 (rowAt1 t p) q := by
  obtain ⟨_, _, _, _, _, e0, e1⟩ := blockIndex1 t
  funext a; apply Fin.ext
  match a with
  | ⟨0, _⟩ => show win1_2.index t (0 : Fin 2) * 4000 + 1 * p.val = 4000 * t.val + p.val; omega
  | ⟨1, _⟩ => show win1_2.index t (1 : Fin 2) * 128 + 1 * q.val = q.val; omega

/-! ## From the blocks to the array -/

/-- What point t writes back is block t of relu (a + r) of the whole array. -/
theorem flushed1_eq (c : Dev nD) (t : Fin cfg1.N) :
    (dat1 (F := Ideal) V c).flushed 2 t
      = ((cfg1.win 2).blk t).view.read (Elt Ideal) (biasRelu (arr1 V c) (bias1 V c)) := by
  show (cfg1.win 2).cut (grid1.coords t) ((dat1 (F := Ideal) V c).after 2 t) = _
  rw [after1_2]
  unfold out1_2
  rw [View.canon_unit_zero zeroOffsets1]
  simp only [View.ld_unit_zero (S := S4000x128) zeroOffsets1, View.ld_unit_zero (S := S1x128) zeroOffsets1]
  funext j
  obtain ⟨p, q, rfl⟩ : ∃ (p : Fin 4000) (q : Fin 128), j = ix2 p q := ⟨j 0, j 1, eq_ix2 j⟩
  show k1_pay1 (F := Ideal) (arrBlock1 V c t) (biasBlock1 V c t) (ix2 p q)
    = biasRelu (arr1 V c) (bias1 V c) (((cfg1.win 2).blk t).view.emb (ix2 p q))
  rw [payload1_eq, outBlock1_emb]
  exact biasRelu_rows (arr1 V c) (bias1 V c) (arrBlock1 V c t) (biasBlock1 V c t) (rowAt1 t)
    (arrBlock1_apply V c t) (biasBlock1_apply V c t) p q

/-- An index of the array is in point t's block iff each coordinate is in the block's range on its axis. -/
theorem mem_outBlock1 (t : Fin cfg1.N) (i : S100000x128.Idx) :
    i ∈ ((cfg1.win 2).blk t).view.set ↔ ∀ a : Fin 2, win1_2.index t a * S4000x128.size a ≤ (i a).val
      ∧ (i a).val < win1_2.index t a * S4000x128.size a + S4000x128.size a := by
  show i ∈ ((View.whole main_v45).slice (win1_2.rect t)).set ↔ _
  rw [View.set_slice_whole, Rect.mem_set_unit]
  exact Iff.rfl

/-- Every index of the array lies in the block of the point its row falls in: row r in block r / 4000. -/
theorem covered1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := blockOnto1 ⟨(i 0).val / 4000, by omega⟩
  have ht' : t.val = (i 0).val / 4000 := ht
  obtain ⟨_, _, _, _, _, e0, e1⟩ := blockIndex1 t
  refine ⟨t, flush1_2 t, ?_⟩
  rw [mem_outBlock1]
  intro a
  match a with
  | ⟨0, _⟩ =>
    show win1_2.index t (0 : Fin 2) * 4000 ≤ (i 0).val ∧ (i 0).val < win1_2.index t (0 : Fin 2) * 4000 + 4000
    omega
  | ⟨1, _⟩ =>
    show win1_2.index t (1 : Fin 2) * 128 ≤ (i 1).val ∧ (i 1).val < win1_2.index t (1 : Fin 2) * 128 + 128
    omega

/-- The output array after all 25 write-backs is relu (a + r) of the whole array and the bias row. -/
theorem region1 (c : Dev nD) :
    (dat1 (F := Ideal) V c).arrAt 2 cfg1.N = biasRelu (V c main_v43) (V c main_v44) :=
  (dat1 (F := Ideal) V c).arrAt_eq_of_cover 2 (biasRelu (arr1 V c) (bias1 V c))
    (fun t _ => flushed1_eq V c t) (covered1)

end Cert.KernelIdeal.BlockValue

end
-- ==== Proof.Region2.lean ====
/-
  The third call's output array is the product h·w of its two operand arrays: the same kernel as the first call (its
  left block passes through a recast to its own shape first), on rows 4000 t … 4000 t + 3999 at grid point t.
-/
import proofs.«116533_j5755256176696_1_alg».proof.Proof.Gen.KernelIdeal.Frame
import proofs.«116533_j5755256176696_1_alg».proof.Proof.Spec

set_option maxRecDepth 16384

noncomputable section

namespace Cert.KernelIdeal.BlockValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Gcn Cert.GcnNet

open Idealize.ShloMosaic.ValueIdx

variable (V : (c : Dev nD) → (b : Ref sig .tc) → Buf (Elt Ideal) ((c : Thread nD τ).loc b))

/-- Both offsets of a whole-block access are zero. -/
theorem zeroOffsets2 : (![0, 0] : Fin 2 → Nat) = fun _ => 0 := funext fun a => by fin_cases a <;> rfl

/-- On a block the body computes the product of the block of rows with the weight: recasting the block to its own shape
    changes nothing, narrowing the operands is the identity on the extended reals, and the accumulator starts at zero. -/
theorem payload2_eq_lin (x0 : Vec Ideal S4000x128 .f32) (x1 : Vec Ideal S128x128 .f32) :
    k2_pay1 (F := Ideal) x0 x1 = lin (A := 4000) (K := 128) (C := 128) x0 x1 := by
  unfold k2_pay1
  rw [shapeCast_self]
  exact matmul_eq_lin (A := 4000) (K := 128) (C := 128) (φ₁ := .bf16) (φ₂ := .bf16)
    (truncf .bf16 x0 bitsLt_bf16_f32) (truncf .bf16 x1 bitsLt_bf16_f32)

/-- The left operand, the weight, and their blocks at a point, as matrices of literal sizes. -/
abbrev xarr2 (c : Dev nD) : Mat 100000 128 := V c main_v45
abbrev warr2 (c : Dev nD) : Mat 128 128 := V c main_arg4
abbrev xblk2 (c : Dev nD) (t : Fin cfg2.N) : Mat 4000 128 := iblk2 (F := Ideal) V c 0 t
abbrev wblk2 (c : Dev nD) (t : Fin cfg2.N) : Mat 128 128 := iblk2 (F := Ideal) V c 1 t

/-- The block indices over the grid: point t takes row block t of the left operand and of the result, and the whole weight. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of point t's block is row 4000 t + p of the array. -/
def row2 (t : Fin cfg2.N) (p : Fin 4000) : Fin 100000 :=
  ⟨4000 * t.val + p.val, by have h : t.val < 25 := t.isLt; have := p.isLt; omega⟩

/-- Point t's block of the left operand is rows 4000 t … 4000 t + 3999 of it. -/
theorem xblk2_apply (c : Dev nD) (t : Fin cfg2.N) (p : Fin 4000) (k : Fin 128) :
    xblk2 V c t (ix2 p k) = xarr2 V c (ix2 (row2 t p) k) := by
  obtain ⟨e0, e1, -, -, -, -⟩ := blockIndex2 t
  show V c main_v45 (((cfg2.win 0).blk t).view.emb (ix2 p k)) = V c main_v45 (ix2 (row2 t p) k)
  refine congrArg (V c main_v45) (funext fun a => Fin.ext ?_)
  match a with
  | ⟨0, _⟩ => show win2_0.index t (0 : Fin 2) * 4000 + 1 * p.val = 4000 * t.val + p.val; rw [e0]; omega
  | ⟨1, _⟩ => show win2_0.index t (1 : Fin 2) * 128 + 1 * k.val = k.val; rw [e1]; omega

/-- Every point's block of the weight is the whole weight. -/
theorem wblk2_apply (c : Dev nD) (t : Fin cfg2.N) (k : Fin 128) (q : Fin 128) :
    wblk2 V c t (ix2 k q) = warr2 V c (ix2 k q) := by
  obtain ⟨-, -, e2, e3, -, -⟩ := blockIndex2 t
  show V c main_arg4 (((cfg2.win 1).blk t).view.emb (ix2 k q)) = V c main_arg4 (ix2 k q)
  refine congrArg (V c main_arg4) (funext fun a => Fin.ext ?_)
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- What point t writes back is block t of the product of the whole arrays: a row of the product needs only the same row
    of the left operand. -/
theorem flushed2_eq (c : Dev nD) (t : Fin cfg2.N) :
    (dat2 (F := Ideal) V c).flushed 2 t
      = ((cfg2.win 2).blk t).view.read (Elt Ideal) (lin (xarr2 V c) (warr2 V c)) := by
  show (cfg2.win 2).cut (grid2.coords t) ((dat2 (F := Ideal) V c).after 2 t) = _
  rw [after2_2]
  unfold out2_2
  rw [View.canon_unit_zero zeroOffsets2]
  simp only [View.ld_unit_zero (S := S4000x128) zeroOffsets2, View.ld_unit_zero (S := S128x128) zeroOffsets2]
  rw [payload2_eq_lin]
  obtain ⟨-, -, -, -, e4, e5⟩ := blockIndex2 t
  funext j
  obtain ⟨p, q, rfl⟩ : ∃ (p : Fin 4000) (q : Fin 128), j = ix2 p q := ⟨j 0, j 1, eq_ix2 j⟩
  have hemb : ((cfg2.win 2).blk t).view.emb (ix2 p q) = ix2 (row2 t p) q := by
    funext a; apply Fin.ext
    match a with
    | ⟨0, _⟩ => show win2_2.index t (0 : Fin 2) * 4000 + 1 * p.val = 4000 * t.val + p.val; rw [e4]; omega
    | ⟨1, _⟩ => show win2_2.index t (1 : Fin 2) * 128 + 1 * q.val = q.val; rw [e5]; omega
  show lin (xblk2 V c t) (wblk2 V c t) (ix2 p q)
      = lin (xarr2 V c) (warr2 V c) (((cfg2.win 2).blk t).view.emb (ix2 p q))
  rw [hemb]
  exact lin_rows (xarr2 V c) (warr2 V c) (xblk2 V c t) (wblk2 V c t) (row2 t)
    (fun p k => xblk2_apply V c t p k) (fun k q => wblk2_apply V c t k q) p q

/-- An index of the result lies in point t's block iff each coordinate is in the block's range on its axis. -/
theorem mem_block2 (t : Fin cfg2.N) (i : S100000x128.Idx) :
    i ∈ ((cfg2.win 2).blk t).view.set ↔ ∀ a : Fin 2, win2_2.index t a * S4000x128.size a ≤ (i a).val
      ∧ (i a).val < win2_2.index t a * S4000x128.size a + S4000x128.size a := by
  show i ∈ ((View.whole main_v46).slice (win2_2.rect t)).set ↔ _
  rw [View.set_slice_whole, Rect.mem_set_unit]
  exact Iff.rfl

/-- Every entry of the result lies in the block of the point its row falls in. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  let t : Fin cfg2.N := ⟨(i 0).val / 4000, show (i 0).val / 4000 < 25 by omega⟩
  have ht : t.val = (i 0).val / 4000 := rfl
  obtain ⟨-, -, -, -, e4, e5⟩ := blockIndex2 t
  refine ⟨t, flush2_2 t, ?_⟩
  rw [mem_block2]
  intro a
  match a with
  | ⟨0, _⟩ =>
    show win2_2.index t (0 : Fin 2) * 4000 ≤ (i 0).val ∧ (i 0).val < win2_2.index t (0 : Fin 2) * 4000 + 4000
    rw [e4, ht]; omega
  | ⟨1, _⟩ =>
    show win2_2.index t (1 : Fin 2) * 128 ≤ (i 1).val ∧ (i 1).val < win2_2.index t (1 : Fin 2) * 128 + 128
    rw [e5]; omega

/-- After the 25 write-backs the result array holds the product of the left operand with the weight. -/
theorem region2 (c : Dev nD) :
    (dat2 (F := Ideal) V c).arrAt 2 cfg2.N = lin (V c main_v45) (V c main_arg4) :=
  (dat2 (F := Ideal) V c).arrAt_eq_of_cover 2 (lin (xarr2 V c) (warr2 V c))
    (fun t _ => flushed2_eq V c t) (cover2)

end Cert.KernelIdeal.BlockValue

end
-- ==== Proof.Region3.lean ====
/-
  The fourth call's output array is relu (a + r), r the one bias row repeated down the rows: the same kernel as the second
  call, on rows 4000 t … 4000 t + 3999 at grid point t.
-/
import proofs.«116533_j5755256176696_1_alg».proof.Proof.Gen.KernelIdeal.Frame
import proofs.«116533_j5755256176696_1_alg».proof.Proof.Spec

set_option maxRecDepth 16384

noncomputable section

namespace Cert.KernelIdeal.BlockValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Gcn Cert.GcnNet
open Idealize.ShloMosaic.ValueIdx

variable (V : (c : Dev nD) → (b : Ref sig .tc) → Buf (Elt Ideal) ((c : Thread nD τ).loc b))

/-! ## The block computation is relu (a + r) of the blocks -/

/-- The body's result on a block of rows and the bias row is relu (a + r) of them. -/
theorem payload3_eq (a : Mat 4000 128) (r : Mat 1 128) : k3_pay1 (F := Ideal) a r = biasRelu a r := by
  unfold k3_pay1
  exact kernel_biasRelu a r _ _ _

/-! ## The blocks are rows of the arrays -/

/-- The array of 100000 rows, the bias row, and their blocks at point t, at their literal types. -/
abbrev arr3 (c : Dev nD) : Mat 100000 128 := V c main_v74
abbrev bias3 (c : Dev nD) : Mat 1 128 := V c main_v75
abbrev arrBlock3 (c : Dev nD) (t : Fin cfg3.N) : Mat 4000 128 := iblk3 V c 0 t
abbrev biasBlock3 (c : Dev nD) (t : Fin cfg3.N) : Mat 1 128 := iblk3 V c 1 t

theorem zeroOffsets3 : (![0, 0] : Fin 2 → Nat) = fun _ => 0 :=
  funext fun a => match a with
    | ⟨0, _⟩ => rfl
    | ⟨1, _⟩ => rfl

/-- The block index maps over the 25 points: the row-blocked windows sit at block (t, 0), the bias window at (0, 0). -/
theorem blockIndex3 : ∀ t : Fin cfg3.N, t.val < 25
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every one of the 25 block rows is some point's. -/
theorem blockOnto3 : ∀ b : Fin 25, ∃ t : Fin cfg3.N, t.val = b.val :=
  (by decide +kernel : ∀ b : Fin 25, ∃ t : Fin grid3.N, t.val = b.val)

/-- Row p of point t's block is row 4000 t + p of the array. -/
def rowAt3 (t : Fin cfg3.N) (p : Fin 4000) : Fin 100000 :=
  ⟨4000 * t.val + p.val, by have := (blockIndex3 t).1; have := p.isLt; omega⟩

theorem arrBlock3_apply (c : Dev nD) (t : Fin cfg3.N) (p : Fin 4000) (q : Fin 128) :
    arrBlock3 V c t (ix2 p q) = arr3 V c (ix2 (rowAt3 t p) q) := by
  obtain ⟨_, e0, e1, _, _, _, _⟩ := blockIndex3 t
  show V c main_v74 (((cfg3.win 0).blk t).view.emb (ix2 p q)) = V c main_v74 (ix2 (rowAt3 t p) q)
  refine congrArg _ ?_
  funext a; apply Fin.ext
  match a with
  | ⟨0, _⟩ => show win3_0.index t (0 : Fin 2) * 4000 + 1 * p.val = 4000 * t.val + p.val; omega
  | ⟨1, _⟩ => show win3_0.index t (1 : Fin 2) * 128 + 1 * q.val = q.val; omega

theorem biasBlock3_apply (c : Dev nD) (t : Fin cfg3.N) (q : Fin 128) :
    biasBlock3 V c t (ix2 (0 : Fin 1) q) = bias3 V c (ix2 (0 : Fin 1) q) := by
  obtain ⟨_, _, _, e0, e1, _, _⟩ := blockIndex3 t
  show V c main_v75 (((cfg3.win 1).blk t).view.emb (ix2 (0 : Fin 1) q)) = V c main_v75 (ix2 (0 : Fin 1) q)
  refine congrArg _ ?_
  funext a; apply Fin.ext
  match a with
  | ⟨0, _⟩ => show win3_1.index t (0 : Fin 2) * 1 + 1 * 0 = 0; omega
  | ⟨1, _⟩ => show win3_1.index t (1 : Fin 2) * 128 + 1 * q.val = q.val; omega

/-- Entry (p, q) of point t's output block sits at entry (4000 t + p, q) of the output array. -/
theorem outBlock3_emb (t : Fin cfg3.N) (p : Fin 4000) (q : Fin 128) :
    ((cfg3.win 2).blk t).view.emb (ix2 p q) = ix2 (rowAt3 t p) q := by
  obtain ⟨_, _, _, _, _, e0, e1⟩ := blockIndex3 t
  funext a; apply Fin.ext
  match a with
  | ⟨0, _⟩ => show win3_2.index t (0 : Fin 2) * 4000 + 1 * p.val = 4000 * t.val + p.val; omega
  | ⟨1, _⟩ => show win3_2.index t (1 : Fin 2) * 128 + 1 * q.val = q.val; omega

/-! ## From the blocks to the array -/

/-- What point t writes back is block t of relu (a + r) of the whole array. -/
theorem flushed3_eq (c : Dev nD) (t : Fin cfg3.N) :
    (dat3 (F := Ideal) V c).flushed 2 t
      = ((cfg3.win 2).blk t).view.read (Elt Ideal) (biasRelu (arr3 V c) (bias3 V c)) := by
  show (cfg3.win 2).cut (grid3.coords t) ((dat3 (F := Ideal) V c).after 2 t) = _
  rw [after3_2]
  unfold out3_2
  rw [View.canon_unit_zero zeroOffsets3]
  simp only [View.ld_unit_zero (S := S4000x128) zeroOffsets3, View.ld_unit_zero (S := S1x128) zeroOffsets3]
  funext j
  obtain ⟨p, q, rfl⟩ : ∃ (p : Fin 4000) (q : Fin 128), j = ix2 p q := ⟨j 0, j 1, eq_ix2 j⟩
  show k3_pay1 (F := Ideal) (arrBlock3 V c t) (biasBlock3 V c t) (ix2 p q)
    = biasRelu (arr3 V c) (bias3 V c) (((cfg3.win 2).blk t).view.emb (ix2 p q))
  rw [payload3_eq, outBlock3_emb]
  exact biasRelu_rows (arr3 V c) (bias3 V c) (arrBlock3 V c t) (biasBlock3 V c t) (rowAt3 t)
    (arrBlock3_apply V c t) (biasBlock3_apply V c t) p q

/-- An index of the array is in point t's block iff each coordinate is in the block's range on its axis. -/
theorem mem_outBlock3 (t : Fin cfg3.N) (i : S100000x128.Idx) :
    i ∈ ((cfg3.win 2).blk t).view.set ↔ ∀ a : Fin 2, win3_2.index t a * S4000x128.size a ≤ (i a).val
      ∧ (i a).val < win3_2.index t a * S4000x128.size a + S4000x128.size a := by
  show i ∈ ((View.whole main_v76).slice (win3_2.rect t)).set ↔ _
  rw [View.set_slice_whole, Rect.mem_set_unit]
  exact Iff.rfl

/-- Every index of the array lies in the block of the point its row falls in: row r in block r / 4000. -/
theorem covered3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := blockOnto3 ⟨(i 0).val / 4000, by omega⟩
  have ht' : t.val = (i 0).val / 4000 := ht
  obtain ⟨_, _, _, _, _, e0, e1⟩ := blockIndex3 t
  refine ⟨t, flush3_2 t, ?_⟩
  rw [mem_outBlock3]
  intro a
  match a with
  | ⟨0, _⟩ =>
    show win3_2.index t (0 : Fin 2) * 4000 ≤ (i 0).val ∧ (i 0).val < win3_2.index t (0 : Fin 2) * 4000 + 4000
    omega
  | ⟨1, _⟩ =>
    show win3_2.index t (1 : Fin 2) * 128 ≤ (i 1).val ∧ (i 1).val < win3_2.index t (1 : Fin 2) * 128 + 128
    omega

/-- The output array after all 25 write-backs is relu (a + r) of the whole array and the bias row. -/
theorem region3 (c : Dev nD) :
    (dat3 (F := Ideal) V c).arrAt 2 cfg3.N = biasRelu (V c main_v74) (V c main_v75) :=
  (dat3 (F := Ideal) V c).arrAt_eq_of_cover 2 (biasRelu (arr3 V c) (bias3 V c))
    (fun t _ => flushed3_eq V c t) (covered3)

end Cert.KernelIdeal.BlockValue

end
-- ==== Proof.LibLogSoftmaxFused.lean ====
/-
  The row-wise log-softmax with the shift and the logarithm subtracted at once (a general lemma: nothing here depends
  on a program).

  A kernel may compute, with m the row maxima and s the row sums of exp (z - m) kept as columns, the block
  z - (m + log s)  instead of  (z - m) - log s.  On the extended reals  a - (m + l) = (a - m) - l  holds when m is a real
  number (it fails at m = +inf), so where every row maximum is real that spelling is the row-wise log-softmax
  'logSoftmax z' too.  Any sizes [A, C].
-/
import Idealize.ShloMosaic.Lib.ValueIdx
import Idealize.ShloMosaic.Lib.Pipeline.Value
import Idealize.ShloMosaic.PureOps.Ideal.Laws
import proofs.«116533_j5755256176696_1_alg».proof.Proof.LibLogSoftmaxRows

noncomputable section

namespace Cert.Gcn

open Idealize.ShloMosaic Idealize.ShloMosaic.ValueIdx

/-- On the extended reals a - (m + l) = (a - m) - l when m is a real number. -/
theorem sub_add_of_real (a m l : EReal) (hm : ∃ t : ℝ, m = (t : EReal)) : a - (m + l) = a - m - l := by
  obtain ⟨t, rfl⟩ := hm
  rw [sub_eq_add_neg, EReal.neg_add (Or.inl (EReal.coe_ne_bot t)) (Or.inl (EReal.coe_ne_top t)), sub_eq_add_neg,
    ← add_assoc, ← sub_eq_add_neg, ← sub_eq_add_neg]

section General
variable {A C : Nat}

/-- The row-wise log-softmax with the row maximum and the logarithm of the row sum added first and subtracted once. -/
def finalOf (z : FVec Ideal ⟨2, ![A, C]⟩ .f32)
    (hred : (⟨2, ![A, C]⟩ : Shape).Reduces [1] ⟨1, ![A]⟩)
    (hcol : (⟨1, ![A]⟩ : Shape).ShapeCasts ⟨2, ![A, 1]⟩) (hbc : (⟨2, ![A, 1]⟩ : Shape).Broadcasts ⟨2, ![A, C]⟩) :
    FVec Ideal ⟨2, ![A, C]⟩ .f32 :=
  subf z
    (broadcastTo ⟨2, ![A, C]⟩
      (addf (shapeCast ⟨2, ![A, 1]⟩ (multiReduction .maximumf [1] ⟨1, ![A]⟩ z 0xFF800000#32 hred (.inl rfl) rfl) hcol)
        (log (shapeCast ⟨2, ![A, 1]⟩
          (multiReduction .add [1] ⟨1, ![A]⟩
            (exp (subf z (broadcastTo ⟨2, ![A, C]⟩ (shapeCast ⟨2, ![A, 1]⟩
                (multiReduction .maximumf [1] ⟨1, ![A]⟩ z 0xFF800000#32 hred (.inl rfl) rfl) hcol) hbc)))
            0x00000000#32 hred (.inl rfl) rfl) hcol))) hbc)

theorem finalOf_eq (z : FVec Ideal ⟨2, ![A, C]⟩ .f32)
    (hred : (⟨2, ![A, C]⟩ : Shape).Reduces [1] ⟨1, ![A]⟩)
    (hcol : (⟨1, ![A]⟩ : Shape).ShapeCasts ⟨2, ![A, 1]⟩) (hbc : (⟨2, ![A, 1]⟩ : Shape).Broadcasts ⟨2, ![A, C]⟩)
    (hm : ∀ p, ∃ t : ℝ, rowMax z p = (t : EReal)) :
    finalOf z hred hcol hbc = logSoftmax z := by
  unfold finalOf
  have hmx : broadcastTo ⟨2, ![A, C]⟩ (shapeCast ⟨2, ![A, 1]⟩
      (multiReduction .maximumf [1] ⟨1, ![A]⟩ z 0xFF800000#32 hred (.inl rfl) rfl) hcol) hbc
      = fun i => rowMax z (i 0) := by
    funext i
    obtain ⟨p, q, rfl⟩ : ∃ (p : Fin A) (q : Fin C), i = ix2 p q := ⟨i 0, i 1, eq_ix2 i⟩
    exact rowMaxCol_apply z hred (.inl rfl) rfl hcol hbc p q
  rw [hmx]
  funext i
  obtain ⟨p, q, rfl⟩ : ∃ (p : Fin A) (q : Fin C), i = ix2 p q := ⟨i 0, i 1, eq_ix2 i⟩
  show z (ix2 p q)
      - broadcastTo ⟨2, ![A, C]⟩
          (addf (shapeCast ⟨2, ![A, 1]⟩ (multiReduction .maximumf [1] ⟨1, ![A]⟩ z 0xFF800000#32 hred (.inl rfl) rfl) hcol)
            (log (shapeCast ⟨2, ![A, 1]⟩
              (multiReduction .add [1] ⟨1, ![A]⟩ (exp (subf z fun i => rowMax z (i 0))) 0x00000000#32 hred (.inl rfl) rfl) hcol)))
          hbc (ix2 p q) = _
  rw [Cert.Lib.ColSum.bcastColMat_apply _ hbc p q]
  show z (ix2 p q)
      - (shapeCast ⟨2, ![A, 1]⟩ (multiReduction .maximumf [1] ⟨1, ![A]⟩ z 0xFF800000#32 hred (.inl rfl) rfl) hcol (ix2 p (0 : Fin 1))
          + Ideal.log (shapeCast ⟨2, ![A, 1]⟩
              (multiReduction .add [1] ⟨1, ![A]⟩ (exp (subf z fun i => rowMax z (i 0))) 0x00000000#32 hred (.inl rfl) rfl) hcol
              (ix2 p (0 : Fin 1)))) = _
  rw [Cert.Lib.LayoutCol.colCast_apply _ hcol p 0, rowMaxRed_apply z hred (.inl rfl) rfl p,
    Cert.Lib.ColSum.rowSumCol_apply _ hred (.inl rfl) rfl hcol p 0]
  refine (sub_add_of_real _ _ _ (hm p)).trans ?_
  rfl

end General

end Cert.Gcn

end
-- ==== Proof.Region4.lean ====
/-
  The final kernel's output array as one function of its operand arrays.

  Each grid point t takes rows 4000 t … 4000 t + 3999 of x, the whole weight w and the whole bias row r, and stores, with
  z = x·w + r on those rows, m the row maxima and s the row sums of exp (z - m), the block  z - (m + log s).  On the
  extended reals  a - (m + l) = (a - m) - l  when m is a real number, so where every entry of x·w + r is real (then each
  row maximum, the greatest of finitely many reals, is real) the block is the row-wise log-softmax of z.  The log-softmax
  of x·w + r depends on row p of x only, so the block a point writes back is that point's rows of the log-softmax of the
  whole x·w + r; the twenty-five blocks tile the array (row i lies in block i / 4000), so the array ends holding it.
-/
import proofs.«116533_j5755256176696_1_alg».proof.Proof.Gen.KernelIdeal.Frame
import proofs.«116533_j5755256176696_1_alg».proof.Proof.Spec
import proofs.«116533_j5755256176696_1_alg».proof.Proof.LibLogSoftmaxFused
import proofs.«116533_j5755256176696_1_alg».proof.Proof.LibRealEntries

set_option maxRecDepth 16384

noncomputable section

namespace Cert.KernelIdeal.BlockValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Gcn Cert.GcnNet
open Idealize.ShloMosaic.ValueIdx Cert.Lib.RealEntries

variable (V : (c : Dev nD) → (b : Ref sig .tc) → Buf (Elt Ideal) ((c : Thread nD τ).loc b))

namespace Region4

/-- The body's payload on a block is the log-softmax of x·w + r of the block, when every row maximum is real. -/
theorem pay_eq (v0 : Vec Ideal S4000x128 .f32) (v3 : Vec Ideal S128x2 .f32) (v6 : Vec Ideal S1x2 .f32)
    (hm : ∀ p, ∃ t : ℝ, rowMax (affine (A := 4000) (K := 128) (C := 2) v0 v3 v6) p = (t : EReal)) :
    k4_pay1 (F := Ideal) v0 v3 v6 = logSoftmax (affine (A := 4000) (K := 128) (C := 2) v0 v3 v6) := by
  have hz : addf (matmul dot_S4000x128_S128x2_S4000x2_1_0_0_1_n_n none
        (truncf .bf16 (shapeCast S4000x128 v0 shapeCasts_S4000x128_S4000x128) bitsLt_bf16_f32)
        (truncf .bf16 v3 bitsLt_bf16_f32) (constant (F := Ideal) S4000x2 .f32 0x00000000#32))
      (broadcastTo S4000x2 (shapeCast S1x2 v6 shapeCasts_S1x2_S1x2) broadcasts_S1x2_S4000x2)
      = affine (A := 4000) (K := 128) (C := 2) v0 v3 v6 := by
    refine addRow_eq_affine _ v0 v3 ?_ v6 shapeCasts_S1x2_S1x2 broadcasts_S1x2_S4000x2
    rw [shapeCast_self]
    exact matmul_eq_lin (A := 4000) (K := 128) (C := 2) (φ₁ := .bf16) (φ₂ := .bf16) v0 v3
  show finalOf (A := 4000) (C := 2) (addf (matmul dot_S4000x128_S128x2_S4000x2_1_0_0_1_n_n none
        (truncf .bf16 (shapeCast S4000x128 v0 shapeCasts_S4000x128_S4000x128) bitsLt_bf16_f32)
        (truncf .bf16 v3 bitsLt_bf16_f32) (constant (F := Ideal) S4000x2 .f32 0x00000000#32))
      (broadcastTo S4000x2 (shapeCast S1x2 v6 shapeCasts_S1x2_S1x2) broadcasts_S1x2_S4000x2))
      reduces_S4000x2_S4000 shapeCasts_S4000_S4000x1 broadcasts_S4000x1_S4000x2 = _
  rw [hz]
  exact finalOf_eq _ reduces_S4000x2_S4000 shapeCasts_S4000_S4000x1 broadcasts_S4000x1_S4000x2 hm

theorem hzero : (![0, 0] : Fin 2 → Nat) = fun _ => 0 := funext fun a => by fin_cases a <;> rfl

/-- The printed index maps over the grid: the row-blocked windows sit at block (t, 0), the whole operands at (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of point t's block is row 4000 t + p of the array. -/
def rowOf (t : Fin cfg4.N) (p : Fin 4000) : Fin 100000 :=
  ⟨4000 * t.val + p.val, by
    have ht : t.val < 25 := lt_of_lt_of_eq t.isLt N_4
    have hp := p.isLt
    omega⟩

/-- The three input blocks at a point, at their literal types. -/
abbrev xblk (c : Dev nD) (t : Fin cfg4.N) : Mat 4000 128 := iblk4 V c 0 t
abbrev wblk (c : Dev nD) (t : Fin cfg4.N) : Mat 128 2 := iblk4 V c 1 t
abbrev rblk (c : Dev nD) (t : Fin cfg4.N) : Mat 1 2 := iblk4 V c 2 t

/-- The block of the row-indexed operand: its row p is row 4000 t + p of the array. -/
theorem xblk_apply (c : Dev nD) (t : Fin cfg4.N) (p : Fin 4000) (k : Fin 128) :
    xblk V c t (ix2 p k) = (V c main_v76 : Mat 100000 128) (ix2 (rowOf t p) k) := by
  obtain ⟨e0, e1, -⟩ := idx_facts t
  show V c main_v76 (((cfg4.win 0).blk t).view.emb (ix2 p k)) = V c main_v76 (ix2 (rowOf t p) k)
  refine congrArg (V c main_v76) ?_
  funext a
  apply Fin.ext
  match a with
  | ⟨0, _⟩ => show win4_0.index t (0 : Fin 2) * 4000 + 1 * p.val = 4000 * t.val + p.val; omega
  | ⟨1, _⟩ => show win4_0.index t (1 : Fin 2) * 128 + 1 * k.val = k.val; omega

/-- The weight's block is the whole weight. -/
theorem wblk_apply (c : Dev nD) (t : Fin cfg4.N) (k : Fin 128) (q : Fin 2) :
    wblk V c t (ix2 k q) = (V c main_arg6 : Mat 128 2) (ix2 k q) := by
  obtain ⟨-, -, e2, e3, -⟩ := idx_facts t
  show V c main_arg6 (((cfg4.win 1).blk t).view.emb (ix2 k q)) = V c main_arg6 (ix2 k q)
  refine congrArg (V c main_arg6) ?_
  funext a
  apply Fin.ext
  match a with
  | ⟨0, _⟩ => show win4_1.index t (0 : Fin 2) * 128 + 1 * k.val = k.val; omega
  | ⟨1, _⟩ => show win4_1.index t (1 : Fin 2) * 2 + 1 * q.val = q.val; omega

/-- The bias row's block is the whole row. -/
theorem rblk_apply (c : Dev nD) (t : Fin cfg4.N) (q : Fin 2) :
    rblk V c t (ix2 (0 : Fin 1) q) = (V c main_v77 : Mat 1 2) (ix2 (0 : Fin 1) q) := by
  obtain ⟨-, -, -, -, e4, e5, -⟩ := idx_facts t
  show V c main_v77 (((cfg4.win 2).blk t).view.emb (ix2 (0 : Fin 1) q)) = V c main_v77 (ix2 (0 : Fin 1) q)
  refine congrArg (V c main_v77) ?_
  funext a
  apply Fin.ext
  match a with
  | ⟨0, _⟩ => show win4_2.index t (0 : Fin 2) * 1 + 1 * 0 = 0; omega
  | ⟨1, _⟩ => show win4_2.index t (1 : Fin 2) * 2 + 1 * q.val = q.val; omega

/-- x·w + r of the blocks at (p, q) is x·w + r of the arrays at (4000 t + p, q). -/
theorem blk_affine (c : Dev nD) (t : Fin cfg4.N) (p : Fin 4000) (q : Fin 2) :
    affine (xblk V c t) (wblk V c t) (rblk V c t) (ix2 p q)
      = affine (V c main_v76 : Mat 100000 128) (V c main_arg6 : Mat 128 2) (V c main_v77 : Mat 1 2) (ix2 (rowOf t p) q) :=
  affine_rows (V c main_v76 : Mat 100000 128) (V c main_arg6 : Mat 128 2) (V c main_v77 : Mat 1 2)
    (xblk V c t) (wblk V c t) (rblk V c t) (rowOf t) (xblk_apply V c t) (wblk_apply V c t) (rblk_apply V c t) p q

/-- What point t writes back is block t of the log-softmax of x·w + r of the whole arrays. -/
theorem flushed_eq (c : Dev nD) (hreal : Reals (affine (V c main_v76) (V c main_arg6) (V c main_v77))) (t : Fin cfg4.N) :
    (dat4 (F := Ideal) V c).flushed 3 t
      = ((cfg4.win 3).blk t).view.read (Elt Ideal) (logSoftmax (affine (V c main_v76) (V c main_arg6) (V c main_v77))) := by
  show (cfg4.win 3).cut (grid4.coords t) ((dat4 (F := Ideal) V c).after 3 t) = _
  rw [after4_3]
  unfold out4_3
  rw [View.canon_unit_zero hzero]
  simp only [View.ld_unit_zero (S := S4000x128) hzero, View.ld_unit_zero (S := S128x2) hzero, View.ld_unit_zero (S := S1x2) hzero]
  have hblk : ∀ p q, ∃ r : ℝ, affine (xblk V c t) (wblk V c t) (rblk V c t) (ix2 p q) = (r : EReal) := fun p q => by
    rw [blk_affine V c t p q]
    exact hreal _
  obtain ⟨-, -, -, -, -, -, e6, e7⟩ := idx_facts t
  funext j
  obtain ⟨p, q, rfl⟩ : ∃ (p : Fin 4000) (q : Fin 2), j = ix2 p q := ⟨j 0, j 1, eq_ix2 j⟩
  refine (congrFun (pay_eq (xblk V c t) (wblk V c t) (rblk V c t) (rowMax_real _ (by decide) hblk)) (ix2 p q)).trans ?_
  have hemb : ((cfg4.win 3).blk t).view.emb (ix2 p q) = ix2 (rowOf t p) q := by
    funext a
    apply Fin.ext
    match a with
    | ⟨0, _⟩ => show win4_3.index t (0 : Fin 2) * 4000 + 1 * p.val = 4000 * t.val + p.val; omega
    | ⟨1, _⟩ => show win4_3.index t (1 : Fin 2) * 2 + 1 * q.val = q.val; omega
  show _ = logSoftmax (affine (V c main_v76 : Mat 100000 128) (V c main_arg6 : Mat 128 2) (V c main_v77 : Mat 1 2))
      (((cfg4.win 3).blk t).view.emb (ix2 p q))
  rw [hemb]
  exact logSoftmax_addRow_rows (lin (V c main_v76 : Mat 100000 128) (V c main_arg6 : Mat 128 2)) (V c main_v77 : Mat 1 2)
    (lin (xblk V c t) (wblk V c t)) (rblk V c t) (rowOf t)
    (fun p k => lin_rows (V c main_v76 : Mat 100000 128) (V c main_arg6 : Mat 128 2) (xblk V c t) (wblk V c t) (rowOf t)
      (xblk_apply V c t) (wblk_apply V c t) p k)
    (rblk_apply V c t) p q

/-- An index of the output array is in point t's block iff each coordinate is in the block's range on its axis. -/
theorem mem_blk (t : Fin cfg4.N) (i : S100000x2.Idx) :
    i ∈ ((cfg4.win 3).blk t).view.set
      ↔ ∀ a : Fin 2, win4_3.index t a * S4000x2.size a ≤ (i a).val ∧ (i a).val < win4_3.index t a * S4000x2.size a + S4000x2.size a := by
  show i ∈ ((View.whole main_v78).slice (win4_3.rect t)).set ↔ _
  rw [View.set_slice_whole, Rect.mem_set_unit]
  exact Iff.rfl

/-- Every index of the output array is in the block of the point its row belongs to: row r is in block r / 4000. -/
theorem cover (i : S100000x2.Idx) : ∃ t : Fin cfg4.N, (cfg4.win 3).flush t = true ∧ i ∈ ((cfg4.win 3).blk t).view.set := by
  have hi0 : (i 0).val < 100000 := (i 0).isLt
  have hi1 : (i 1).val < 2 := (i 1).isLt
  obtain ⟨t, ht⟩ : ∃ t : Fin cfg4.N, t.val = (i 0).val / 4000 :=
    ⟨⟨(i 0).val / 4000, lt_of_lt_of_eq (by omega : (i 0).val / 4000 < 25) N_4.symm⟩, rfl⟩
  obtain ⟨-, -, -, -, -, -, e6, e7⟩ := idx_facts t
  refine ⟨t, flush4_3 t, ?_⟩
  rw [mem_blk]
  intro a
  match a with
  | ⟨0, _⟩ =>
    show win4_3.index t (0 : Fin 2) * 4000 ≤ (i 0).val ∧ (i 0).val < win4_3.index t (0 : Fin 2) * 4000 + 4000
    omega
  | ⟨1, _⟩ =>
    show win4_3.index t (1 : Fin 2) * 2 ≤ (i 1).val ∧ (i 1).val < win4_3.index t (1 : Fin 2) * 2 + 2
    omega

end Region4

/-- The output array after all twenty-five write-backs is the row-wise log-softmax of x·w + r. -/
theorem region4 (c : Dev nD) (hreal : Reals (affine (V c main_v76) (V c main_arg6) (V c main_v77))) :
    (dat4 (F := Ideal) V c).arrAt 3 cfg4.N = logSoftmax (affine (V c main_v76) (V c main_arg6) (V c main_v77)) :=
  (dat4 (F := Ideal) V c).arrAt_eq_of_cover 3 _ (fun t _ => Region4.flushed_eq V c hreal t) Region4.cover

end Cert.KernelIdeal.BlockValue

end
-- ==== Proof.KernelChain.lean ====
import proofs.«116533_j5755256176696_1_alg».proof.Proof.Gen.KernelIdeal.Frame
import proofs.«116533_j5755256176696_1_alg».proof.Proof.Spec
import proofs.«116533_j5755256176696_1_alg».proof.Proof.Finite
import proofs.«116533_j5755256176696_1_alg».proof.Proof.Region0
import proofs.«116533_j5755256176696_1_alg».proof.Proof.Region1
import proofs.«116533_j5755256176696_1_alg».proof.Proof.Region2
import proofs.«116533_j5755256176696_1_alg».proof.Proof.Region3
import proofs.«116533_j5755256176696_1_alg».proof.Proof.Region4

set_option maxRecDepth 16384

noncomputable section

/-
  The kernel program's result array as the network of the arguments.

  @main is five pallas_calls among stretches of host operations.  Boundary by boundary, from the launch to the return,
  this module says what each buffer that is read later holds: after the first stretches the two ends of every edge and
  the inverse square-root degrees, as functions of the edge list; after the first call the product x·w1; after the
  next stretch one round of message passing over it and the bias laid out as a row; after the second call the
  rectified layer; and so on through the second layer to the last call, whose result is the row-wise log-softmax of the
  logits.  A buffer no operation in between writes holds what it held.  The last call's value needs the logits to be
  real numbers, which they are when the float arguments are.
-/
namespace Cert.KernelIdeal.Chain

open Idealize.ShloMosaic Idealize.ShloMosaic.TcCoe Idealize.ShloMosaic.Tactic Idealize.ShloMosaic.StableHlo
open Idealize.SL Idealize.SL.Sem
open Cert.KernelIdeal Cert.KernelIdeal.Gen Cert.Gcn Cert.GcnNet Cert.Lib.RealEntries

variable (m : (ℓ : Loc nD τ sig) → Buf (Elt Ideal) ℓ) (ρ : Dev nD → PrngReg)

variable (c : Dev nD)

/-! ## After the first stretch: the ends of the edges, and the degree's compare and inverse square root -/

set_option maxHeartbeats 4000000 in
theorem W1_v3 : W1 m ρ c (Proc.devRef .tc main_v3) = srcVec (m ((c : Thread nD τ).loc main_arg1)) := by
  show StableHlo.after hostOps0 (W0 m ρ c) (Proc.devRef .tc main_v3) = _
  dsimp only [hostOps0]
  (after_results) <;> rfl
set_option maxHeartbeats 4000000 in
theorem W1_v6 : W1 m ρ c (Proc.devRef .tc main_v6) = dstVec (m ((c : Thread nD τ).loc main_arg1)) := by
  show StableHlo.after hostOps0 (W0 m ρ c) (Proc.devRef .tc main_v6) = _
  dsimp only [hostOps0]
  (after_results) <;> rfl
set_option maxHeartbeats 4000000 in
theorem W1_v12 : W1 m ρ c (Proc.devRef .tc main_v12) = cmpf (F := Ideal) .ogt (deg (dcolOf (m ((c : Thread nD τ).loc main_arg1)))) (broadcastInDim SN ![] b0N (constant (F := Ideal) S0 .f32 0x00000000#32)) := by
  show StableHlo.after hostOps0 (W0 m ρ c) (Proc.devRef .tc main_v12) = _
  dsimp only [hostOps0]
  (after_results) <;> rfl
set_option maxHeartbeats 4000000 in
theorem W1_v13 : W1 m ρ c (Proc.devRef .tc main_v13) = Host.rsqrt (deg (dcolOf (m ((c : Thread nD τ).loc main_arg1)))) := by
  show StableHlo.after hostOps0 (W0 m ρ c) (Proc.devRef .tc main_v13) = _
  dsimp only [hostOps0]
  (after_results) <;> rfl
set_option maxHeartbeats 4000000 in
theorem W1_cst2 : W1 m ρ c (Proc.devRef .tc main_cst_2) = constant (F := Ideal) S0 .f32 0x00000000#32 := by
  show StableHlo.after hostOps0 (W0 m ρ c) (Proc.devRef .tc main_cst_2) = _
  dsimp only [hostOps0]
  (after_results) <;> rfl
set_option maxHeartbeats 4000000 in
theorem W1_main_arg0 : W1 m ρ c (Proc.devRef .tc main_arg0) = m ((c : Thread nD τ).loc main_arg0) := by
  show StableHlo.after hostOps0 (W0 m ρ c) (Proc.devRef .tc main_arg0) = _
  dsimp only [hostOps0]
  (after_results) <;> rfl
set_option maxHeartbeats 4000000 in
theorem W1_main_arg2 : W1 m ρ c (Proc.devRef .tc main_arg2) = m ((c : Thread nD τ).loc main_arg2) := by
  show StableHlo.after hostOps0 (W0 m ρ c) (Proc.devRef .tc main_arg2) = _
  dsimp only [hostOps0]
  (after_results) <;> rfl
set_option maxHeartbeats 4000000 in
theorem W1_main_arg3 : W1 m ρ c (Proc.devRef .tc main_arg3) = m ((c : Thread nD τ).loc main_arg3) := by
  show StableHlo.after hostOps0 (W0 m ρ c) (Proc.devRef .tc main_arg3) = _
  dsimp only [hostOps0]
  (after_results) <;> rfl
set_option maxHeartbeats 4000000 in
theorem W1_main_arg4 : W1 m ρ c (Proc.devRef .tc main_arg4) = m ((c : Thread nD τ).loc main_arg4) := by
  show StableHlo.after hostOps0 (W0 m ρ c) (Proc.devRef .tc main_arg4) = _
  dsimp only [hostOps0]
  (after_results) <;> rfl
set_option maxHeartbeats 4000000 in
theorem W1_main_arg5 : W1 m ρ c (Proc.devRef .tc main_arg5) = m ((c : Thread nD τ).loc main_arg5) := by
  show StableHlo.after hostOps0 (W0 m ρ c) (Proc.devRef .tc main_arg5) = _
  dsimp only [hostOps0]
  (after_results) <;> rfl
set_option maxHeartbeats 4000000 in
theorem W1_main_arg6 : W1 m ρ c (Proc.devRef .tc main_arg6) = m ((c : Thread nD τ).loc main_arg6) := by
  show StableHlo.after hostOps0 (W0 m ρ c) (Proc.devRef .tc main_arg6) = _
  dsimp only [hostOps0]
  (after_results) <;> rfl
set_option maxHeartbeats 4000000 in
theorem W1_main_arg7 : W1 m ρ c (Proc.devRef .tc main_arg7) = m ((c : Thread nD τ).loc main_arg7) := by
  show StableHlo.after hostOps0 (W0 m ρ c) (Proc.devRef .tc main_arg7) = _
  dsimp only [hostOps0]
  (after_results) <;> rfl

/-! ## The next stretch selects, node by node, between the inverse square root and zero; over any entry contents -/

theorem where_v14 (Wv : Valuation τ sig (Elt Ideal)) :
    StableHlo.after hostOps0_1 Wv (Proc.devRef .tc main_v14)
      = select (Wv (Proc.devRef .tc main_v12)) (Wv (Proc.devRef .tc main_v13)) (broadcastInDim SN ![] b0N (Wv (Proc.devRef .tc main_cst_2))) := by
  dsimp only [hostOps0_1]
  (after_results) <;> (try simp only [TRef.ofBuf, TRef.toBuf, cast_eq]) <;> rfl
theorem where_v3 (Wv : Valuation τ sig (Elt Ideal)) :
    StableHlo.after hostOps0_1 Wv (Proc.devRef .tc main_v3) = Wv (Proc.devRef .tc main_v3) := by
  dsimp only [hostOps0_1]
  (after_results) <;> rfl
theorem where_v6 (Wv : Valuation τ sig (Elt Ideal)) :
    StableHlo.after hostOps0_1 Wv (Proc.devRef .tc main_v6) = Wv (Proc.devRef .tc main_v6) := by
  dsimp only [hostOps0_1]
  (after_results) <;> rfl
theorem where_main_arg0 (Wv : Valuation τ sig (Elt Ideal)) :
    StableHlo.after hostOps0_1 Wv (Proc.devRef .tc main_arg0) = Wv (Proc.devRef .tc main_arg0) := by
  dsimp only [hostOps0_1]
  (after_results) <;> rfl
theorem where_main_arg2 (Wv : Valuation τ sig (Elt Ideal)) :
    StableHlo.after hostOps0_1 Wv (Proc.devRef .tc main_arg2) = Wv (Proc.devRef .tc main_arg2) := by
  dsimp only [hostOps0_1]
  (after_results) <;> rfl
theorem where_main_arg3 (Wv : Valuation τ sig (Elt Ideal)) :
    StableHlo.after hostOps0_1 Wv (Proc.devRef .tc main_arg3) = Wv (Proc.devRef .tc main_arg3) := by
  dsimp only [hostOps0_1]
  (after_results) <;> rfl
theorem where_main_arg4 (Wv : Valuation τ sig (Elt Ideal)) :
    StableHlo.after hostOps0_1 Wv (Proc.devRef .tc main_arg4) = Wv (Proc.devRef .tc main_arg4) := by
  dsimp only [hostOps0_1]
  (after_results) <;> rfl
theorem where_main_arg5 (Wv : Valuation τ sig (Elt Ideal)) :
    StableHlo.after hostOps0_1 Wv (Proc.devRef .tc main_arg5) = Wv (Proc.devRef .tc main_arg5) := by
  dsimp only [hostOps0_1]
  (after_results) <;> rfl
theorem where_main_arg6 (Wv : Valuation τ sig (Elt Ideal)) :
    StableHlo.after hostOps0_1 Wv (Proc.devRef .tc main_arg6) = Wv (Proc.devRef .tc main_arg6) := by
  dsimp only [hostOps0_1]
  (after_results) <;> rfl
theorem where_main_arg7 (Wv : Valuation τ sig (Elt Ideal)) :
    StableHlo.after hostOps0_1 Wv (Proc.devRef .tc main_arg7) = Wv (Proc.devRef .tc main_arg7) := by
  dsimp only [hostOps0_1]
  (after_results) <;> rfl

/-! ## At the first call's entry -/

theorem W2_v14 : W2 m ρ c (Proc.devRef .tc main_v14) = dinv (dcolOf (m ((c : Thread nD τ).loc main_arg1))) := by
  refine (where_v14 (W1 m ρ c)).trans ?_
  rw [W1_v12, W1_v13, W1_cst2]
  rfl
theorem W2_v3 : W2 m ρ c (Proc.devRef .tc main_v3) = srcVec (m ((c : Thread nD τ).loc main_arg1)) :=
  (where_v3 (W1 m ρ c)).trans (W1_v3 m ρ c)
theorem W2_v6 : W2 m ρ c (Proc.devRef .tc main_v6) = dstVec (m ((c : Thread nD τ).loc main_arg1)) :=
  (where_v6 (W1 m ρ c)).trans (W1_v6 m ρ c)
theorem W2_main_arg0 : W2 m ρ c (Proc.devRef .tc main_arg0) = m ((c : Thread nD τ).loc main_arg0) :=
  (where_main_arg0 (W1 m ρ c)).trans (W1_main_arg0 m ρ c)
theorem W2_main_arg2 : W2 m ρ c (Proc.devRef .tc main_arg2) = m ((c : Thread nD τ).loc main_arg2) :=
  (where_main_arg2 (W1 m ρ c)).trans (W1_main_arg2 m ρ c)
theorem W2_main_arg3 : W2 m ρ c (Proc.devRef .tc main_arg3) = m ((c : Thread nD τ).loc main_arg3) :=
  (where_main_arg3 (W1 m ρ c)).trans (W1_main_arg3 m ρ c)
theorem W2_main_arg4 : W2 m ρ c (Proc.devRef .tc main_arg4) = m ((c : Thread nD τ).loc main_arg4) :=
  (where_main_arg4 (W1 m ρ c)).trans (W1_main_arg4 m ρ c)
theorem W2_main_arg5 : W2 m ρ c (Proc.devRef .tc main_arg5) = m ((c : Thread nD τ).loc main_arg5) :=
  (where_main_arg5 (W1 m ρ c)).trans (W1_main_arg5 m ρ c)
theorem W2_main_arg6 : W2 m ρ c (Proc.devRef .tc main_arg6) = m ((c : Thread nD τ).loc main_arg6) :=
  (where_main_arg6 (W1 m ρ c)).trans (W1_main_arg6 m ρ c)
theorem W2_main_arg7 : W2 m ρ c (Proc.devRef .tc main_arg7) = m ((c : Thread nD τ).loc main_arg7) :=
  (where_main_arg7 (W1 m ρ c)).trans (W1_main_arg7 m ρ c)

/-! ## After the first call: x·w1 -/

theorem W3_v15 : W3 m ρ c (Proc.devRef .tc main_v15) = lin (m ((c : Thread nD τ).loc main_arg0)) (m ((c : Thread nD τ).loc main_arg2)) := by
  refine (W3_arr m ρ c 2).trans ?_
  rw [Cert.KernelIdeal.BlockValue.region0 (V2 m ρ) c]
  show lin (W2 m ρ c (Proc.devRef .tc main_arg0)) (W2 m ρ c (Proc.devRef .tc main_arg2)) = _
  rw [W2_main_arg0, W2_main_arg2]
theorem W3_v3 : W3 m ρ c (Proc.devRef .tc main_v3) = srcVec (m ((c : Thread nD τ).loc main_arg1)) :=
  (W3_of_ne m ρ c main_v3 (by decide)).trans (W2_v3 m ρ c)
theorem W3_v6 : W3 m ρ c (Proc.devRef .tc main_v6) = dstVec (m ((c : Thread nD τ).loc main_arg1)) :=
  (W3_of_ne m ρ c main_v6 (by decide)).trans (W2_v6 m ρ c)
theorem W3_v14 : W3 m ρ c (Proc.devRef .tc main_v14) = dinv (dcolOf (m ((c : Thread nD τ).loc main_arg1))) :=
  (W3_of_ne m ρ c main_v14 (by decide)).trans (W2_v14 m ρ c)
theorem W3_main_arg3 : W3 m ρ c (Proc.devRef .tc main_arg3) = m ((c : Thread nD τ).loc main_arg3) :=
  (W3_of_ne m ρ c main_arg3 (by decide)).trans (W2_main_arg3 m ρ c)
theorem W3_main_arg4 : W3 m ρ c (Proc.devRef .tc main_arg4) = m ((c : Thread nD τ).loc main_arg4) :=
  (W3_of_ne m ρ c main_arg4 (by decide)).trans (W2_main_arg4 m ρ c)
theorem W3_main_arg5 : W3 m ρ c (Proc.devRef .tc main_arg5) = m ((c : Thread nD τ).loc main_arg5) :=
  (W3_of_ne m ρ c main_arg5 (by decide)).trans (W2_main_arg5 m ρ c)
theorem W3_main_arg6 : W3 m ρ c (Proc.devRef .tc main_arg6) = m ((c : Thread nD τ).loc main_arg6) :=
  (W3_of_ne m ρ c main_arg6 (by decide)).trans (W2_main_arg6 m ρ c)
theorem W3_main_arg7 : W3 m ρ c (Proc.devRef .tc main_arg7) = m ((c : Thread nD τ).loc main_arg7) :=
  (W3_of_ne m ρ c main_arg7 (by decide)).trans (W2_main_arg7 m ρ c)

/-! ## After the next stretch: one round of message passing over x·w1, and the first bias as a row -/

set_option maxHeartbeats 2000000 in
theorem W4_v43 : W4 m ρ c (Proc.devRef .tc main_v43) = propagate (dcolOf (m ((c : Thread nD τ).loc main_arg1))) (wrap (srcVec (m ((c : Thread nD τ).loc main_arg1)))) (wrap (dstVec (m ((c : Thread nD τ).loc main_arg1)))) (lin (m ((c : Thread nD τ).loc main_arg0)) (m ((c : Thread nD τ).loc main_arg2))) := by
  show StableHlo.after hostOps1 (W3 m ρ c) (Proc.devRef .tc main_v43) = _
  dsimp only [hostOps1]
  after_results_simp
  rw [W3_v15, W3_v3, W3_v6, W3_v14]
  rfl
set_option maxHeartbeats 2000000 in
theorem W4_v44 : W4 m ρ c (Proc.devRef .tc main_v44) = shapeCast ⟨2, ![1, 128]⟩ (m ((c : Thread nD τ).loc main_arg3)) sc128 := by
  show StableHlo.after hostOps1 (W3 m ρ c) (Proc.devRef .tc main_v44) = _
  dsimp only [hostOps1]
  after_results_simp
  rw [W3_main_arg3]
  rfl
set_option maxHeartbeats 2000000 in
theorem W4_v3 : W4 m ρ c (Proc.devRef .tc main_v3) = srcVec (m ((c : Thread nD τ).loc main_arg1)) := by
  show StableHlo.after hostOps1 (W3 m ρ c) (Proc.devRef .tc main_v3) = _
  dsimp only [hostOps1]
  after_results_simp
  exact W3_v3 m ρ c
set_option maxHeartbeats 2000000 in
theorem W4_v6 : W4 m ρ c (Proc.devRef .tc main_v6) = dstVec (m ((c : Thread nD τ).loc main_arg1)) := by
  show StableHlo.after hostOps1 (W3 m ρ c) (Proc.devRef .tc main_v6) = _
  dsimp only [hostOps1]
  after_results_simp
  exact W3_v6 m ρ c
set_option maxHeartbeats 2000000 in
theorem W4_v14 : W4 m ρ c (Proc.devRef .tc main_v14) = dinv (dcolOf (m ((c : Thread nD τ).loc main_arg1))) := by
  show StableHlo.after hostOps1 (W3 m ρ c) (Proc.devRef .tc main_v14) = _
  dsimp only [hostOps1]
  after_results_simp
  exact W3_v14 m ρ c
set_option maxHeartbeats 2000000 in
theorem W4_main_arg4 : W4 m ρ c (Proc.devRef .tc main_arg4) = m ((c : Thread nD τ).loc main_arg4) := by
  show StableHlo.after hostOps1 (W3 m ρ c) (Proc.devRef .tc main_arg4) = _
  dsimp only [hostOps1]
  after_results_simp
  exact W3_main_arg4 m ρ c
set_option maxHeartbeats 2000000 in
theorem W4_main_arg5 : W4 m ρ c (Proc.devRef .tc main_arg5) = m ((c : Thread nD τ).loc main_arg5) := by
  show StableHlo.after hostOps1 (W3 m ρ c) (Proc.devRef .tc main_arg5) = _
  dsimp only [hostOps1]
  after_results_simp
  exact W3_main_arg5 m ρ c
set_option maxHeartbeats 2000000 in
theorem W4_main_arg6 : W4 m ρ c (Proc.devRef .tc main_arg6) = m ((c : Thread nD τ).loc main_arg6) := by
  show StableHlo.after hostOps1 (W3 m ρ c) (Proc.devRef .tc main_arg6) = _
  dsimp only [hostOps1]
  after_results_simp
  exact W3_main_arg6 m ρ c
set_option maxHeartbeats 2000000 in
theorem W4_main_arg7 : W4 m ρ c (Proc.devRef .tc main_arg7) = m ((c : Thread nD τ).loc main_arg7) := by
  show StableHlo.after hostOps1 (W3 m ρ c) (Proc.devRef .tc main_arg7) = _
  dsimp only [hostOps1]
  after_results_simp
  exact W3_main_arg7 m ρ c

/-! ## After the second call: the first layer -/

theorem W5_v45 : W5 m ρ c (Proc.devRef .tc main_v45) = layer (dcolOf (m ((c : Thread nD τ).loc main_arg1))) (wrap (srcVec (m ((c : Thread nD τ).loc main_arg1)))) (wrap (dstVec (m ((c : Thread nD τ).loc main_arg1)))) (m ((c : Thread nD τ).loc main_arg0)) (m ((c : Thread nD τ).loc main_arg2)) (shapeCast ⟨2, ![1, 128]⟩ (m ((c : Thread nD τ).loc main_arg3)) sc128) := by
  refine (W5_arr m ρ c 2).trans ?_
  rw [Cert.KernelIdeal.BlockValue.region1 (V4 m ρ) c]
  show biasRelu (W4 m ρ c (Proc.devRef .tc main_v43)) (W4 m ρ c (Proc.devRef .tc main_v44)) = _
  rw [W4_v43, W4_v44]
  rfl
theorem W5_v3 : W5 m ρ c (Proc.devRef .tc main_v3) = srcVec (m ((c : Thread nD τ).loc main_arg1)) :=
  (W5_of_ne m ρ c main_v3 (by decide)).trans (W4_v3 m ρ c)
theorem W5_v6 : W5 m ρ c (Proc.devRef .tc main_v6) = dstVec (m ((c : Thread nD τ).loc main_arg1)) :=
  (W5_of_ne m ρ c main_v6 (by decide)).trans (W4_v6 m ρ c)
theorem W5_v14 : W5 m ρ c (Proc.devRef .tc main_v14) = dinv (dcolOf (m ((c : Thread nD τ).loc main_arg1))) :=
  (W5_of_ne m ρ c main_v14 (by decide)).trans (W4_v14 m ρ c)
theorem W5_main_arg4 : W5 m ρ c (Proc.devRef .tc main_arg4) = m ((c : Thread nD τ).loc main_arg4) :=
  (W5_of_ne m ρ c main_arg4 (by decide)).trans (W4_main_arg4 m ρ c)
theorem W5_main_arg5 : W5 m ρ c (Proc.devRef .tc main_arg5) = m ((c : Thread nD τ).loc main_arg5) :=
  (W5_of_ne m ρ c main_arg5 (by decide)).trans (W4_main_arg5 m ρ c)
theorem W5_main_arg6 : W5 m ρ c (Proc.devRef .tc main_arg6) = m ((c : Thread nD τ).loc main_arg6) :=
  (W5_of_ne m ρ c main_arg6 (by decide)).trans (W4_main_arg6 m ρ c)
theorem W5_main_arg7 : W5 m ρ c (Proc.devRef .tc main_arg7) = m ((c : Thread nD τ).loc main_arg7) :=
  (W5_of_ne m ρ c main_arg7 (by decide)).trans (W4_main_arg7 m ρ c)

/-! ## After the third call: the first layer times w2 -/

theorem W6_v46 : W6 m ρ c (Proc.devRef .tc main_v46) = lin (layer (dcolOf (m ((c : Thread nD τ).loc main_arg1))) (wrap (srcVec (m ((c : Thread nD τ).loc main_arg1)))) (wrap (dstVec (m ((c : Thread nD τ).loc main_arg1)))) (m ((c : Thread nD τ).loc main_arg0)) (m ((c : Thread nD τ).loc main_arg2)) (shapeCast ⟨2, ![1, 128]⟩ (m ((c : Thread nD τ).loc main_arg3)) sc128)) (m ((c : Thread nD τ).loc main_arg4)) := by
  refine (W6_arr m ρ c 2).trans ?_
  rw [Cert.KernelIdeal.BlockValue.region2 (V5 m ρ) c]
  show lin (W5 m ρ c (Proc.devRef .tc main_v45)) (W5 m ρ c (Proc.devRef .tc main_arg4)) = _
  rw [W5_v45, W5_main_arg4]
theorem W6_v3 : W6 m ρ c (Proc.devRef .tc main_v3) = srcVec (m ((c : Thread nD τ).loc main_arg1)) :=
  (W6_of_ne m ρ c main_v3 (by decide)).trans (W5_v3 m ρ c)
theorem W6_v6 : W6 m ρ c (Proc.devRef .tc main_v6) = dstVec (m ((c : Thread nD τ).loc main_arg1)) :=
  (W6_of_ne m ρ c main_v6 (by decide)).trans (W5_v6 m ρ c)
theorem W6_v14 : W6 m ρ c (Proc.devRef .tc main_v14) = dinv (dcolOf (m ((c : Thread nD τ).loc main_arg1))) :=
  (W6_of_ne m ρ c main_v14 (by decide)).trans (W5_v14 m ρ c)
theorem W6_main_arg5 : W6 m ρ c (Proc.devRef .tc main_arg5) = m ((c : Thread nD τ).loc main_arg5) :=
  (W6_of_ne m ρ c main_arg5 (by decide)).trans (W5_main_arg5 m ρ c)
theorem W6_main_arg6 : W6 m ρ c (Proc.devRef .tc main_arg6) = m ((c : Thread nD τ).loc main_arg6) :=
  (W6_of_ne m ρ c main_arg6 (by decide)).trans (W5_main_arg6 m ρ c)
theorem W6_main_arg7 : W6 m ρ c (Proc.devRef .tc main_arg7) = m ((c : Thread nD τ).loc main_arg7) :=
  (W6_of_ne m ρ c main_arg7 (by decide)).trans (W5_main_arg7 m ρ c)

/-! ## After the next stretch: message passing over it, and the second bias as a row -/

set_option maxHeartbeats 2000000 in
theorem W7_v74 : W7 m ρ c (Proc.devRef .tc main_v74) = propagate (dcolOf (m ((c : Thread nD τ).loc main_arg1))) (wrap (srcVec (m ((c : Thread nD τ).loc main_arg1)))) (wrap (dstVec (m ((c : Thread nD τ).loc main_arg1)))) (lin (layer (dcolOf (m ((c : Thread nD τ).loc main_arg1))) (wrap (srcVec (m ((c : Thread nD τ).loc main_arg1)))) (wrap (dstVec (m ((c : Thread nD τ).loc main_arg1)))) (m ((c : Thread nD τ).loc main_arg0)) (m ((c : Thread nD τ).loc main_arg2)) (shapeCast ⟨2, ![1, 128]⟩ (m ((c : Thread nD τ).loc main_arg3)) sc128)) (m ((c : Thread nD τ).loc main_arg4))) := by
  show StableHlo.after hostOps3 (W6 m ρ c) (Proc.devRef .tc main_v74) = _
  dsimp only [hostOps3]
  after_results_simp
  rw [W6_v46, W6_v3, W6_v6, W6_v14]
  rfl
set_option maxHeartbeats 2000000 in
theorem W7_v75 : W7 m ρ c (Proc.devRef .tc main_v75) = shapeCast ⟨2, ![1, 128]⟩ (m ((c : Thread nD τ).loc main_arg5)) sc128 := by
  show StableHlo.after hostOps3 (W6 m ρ c) (Proc.devRef .tc main_v75) = _
  dsimp only [hostOps3]
  after_results_simp
  rw [W6_main_arg5]
  rfl
set_option maxHeartbeats 2000000 in
theorem W7_main_arg6 : W7 m ρ c (Proc.devRef .tc main_arg6) = m ((c : Thread nD τ).loc main_arg6) := by
  show StableHlo.after hostOps3 (W6 m ρ c) (Proc.devRef .tc main_arg6) = _
  dsimp only [hostOps3]
  after_results_simp
  exact W6_main_arg6 m ρ c
set_option maxHeartbeats 2000000 in
theorem W7_main_arg7 : W7 m ρ c (Proc.devRef .tc main_arg7) = m ((c : Thread nD τ).loc main_arg7) := by
  show StableHlo.after hostOps3 (W6 m ρ c) (Proc.devRef .tc main_arg7) = _
  dsimp only [hostOps3]
  after_results_simp
  exact W6_main_arg7 m ρ c

/-! ## After the fourth call: the second layer -/

theorem W8_v76 : W8 m ρ c (Proc.devRef .tc main_v76) = layer (dcolOf (m ((c : Thread nD τ).loc main_arg1))) (wrap (srcVec (m ((c : Thread nD τ).loc main_arg1)))) (wrap (dstVec (m ((c : Thread nD τ).loc main_arg1)))) (layer (dcolOf (m ((c : Thread nD τ).loc main_arg1))) (wrap (srcVec (m ((c : Thread nD τ).loc main_arg1)))) (wrap (dstVec (m ((c : Thread nD τ).loc main_arg1)))) (m ((c : Thread nD τ).loc main_arg0)) (m ((c : Thread nD τ).loc main_arg2)) (shapeCast ⟨2, ![1, 128]⟩ (m ((c : Thread nD τ).loc main_arg3)) sc128)) (m ((c : Thread nD τ).loc main_arg4)) (shapeCast ⟨2, ![1, 128]⟩ (m ((c : Thread nD τ).loc main_arg5)) sc128) := by
  refine (W8_arr m ρ c 2).trans ?_
  rw [Cert.KernelIdeal.BlockValue.region3 (V7 m ρ) c]
  show biasRelu (W7 m ρ c (Proc.devRef .tc main_v74)) (W7 m ρ c (Proc.devRef .tc main_v75)) = _
  rw [W7_v74, W7_v75]
  rfl
theorem W8_main_arg6 : W8 m ρ c (Proc.devRef .tc main_arg6) = m ((c : Thread nD τ).loc main_arg6) :=
  (W8_of_ne m ρ c main_arg6 (by decide)).trans (W7_main_arg6 m ρ c)
theorem W8_main_arg7 : W8 m ρ c (Proc.devRef .tc main_arg7) = m ((c : Thread nD τ).loc main_arg7) :=
  (W8_of_ne m ρ c main_arg7 (by decide)).trans (W7_main_arg7 m ρ c)

/-! ## After the last stretch: the third bias as a row -/

set_option maxHeartbeats 2000000 in
theorem W9_v77 : W9 m ρ c (Proc.devRef .tc main_v77) = shapeCast ⟨2, ![1, 2]⟩ (m ((c : Thread nD τ).loc main_arg7)) sc2 := by
  show StableHlo.after hostOps4 (W8 m ρ c) (Proc.devRef .tc main_v77) = _
  dsimp only [hostOps4]
  after_results_simp
  rw [W8_main_arg7]
  rfl
set_option maxHeartbeats 2000000 in
theorem W9_v76 : W9 m ρ c (Proc.devRef .tc main_v76) = layer (dcolOf (m ((c : Thread nD τ).loc main_arg1))) (wrap (srcVec (m ((c : Thread nD τ).loc main_arg1)))) (wrap (dstVec (m ((c : Thread nD τ).loc main_arg1)))) (layer (dcolOf (m ((c : Thread nD τ).loc main_arg1))) (wrap (srcVec (m ((c : Thread nD τ).loc main_arg1)))) (wrap (dstVec (m ((c : Thread nD τ).loc main_arg1)))) (m ((c : Thread nD τ).loc main_arg0)) (m ((c : Thread nD τ).loc main_arg2)) (shapeCast ⟨2, ![1, 128]⟩ (m ((c : Thread nD τ).loc main_arg3)) sc128)) (m ((c : Thread nD τ).loc main_arg4)) (shapeCast ⟨2, ![1, 128]⟩ (m ((c : Thread nD τ).loc main_arg5)) sc128) := by
  show StableHlo.after hostOps4 (W8 m ρ c) (Proc.devRef .tc main_v76) = _
  dsimp only [hostOps4]
  after_results_simp
  exact W8_v76 m ρ c
set_option maxHeartbeats 2000000 in
theorem W9_main_arg6 : W9 m ρ c (Proc.devRef .tc main_arg6) = m ((c : Thread nD τ).loc main_arg6) := by
  show StableHlo.after hostOps4 (W8 m ρ c) (Proc.devRef .tc main_arg6) = _
  dsimp only [hostOps4]
  after_results_simp
  exact W8_main_arg6 m ρ c

/-! ## The last call: the log-softmax of the logits -/

/-- The result buffer after the run is the network of the arguments, when the float arguments are real. -/
theorem W10_result (h0 : Reals (m ((c : Thread nD τ).loc main_arg0))) (h2 : Reals (m ((c : Thread nD τ).loc main_arg2))) (h3 : Reals (m ((c : Thread nD τ).loc main_arg3)))
    (h4 : Reals (m ((c : Thread nD τ).loc main_arg4))) (h5 : Reals (m ((c : Thread nD τ).loc main_arg5))) (h6 : Reals (m ((c : Thread nD τ).loc main_arg6))) (h7 : Reals (m ((c : Thread nD τ).loc main_arg7))) :
    W10 m ρ c (Proc.devRef .tc main_v78)
      = netOf (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e76 : V9 m ρ c main_v76 = layer (dcolOf (m ((c : Thread nD τ).loc main_arg1))) (wrap (srcVec (m ((c : Thread nD τ).loc main_arg1)))) (wrap (dstVec (m ((c : Thread nD τ).loc main_arg1)))) (layer (dcolOf (m ((c : Thread nD τ).loc main_arg1))) (wrap (srcVec (m ((c : Thread nD τ).loc main_arg1)))) (wrap (dstVec (m ((c : Thread nD τ).loc main_arg1)))) (m ((c : Thread nD τ).loc main_arg0)) (m ((c : Thread nD τ).loc main_arg2)) (shapeCast ⟨2, ![1, 128]⟩ (m ((c : Thread nD τ).loc main_arg3)) sc128)) (m ((c : Thread nD τ).loc main_arg4)) (shapeCast ⟨2, ![1, 128]⟩ (m ((c : Thread nD τ).loc main_arg5)) sc128) := W9_v76 m ρ c
  have e6 : V9 m ρ c main_arg6 = m ((c : Thread nD τ).loc main_arg6) := W9_main_arg6 m ρ c
  have e77 : V9 m ρ c main_v77 = shapeCast ⟨2, ![1, 2]⟩ (m ((c : Thread nD τ).loc main_arg7)) sc2 := W9_v77 m ρ c
  have hreal : Reals (affine (V9 m ρ c main_v76) (V9 m ρ c main_arg6) (V9 m ρ c main_v77)) := by
    rw [e76, e6, e77]
    exact logits_reals _ _ _ _ _ _ _ _ _ _ h0 h2 (reals_row h3 sc128) h4 (reals_row h5 sc128) h6 (reals_row h7 sc2)
  refine (W10_arr m ρ c 3).trans ?_
  rw [Cert.KernelIdeal.BlockValue.region4 (V9 m ρ) c hreal, e76, e6, e77]
  rfl

end Cert.KernelIdeal.Chain

end
-- ==== Proof.RefNet.lean ====
/-
  The reference program's result is the network of its arguments.

  The reference is a sequence of host operations.  Read as whole-array functions, stage by stage, they are the
  specification's: the edge columns, the degrees and their inverse square roots, the edge weights, one round of message
  passing, x·w by dot_general, relu (· + r) with the bias spread by broadcast, x·w + r, and the row-wise log-softmax
  (whose extra maximum against -inf changes nothing).
-/
import proofs.«116533_j5755256176696_1_alg».proof.Proof.RefReadPatched
import proofs.«116533_j5755256176696_1_alg».proof.Proof.Spec

set_option maxRecDepth 16384

noncomputable section

namespace Cert.ReferenceIdeal.RefNet

open Idealize.ShloMosaic Idealize.ShloMosaic.ValueIdx Cert.Gcn Cert.GcnNet Cert.ReferenceIdeal Cert.ReferenceIdeal.Read

/-! ## The reference program, stage by stage

Each stage of the reference program is one of the specification's operations on whole arrays, spelt with the
program's own shape names, dimension records and side-condition proofs. -/

section Stages

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x2, .f32⟩ : BufTy).Contents (Elt Ideal)) (x7 : (⟨S2, .f32⟩ : BufTy).Contents (Elt Ideal))

/-- The sources of the edges, self-loops appended. -/
theorem src_eq : val_main_v3 (F := Ideal) x1 = srcVec x1 := by
  unfold val_main_v3 val_main_v2 val_main_v1 val_main_v0 srcVec endsOf
  rfl

/-- The targets of the edges, self-loops appended. -/
theorem dst_eq : val_main_v6 (F := Ideal) x1 = dstVec x1 := by
  unfold val_main_v6 val_main_v5 val_main_v4 val_main_v0 dstVec endsOf
  rfl

/-- The targets as a column, as the three scatter-adds read them. -/
theorem dcol9_eq : val_main_v9 (F := Ideal) x1 = dcolOf x1 := by
  unfold val_main_v9 dcolOf
  rw [dst_eq]
theorem dcol42_eq : val_main_v42 (F := Ideal) x1 = dcolOf x1 := by
  unfold val_main_v42 dcolOf
  rw [dst_eq]
theorem dcol75_eq : val_main_v75 (F := Ideal) x1 = dcolOf x1 := by
  unfold val_main_v75 dcolOf
  rw [dst_eq]

/-- An end as it indexes a gather, in the program's spelling. -/
theorem wrap_eq (v : IVec SE 32) (h1 : SE.BroadcastsInDim SE1 (![0] : Fin 1 → Fin SE1.rank))
    (h0 : S0.BroadcastsInDim SE (![] : Fin 0 → Fin SE.rank)) :
    broadcastInDim SE1 ![0] h1
      (select (cmpi .slt v (broadcastInDim SE ![] h0 (constantI S0 32 0#32)))
        (addi v (broadcastInDim SE ![] h0 (constantI S0 32 100000#32))) v) = wrap v := rfl

theorem wsrc21_eq : val_main_v21 (F := Ideal) x1 = wrap (srcVec x1) := by
  unfold val_main_v21 val_main_v20 val_main_v19 val_main_v18 val_main_v17 val_main_v16 val_main_c val_main_c_3
  rw [src_eq]
  exact wrap_eq _ _ _
theorem wsrc36_eq : val_main_v36 (F := Ideal) x1 = wrap (srcVec x1) := by
  unfold val_main_v36 val_main_v35 val_main_v34 val_main_v33 val_main_v32 val_main_v31 val_main_c_6 val_main_c_7
  rw [src_eq]
  exact wrap_eq _ _ _
theorem wsrc54_eq : val_main_v54 (F := Ideal) x1 = wrap (srcVec x1) := by
  unfold val_main_v54 val_main_v53 val_main_v52 val_main_v51 val_main_v50 val_main_v49 val_main_c_9 val_main_c_10
  rw [src_eq]
  exact wrap_eq _ _ _
theorem wsrc69_eq : val_main_v69 (F := Ideal) x1 = wrap (srcVec x1) := by
  unfold val_main_v69 val_main_v68 val_main_v67 val_main_v66 val_main_v65 val_main_v64 val_main_c_13 val_main_c_14
  rw [src_eq]
  exact wrap_eq _ _ _
theorem wdst28_eq : val_main_v28 (F := Ideal) x1 = wrap (dstVec x1) := by
  unfold val_main_v28 val_main_v27 val_main_v26 val_main_v25 val_main_v24 val_main_v23 val_main_c_4 val_main_c_5
  rw [dst_eq]
  exact wrap_eq _ _ _
theorem wdst61_eq : val_main_v61 (F := Ideal) x1 = wrap (dstVec x1) := by
  unfold val_main_v61 val_main_v60 val_main_v59 val_main_v58 val_main_v57 val_main_v56 val_main_c_11 val_main_c_12
  rw [dst_eq]
  exact wrap_eq _ _ _

/-- The degrees. -/
theorem deg_eq : val_main_v10 (F := Ideal) x1 = deg (dcolOf x1) := by
  unfold val_main_v10 val_main_v8 val_main_v7 val_main_cst val_main_cst_0
  rw [dcol9_eq]
  rfl

/-- The inverse square roots of the degrees. -/
theorem dinv_eq : val_main_v14 (F := Ideal) x1 = dinv (dcolOf x1) := by
  unfold val_main_v14 val_main_v13 val_main_v12 val_main_v11 val_main_call0_v1 val_main_call0_v0 val_main_cst_1 val_main_cst_2
  rw [deg_eq]
  rfl

/-- The weights of the edges, as each layer computes them. -/
theorem norm30_eq : val_main_v30 (F := Ideal) x1 = norm (dcolOf x1) (wrap (srcVec x1)) (wrap (dstVec x1)) := by
  unfold val_main_v30 val_main_v29 val_main_v22
  rw [dinv_eq, wsrc21_eq, wdst28_eq]
  rfl
theorem norm63_eq : val_main_v63 (F := Ideal) x1 = norm (dcolOf x1) (wrap (srcVec x1)) (wrap (dstVec x1)) := by
  unfold val_main_v63 val_main_v62 val_main_v55
  rw [dinv_eq, wsrc54_eq, wdst61_eq]
  rfl

/-- One round of message passing, as each layer spells it. -/
theorem prop43_eq : val_main_v43 (F := Ideal) x0 x1 x2
    = propagate (dcolOf x1) (wrap (srcVec x1)) (wrap (dstVec x1)) (val_main_v15 (F := Ideal) x0 x2) := by
  unfold val_main_v43 val_main_v41 val_main_v40 val_main_v39 val_main_v38 val_main_v37 val_main_cst_8
  rw [dcol42_eq, wsrc36_eq, norm30_eq]
  rfl
theorem prop76_eq : val_main_v76 (F := Ideal) x0 x1 x2 x3 x4
    = propagate (dcolOf x1) (wrap (srcVec x1)) (wrap (dstVec x1)) (val_main_v48 (F := Ideal) x0 x1 x2 x3 x4) := by
  unfold val_main_v76 val_main_v74 val_main_v73 val_main_v72 val_main_v71 val_main_v70 val_main_cst_15
  rw [dcol75_eq, wsrc69_eq, norm63_eq]
  rfl

/-- The two projections. -/
theorem lin15_eq : val_main_v15 (F := Ideal) x0 x2 = lin x0 x2 := by
  unfold val_main_v15
  exact dotGeneral_eq_lin (A := 100000) (K := 128) (C := 128) .single x0 x2
theorem lin48_eq : val_main_v48 (F := Ideal) x0 x1 x2 x3 x4 = lin (val_main_v47 (F := Ideal) x0 x1 x2 x3) x4 := by
  unfold val_main_v48
  exact dotGeneral_eq_lin (A := 100000) (K := 128) (C := 128) .single _ x4

/-- A bias vector laid out as one row. -/
theorem bias44_eq : val_main_v44 (F := Ideal) x3 = shapeCast ⟨2, ![1, 128]⟩ x3 sc128 := by
  unfold val_main_v44
  exact (rowCast_eq_rowBcast (C := 128) x3 sc128 _).symm
theorem bias77_eq : val_main_v77 (F := Ideal) x5 = shapeCast ⟨2, ![1, 128]⟩ x5 sc128 := by
  unfold val_main_v77
  exact (rowCast_eq_rowBcast (C := 128) x5 sc128 _).symm
theorem bias82_eq : val_main_v82 (F := Ideal) x7 = shapeCast ⟨2, ![1, 2]⟩ x7 sc2 := by
  unfold val_main_v82
  exact (rowCast_eq_rowBcast (C := 2) x7 sc2 _).symm

/-- The first layer. -/
theorem layer47_eq : val_main_v47 (F := Ideal) x0 x1 x2 x3
    = layer (dcolOf x1) (wrap (srcVec x1)) (wrap (dstVec x1)) x0 x2 (shapeCast ⟨2, ![1, 128]⟩ x3 sc128) := by
  unfold val_main_v47 val_main_v46 val_main_v45 val_main_call1_v0 val_main_call1_cst layer
  rw [prop43_eq, lin15_eq, bias44_eq]
  exact host_biasRelu (A := 100000) (C := 128) _ _ _ _

/-- The second layer, over the first layer's rows. -/
theorem layer80_eq : val_main_v80 (F := Ideal) x0 x1 x2 x3 x4 x5
    = layer (dcolOf x1) (wrap (srcVec x1)) (wrap (dstVec x1)) (val_main_v47 (F := Ideal) x0 x1 x2 x3) x4
        (shapeCast ⟨2, ![1, 128]⟩ x5 sc128) := by
  unfold val_main_v80 val_main_v79 val_main_v78 val_main_call2_v0 val_main_call2_cst layer
  rw [prop76_eq, lin48_eq, bias77_eq]
  exact host_biasRelu (A := 100000) (C := 128) _ _ _ _

/-- The linear read-out. -/
theorem logits84_eq : val_main_v84 (F := Ideal) x0 x1 x2 x3 x4 x5 x6 x7
    = affine (val_main_v80 (F := Ideal) x0 x1 x2 x3 x4 x5) x6 (shapeCast ⟨2, ![1, 2]⟩ x7 sc2) := by
  unfold val_main_v84 val_main_v83 val_main_v81
  rw [bias82_eq]
  exact host_affine (A := 100000) (K := 128) (C := 2) .single _ x6 _ _

/-- The row-wise log-softmax of the read-out. -/
theorem lsm85_eq : val_main_v85 (F := Ideal) x0 x1 x2 x3 x4 x5 x6 x7
    = logSoftmax (val_main_v84 (F := Ideal) x0 x1 x2 x3 x4 x5 x6 x7) := by
  unfold val_main_v85 val_main_call3_v10 val_main_call3_v9 val_main_call3_v8 val_main_call3_v7 val_main_call3_v6
    val_main_call3_v5 val_main_call3_v4 val_main_call3_v3 val_main_call3_v2 val_main_call3_v1 val_main_call3_v0
    val_main_call3_cst val_main_call3_cst_0 val_main_call3_cst_1
  exact host_logSoftmax_of (A := 100000) (C := 2) _ _ (by decide) _ _ _ _

end Stages

theorem ref_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x2, .f32⟩ : BufTy).Contents (Elt Ideal)) (x7 : (⟨S2, .f32⟩ : BufTy).Contents (Elt Ideal)) :
    val_main_v85 (F := Ideal) x0 x1 x2 x3 x4 x5 x6 x7 = netOf x1 x0 x2 x3 x4 x5 x6 x7 := by
  rw [lsm85_eq, logits84_eq, layer80_eq, layer47_eq]
  rfl

end Cert.ReferenceIdeal.RefNet

end
-- ==== Proof.LibFiniteEntries.lean ====
/-
  A finiteness precondition read back, one array at a time (a general lemma: nothing here depends on a program).

  A precondition "every entry of a is finite" compares the absolute value of each entry with plus infinity and
  takes the conjunction over the array.  At the exact values an extended real whose absolute value is below plus
  infinity is neither infinity, so it is a real number; hence, when the conjunction over the whole array is true,
  every entry of the array is a real number.  Any shape, any reduced axes as long as the result has one index.
-/
import Idealize.ShloMosaic.Lib.ReduceAll
import Idealize.ShloMosaic.Lib.ValueIdx
import Idealize.ShloMosaic.PureOps.Ideal

noncomputable section

namespace Cert.Lib.FiniteEntries

open Idealize.ShloMosaic

/-- The f32 pattern 0x7F800000 denotes plus infinity. -/
theorem ofBits_inf_f32 : Ideal.ofBits .f32 0x7F800000#32 = ⊤ := by simp [Ideal.ofBits, Ideal.ieee]

/-- An extended real whose absolute value is below plus infinity is a real number. -/
theorem real_of_abs_lt (x : EReal) (h : Ideal.cmp .olt (max x (-x)) (Ideal.ofBits .f32 0x7F800000#32) = 1#1) :
    ∃ r : ℝ, x = (r : EReal) := by
  rw [ofBits_inf_f32] at h
  induction x using EReal.rec with
  | bot => simp [Ideal.cmp] at h
  | coe r => exact ⟨r, rfl⟩
  | top => simp [Ideal.cmp] at h

/-- When the conjunction over a whole f32 array of "absolute value below plus infinity" is true, every entry of the
    array is a real number. -/
theorem reals_of_all_abs_lt {s u t : Shape} {axes : List (Fin s.rank)} [Subsingleton t.Idx] (a : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf a) (broadcastInDim s ![] hb (constant (F := Ideal) ⟨0, ![]⟩ .f32 0x7F800000#32))) init h hu j = 1#1) :
    ∀ i, ∃ r : ℝ, a i = (r : EReal) :=
  fun i => real_of_abs_lt _ (Host.reduce_andi_all _ _ _ _ _ e i)

end Cert.Lib.FiniteEntries

end
-- ==== Proof.PreReals.lean ====
/-
  The precondition says every float argument is finite; at the exact values that makes every entry of each of the seven
  float arguments a real number.
-/
import proofs.«116533_j5755256176696_1_alg».proof.Proof.Gen.Pre_finite_inputs
import proofs.«116533_j5755256176696_1_alg».proof.Proof.Spec
import proofs.«116533_j5755256176696_1_alg».proof.Proof.LibFiniteEntries

set_option maxRecDepth 16384

noncomputable section

namespace Cert.GcnNet

open Idealize.ShloMosaic

/-- The scalar shape has one index. -/
instance subsingletonScalarIdx : Subsingleton Cert.Pre_finite_inputs.S_.Idx := ⟨fun a b => funext fun d => d.elim0⟩

/-- The precondition is a conjunction, over the seven float arguments, of "every entry has absolute value below plus
    infinity"; each conjunct says that every entry of its argument is a real number. -/
theorem reals_of_pre (a0 : FVec Ideal Cert.Pre_finite_inputs.S100000x128 .f32) (a1 : IVec Cert.Pre_finite_inputs.S2x1600000 32)
    (a2 : FVec Ideal Cert.Pre_finite_inputs.S128x128 .f32) (a3 : FVec Ideal Cert.Pre_finite_inputs.S128 .f32)
    (a4 : FVec Ideal Cert.Pre_finite_inputs.S128x128 .f32) (a5 : FVec Ideal Cert.Pre_finite_inputs.S128 .f32)
    (a6 : FVec Ideal Cert.Pre_finite_inputs.S128x2 .f32) (a7 : FVec Ideal Cert.Pre_finite_inputs.S2 .f32)
    (h : Cert.Pre_finite_inputs.fn (F := Ideal) a0 a1 a2 a3 a4 a5 a6 a7 = fun _ => 1#1) :
    Reals a0 ∧ Reals a2 ∧ Reals a3 ∧ Reals a4 ∧ Reals a5 ∧ Reals a6 ∧ Reals a7 := by
  have h0 := congrFun h ValueIdx.ix0
  unfold Cert.Pre_finite_inputs.fn Cert.Pre_finite_inputs.fn_part1 at h0
  dsimp only [andi] at h0
  simp only [IntOp.andi_eq_one] at h0
  obtain ⟨⟨⟨⟨⟨⟨e0, e2⟩, e3⟩, e4⟩, e5⟩, e6⟩, e7⟩ := h0
  exact ⟨Cert.Lib.FiniteEntries.reals_of_all_abs_lt a0 _ _ _ _ ValueIdx.ix0 e0,
    Cert.Lib.FiniteEntries.reals_of_all_abs_lt a2 _ _ _ _ ValueIdx.ix0 e2,
    Cert.Lib.FiniteEntries.reals_of_all_abs_lt a3 _ _ _ _ ValueIdx.ix0 e3,
    Cert.Lib.FiniteEntries.reals_of_all_abs_lt a4 _ _ _ _ ValueIdx.ix0 e4,
    Cert.Lib.FiniteEntries.reals_of_all_abs_lt a5 _ _ _ _ ValueIdx.ix0 e5,
    Cert.Lib.FiniteEntries.reals_of_all_abs_lt a6 _ _ _ _ ValueIdx.ix0 e6,
    Cert.Lib.FiniteEntries.reals_of_all_abs_lt a7 _ _ _ _ ValueIdx.ix0 e7⟩

end Cert.GcnNet

end
-- ==== Proof.lean ====
/-
  The certificate: a two-layer graph convolution with a linear read-out and a row-wise log-softmax, computed by five
  pallas_calls among the host's gathers and scatter-adds, against the plain jnp reference.

  Both programs end with the network 'netOf' of the arguments (Proof/Spec.lean) in their result array: the kernel
  program by its five calls' blocks assembled into whole arrays and carried through the host stretches between them
  (Proof/KernelChain.lean over Proof/Region0 … Region4), the reference by its host operations read as whole-array
  functions (Proof/RefNet.lean).  The two differ in one place: the last call subtracts (m + log s) from the logits where
  the reference subtracts m and then log s, m the row maximum and s the row's sum of shifted exponentials; on the
  extended reals the two agree because m is a real number, and it is because every float argument is finite
  (Proof/Finite.lean, Proof/PreReals.lean): that is where the precondition is used.  The idealization rewrote nothing,
  so what it preserves is trivial.
-/
import proofs.«116533_j5755256176696_1_alg».proof.Defs
import proofs.«116533_j5755256176696_1_alg».proof.Proof.Gen.Kernel
import proofs.«116533_j5755256176696_1_alg».proof.Proof.Gen.Kernel.Frame
import proofs.«116533_j5755256176696_1_alg».proof.Proof.Gen.KernelIdeal
import proofs.«116533_j5755256176696_1_alg».proof.Proof.Gen.KernelIdeal.Frame
import proofs.«116533_j5755256176696_1_alg».proof.Proof.Gen.ReferenceIdeal
import proofs.«116533_j5755256176696_1_alg».proof.Proof.Gen.Pre_finite_inputs
import proofs.«116533_j5755256176696_1_alg».proof.Proof.RefReadPatched
import proofs.«116533_j5755256176696_1_alg».proof.Proof.KernelRun
import proofs.«116533_j5755256176696_1_alg».proof.Proof.KernelChain
import proofs.«116533_j5755256176696_1_alg».proof.Proof.RefNet
import proofs.«116533_j5755256176696_1_alg».proof.Proof.PreReals
import Idealize.ShloMosaic.Adequacy
import Idealize.ShloMosaic.Init

set_option maxRecDepth 16384

noncomputable section

namespace Cert.Proof

open Idealize.ShloMosaic Idealize.ShloMosaic.TcCoe Idealize.SL.Sem Cert.GcnNet

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the arguments; the kernel program's last call needs the float arguments
    real, which the precondition says. -/
theorem algebraic : Cert.algebraic_KernelIdeal_ReferenceIdeal := by
  intro m ρ m' ρ' hpre hagree
  refine ⟨fun c => netOf (m ((c.tc : Thread Cert.KernelIdeal.nD Cert.KernelIdeal.τ).loc Cert.KernelIdeal.main_arg1)) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.Run.run_result (F := Ideal) m ρ)
    obtain ⟨h0, h2, h3, h4, h5, h6, h7⟩ := reals_of_pre _ _ _ _ _ _ _ _ (hpre c)
    exact Cert.KernelIdeal.Chain.W10_result m ρ c h0 h2 h3 h4 h5 h6 h7
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v85_eq, Cert.ReferenceIdeal.RefNet.ref_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
